-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S100x2x256 : Shape := ⟨3, ![100, 2, 256]⟩
abbrev S100x2 : Shape := ⟨2, ![100, 2]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S100x2x256 : S_.BroadcastsInDim S100x2x256 (![] : Fin 0 → Fin S100x2x256.rank)
  reducesTo_S100x2x256_S_d0_1_2 : S100x2x256.ReducesTo [0, 1, 2] S_
  bcast_S_S100x2 : S_.BroadcastsInDim S100x2 (![] : Fin 0 → Fin S100x2.rank)
  reducesTo_S100x2_S_d0_1 : S100x2.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg1 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x256 .f32) (main_arg1 : IVec S131072 32) (main_arg2 : FVec F S100x2x256 .f32) (main_arg3 : FVec F S100x2 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S100x2x256 .f32 := Host.absf main_arg2
  let main_cst_0 : FVec F S_ .f32 := constant S_ .f32 0x7F800000#32
  let main_v5 : FVec F S100x2x256 .f32 := broadcastInDim S100x2x256 ![] bcast_S_S100x2x256 main_cst_0
  let main_v6 : IVec S100x2x256 1 := cmpf .olt main_v4 main_v5
  let main_c_1 : IVec S_ 1 := constantI S_ 1 1#1
  let main_v7 : IVec S_ 1 := (fun x v => Host.reduce IntOp.andi x v reducesTo_S100x2x256_S_d0_1_2 h_S_) main_v6 main_c_1
  let main_v8 : IVec S_ 1 := andi main_v3 main_v7
  let main_v9 : FVec F S100x2 .f32 := Host.absf main_arg3
  let main_cst_2 : FVec F S_ .f32 := constant S_ .f32 0x7F800000#32
  let main_v10 : FVec F S100x2 .f32 := broadcastInDim S100x2 ![] bcast_S_S100x2 main_cst_2
  let main_v11 : IVec S100x2 1 := cmpf .olt main_v9 main_v10
  let main_c_3 : IVec S_ 1 := constantI S_ 1 1#1
  let main_v12 : IVec S_ 1 := (fun x v => Host.reduce IntOp.andi x v reducesTo_S100x2_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 32 := constantI S_ 32 100#32
  fn_part1 (F := F) main_arg1 main_v13 main_v15 main_c_5
-- ==== Kernel.lean ====
abbrev S131072x256 : Shape := ⟨2, ![131072, 256]⟩
abbrev S131072 : Shape := ⟨1, ![131072]⟩
abbrev S100x2x256 : Shape := ⟨3, ![100, 2, 256]⟩
abbrev S100x2 : Shape := ⟨2, ![100, 2]⟩
abbrev S_ : Shape := ⟨0, ![]⟩
abbrev S100x1x256 : Shape := ⟨3, ![100, 1, 256]⟩
abbrev S100x256 : Shape := ⟨2, ![100, 256]⟩
abbrev S100x1 : Shape := ⟨2, ![100, 1]⟩
abbrev S100 : Shape := ⟨1, ![100]⟩
abbrev S100x514 : Shape := ⟨2, ![100, 514]⟩
abbrev S128x514 : Shape := ⟨2, ![128, 514]⟩
abbrev S256x514 : Shape := ⟨2, ![256, 514]⟩
abbrev S16x1x8192 : Shape := ⟨3, ![16, 1, 8192]⟩
abbrev S16x8x128 : Shape := ⟨3, ![16, 8, 128]⟩
abbrev S8192x256 : Shape := ⟨2, ![8192, 256]⟩
abbrev S1x1x8192 : Shape := ⟨3, ![1, 1, 8192]⟩
abbrev S1x8x128 : Shape := ⟨3, ![1, 8, 128]⟩
abbrev S8192 : Shape := ⟨1, ![8192]⟩
abbrev S8192x1 : Shape := ⟨2, ![8192, 1]⟩
abbrev S8192x514 : Shape := ⟨2, ![8192, 514]⟩
abbrev S1x8192x1 : Shape := ⟨3, ![1, 8192, 1]⟩
abbrev S1 : Shape := ⟨1, ![1]⟩
abbrev S1x1x1 : Shape := ⟨3, ![1, 1, 1]⟩
abbrev S8x128 : Shape := ⟨2, ![8, 128]⟩
abbrev S200x256 : Shape := ⟨2, ![200, 256]⟩
abbrev S200 : Shape := ⟨1, ![200]⟩
abbrev S200x1x256 : Shape := ⟨3, ![200, 1, 256]⟩
abbrev S1x200x256 : Shape := ⟨3, ![1, 200, 256]⟩
abbrev S200x200x256 : Shape := ⟨3, ![200, 200, 256]⟩
abbrev S200x200 : Shape := ⟨2, ![200, 200]⟩
abbrev S200x1 : Shape := ⟨2, ![200, 1]⟩
abbrev S1x200 : Shape := ⟨2, ![1, 200]⟩
abbrev S100x2x1x256 : Shape := ⟨4, ![100, 2, 1, 256]⟩
abbrev S100x1x2x256 : Shape := ⟨4, ![100, 1, 2, 256]⟩
abbrev S100x2x2x256 : Shape := ⟨4, ![100, 2, 2, 256]⟩
abbrev S100x2x2 : Shape := ⟨3, ![100, 2, 2]⟩
abbrev S2x2 : Shape := ⟨2, ![2, 2]⟩
abbrev S4 : Shape := ⟨1, ![4]⟩

abbrev nBuf : Space → Nat
  | .hbm => 141
  | .vmem => 7
  | .smem => 0
  | _ => 0

abbrev hbmTy0_0 (i : Nat) : BufTy := match i % 128 with
  | 0 => ⟨S131072x256, .f32⟩
  | 1 => ⟨S131072, .i32⟩
  | 2 => ⟨S100x2x256, .f32⟩
  | 3 => ⟨S100x2, .f32⟩
  | 4 => ⟨S100x2, .f32⟩
  | 5 => ⟨S_, .f32⟩
  | 6 => ⟨S100x2, .f32⟩
  | 7 => ⟨S100x2, .f32⟩
  | 8 => ⟨S100x1x256, .f32⟩
  | 9 => ⟨S100x256, .f32⟩
  | 10 => ⟨S100x1x256, .f32⟩
  | 11 => ⟨S100x256, .f32⟩
  | 12 => ⟨S100x1, .f32⟩
  | 13 => ⟨S100, .f32⟩
  | 14 => ⟨S100, .f32⟩
  | 15 => ⟨S100x1, .f32⟩
  | 16 => ⟨S100, .f32⟩
  | 17 => ⟨S100, .f32⟩
  | 18 => ⟨S100x256, .bf16⟩
  | 19 => ⟨S100x256, .f32⟩
  | 20 => ⟨S100x256, .f32⟩
  | 21 => ⟨S100x256, .bf16⟩
  | 22 => ⟨S100x256, .bf16⟩
  | 23 => ⟨S100x256, .f32⟩
  | 24 => ⟨S100x256, .f32⟩
  | 25 => ⟨S100x256, .bf16⟩
  | 26 => ⟨S100, .bf16⟩
  | 27 => ⟨S100, .bf16⟩
  | 28 => ⟨S_, .bf16⟩
  | 29 => ⟨S100x1, .bf16⟩
  | 30 => ⟨S100x1, .bf16⟩
  | 31 => ⟨S100x1, .bf16⟩
  | 32 => ⟨S100x514, .bf16⟩
  | 33 => ⟨S100x514, .bf16⟩
  | 34 => ⟨S_, .i32⟩
  | 35 => ⟨S_, .bf16⟩
  | 36 => ⟨S128x514, .bf16⟩
  | 37 => ⟨S_, .i32⟩
  | 38 => ⟨S_, .bf16⟩
  | 39 => ⟨S128x514, .bf16⟩
  | 40 => ⟨S256x514, .bf16⟩
  | 41 => ⟨S16x1x8192, .i32⟩
  | 42 => ⟨S16x8x128, .f32⟩
  | 43 => ⟨S_, .f32⟩
  | 44 => ⟨S_, .f32⟩
  | 45 => ⟨S_, .f32⟩
  | 46 => ⟨S_, .f32⟩
  | 47 => ⟨S200x256, .f32⟩
  | 48 => ⟨S200, .f32⟩
  | 49 => ⟨S200x1x256, .f32⟩
  | 50 => ⟨S1x200x256, .f32⟩
  | 51 => ⟨S200x200x256, .f32⟩
  | 52 => ⟨S200x200x256, .f32⟩
  | 53 => ⟨S200x200x256, .f32⟩
  | 54 => ⟨S200x200x256, .f32⟩
  | 55 => ⟨S_, .f32⟩
  | 56 => ⟨S200x200, .f32⟩
  | 57 => ⟨S200x200, .i32⟩
  | 58 => ⟨S200x200, .i32⟩
  | 59 => ⟨S_, .i32⟩
  | 60 => ⟨S200x200, .i32⟩
  | 61 => ⟨S200x200, .i32⟩
  | 62 => ⟨S200x200, .i1⟩
  | 63 => ⟨S_, .f32⟩
  | 64 => ⟨S_, .f32⟩
  | 65 => ⟨S200x200, .f32⟩
  | 66 => ⟨S200x200, .f32⟩
  | 67 => ⟨S200x200, .f32⟩
  | 68 => ⟨S200x1, .f32⟩
  | 69 => ⟨S1x200, .f32⟩
  | 70 => ⟨S200x200, .f32⟩
  | 71 => ⟨S200x200, .f32⟩
  | 72 => ⟨S200x200, .f32⟩
  | 73 => ⟨S_, .f32⟩
  | 74 => ⟨S200x200, .f32⟩
  | 75 => ⟨S200x200, .f32⟩
  | 76 => ⟨S200x200, .f32⟩
  | 77 => ⟨S_, .f32⟩
  | 78 => ⟨S200x200, .f32⟩
  | 79 => ⟨S200x200, .f32⟩
  | 80 => ⟨S_, .f32⟩
  | 81 => ⟨S_, .f32⟩
  | 82 => ⟨S200x200, .f32⟩
  | 83 => ⟨S200x200, .f32⟩
  | 84 => ⟨S_, .f32⟩
  | 85 => ⟨S_, .f32⟩
  | 86 => ⟨S_, .f32⟩
  | 87 => ⟨S_, .f32⟩
  | 88 => ⟨S100x2x1x256, .f32⟩
  | 89 => ⟨S100x1x2x256, .f32⟩
  | 90 => ⟨S100x2x2x256, .f32⟩
  | 91 => ⟨S100x2x2x256, .f32⟩
  | 92 => ⟨S100x2x2x256, .f32⟩
  | 93 => ⟨S100x2x2x256, .f32⟩
  | 94 => ⟨S_, .f32⟩
  | 95 => ⟨S100x2x2, .f32⟩
  | 96 => ⟨S_, .i1⟩
  | 97 => ⟨S2x2, .i1⟩
  | 98 => ⟨S2x2, .i32⟩
  | 99 => ⟨S_, .i32⟩
  | 100 => ⟨S2x2, .i32⟩
  | 101 => ⟨S2x2, .i32⟩
  | 102 => ⟨S2x2, .i32⟩
  | 103 => ⟨S2x2, .i1⟩
  | 104 => ⟨S_, .i1⟩
  | 105 => ⟨S2x2, .i1⟩
  | 106 => ⟨S2x2, .i1⟩
  | 107 => ⟨S_, .f32⟩
  | 108 => ⟨S_, .f32⟩
  | 109 => ⟨S100x2x2, .i1⟩
  | 110 => ⟨S100x2x2, .f32⟩
  | 111 => ⟨S100x2x2, .f32⟩
  | 112 => ⟨S100x2x2, .f32⟩
  | 113 => ⟨S_, .f32⟩
  | 114 => ⟨S100x2x2, .f32⟩
  | 115 => ⟨S100x2x2, .f32⟩
  | 116 => ⟨S_, .f32⟩
  | 117 => ⟨S100x2x2, .f32⟩
  | 118 => ⟨S100x2x2, .f32⟩
  | 119 => ⟨S_, .f32⟩
  | 120 => ⟨S_, .f32⟩
  | 121 => ⟨S100x2x2, .i1⟩
  | 122 => ⟨S100x2x2, .f32⟩
  | 123 => ⟨S100x2x2, .f32⟩
  | 124 => ⟨S_, .f32⟩
  | 125 => ⟨S_, .f32⟩
  | 126 => ⟨S_, .f32⟩
  | 127 => ⟨S_, .f32⟩
  | _ => ⟨S131072x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1, .f32⟩
  | 9 => ⟨S1, .f32⟩
  | 10 => ⟨S1, .f32⟩
  | 11 => ⟨S1, .f32⟩
  | 12 => ⟨S4, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S8192x256, .f32⟩
  | .local _ .vmem, ⟨1, _⟩ => ⟨S8192x256, .f32⟩
  | .local _ .vmem, ⟨2, _⟩ => ⟨S1x1x8192, .i32⟩
  | .local _ .vmem, ⟨3, _⟩ => ⟨S1x1x8192, .i32⟩
  | .local _ .vmem, ⟨4, _⟩ => ⟨S256x514, .bf16⟩
  | .local _ .vmem, ⟨5, _⟩ => ⟨S1x8x128, .f32⟩
  | .local _ .vmem, ⟨6, _⟩ => ⟨S1x8x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_c_1 : Ref sig .tc := ⟨.hbm, 37, rfl⟩
abbrev main_call1_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call3_cst : Ref sig .tc := ⟨.hbm, 77, rfl⟩
abbrev main_call3_v0 : Ref sig .tc := ⟨.hbm, 78, rfl⟩
abbrev main_v59 : Ref sig .tc := ⟨.hbm, 79, rfl⟩
abbrev main_cst_8 : Ref sig .tc := ⟨.hbm, 80, rfl⟩
abbrev main_call4_v0 : Ref sig .tc := ⟨.hbm, 81, rfl⟩
abbrev main_call4_v1 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_call5_v0 : Ref sig .tc := ⟨.hbm, 98, rfl⟩
abbrev main_call5_c : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_c_0 : Ref sig .tc := ⟨.hbm, 104, rfl⟩
abbrev main_call5_v5 : Ref sig .tc := ⟨.hbm, 105, rfl⟩
abbrev main_v71 : Ref sig .tc := ⟨.hbm, 106, rfl⟩
abbrev main_cst_13 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v72 : Ref sig .tc := ⟨.hbm, 111, rfl⟩
abbrev main_v73 : Ref sig .tc := ⟨.hbm, 112, rfl⟩
abbrev main_cst_14 : Ref sig .tc := ⟨.hbm, 113, rfl⟩
abbrev main_v74 : Ref sig .tc := ⟨.hbm, 114, rfl⟩
abbrev main_v75 : Ref sig .tc := ⟨.hbm, 115, rfl⟩
abbrev main_call7_cst : Ref sig .tc := ⟨.hbm, 116, rfl⟩
abbrev main_call7_v0 : Ref sig .tc := ⟨.hbm, 117, rfl⟩
abbrev main_v76 : Ref sig .tc := ⟨.hbm, 118, rfl⟩
abbrev main_cst_15 : Ref sig .tc := ⟨.hbm, 119, rfl⟩
abbrev main_call8_v0 : Ref sig .tc := ⟨.hbm, 120, rfl⟩
abbrev main_call8_v1 : Ref sig .tc := ⟨.hbm, 121, rfl⟩
abbrev main_call8_v2 : Ref sig .tc := ⟨.hbm, 122, rfl⟩
abbrev main_v77 : Ref sig .tc := ⟨.hbm, 123, rfl⟩
abbrev main_cst_16 : Ref sig .tc := ⟨.hbm, 124, rfl⟩
abbrev main_v78 : Ref sig .tc := ⟨.hbm, 125, rfl⟩
abbrev main_cst_17 : Ref sig .tc := ⟨.hbm, 126, rfl⟩
abbrev main_v79 : Ref sig .tc := ⟨.hbm, 127, rfl⟩
abbrev main_cst_18 : Ref sig .tc := ⟨.hbm, 128, rfl⟩
abbrev main_v80 : Ref sig .tc := ⟨.hbm, 129, rfl⟩
abbrev main_cst_19 : Ref sig .tc := ⟨.hbm, 130, rfl⟩
abbrev main_v81 : Ref sig .tc := ⟨.hbm, 131, rfl⟩
abbrev main_v82 : Ref sig .tc := ⟨.hbm, 132, rfl⟩
abbrev main_cst_20 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x514 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100x2 : S_.BroadcastsInDim S100x2 (![] : Fin 0 → Fin S100x2.rank)
  slices_S100x2x256_S100x1x256_0_0_0 : S100x2x256.Slices ![0, 0, 0] S100x1x256
  shapeCasts_S100x1x256_S100x256 : S100x1x256.ShapeCasts S100x256
  slices_S100x2x256_S100x1x256_0_1_0 : S100x2x256.Slices ![0, 1, 0] S100x1x256
  slices_S100x2_S100x1_0_0 : S100x2.Slices ![0, 0] S100x1
  shapeCasts_S100x1_S100 : S100x1.ShapeCasts S100
  slices_S100x2_S100x1_0_1 : S100x2.Slices ![0, 1] S100x1
  bitsLt_bf16_f32 : FTy.bits .bf16 < FTy.bits .f32
  bcast_S_S100x1 : S_.BroadcastsInDim S100x1 (![] : Fin 0 → Fin S100x1.rank)
  bcast_S100_S100x1_0 : S100.BroadcastsInDim S100x1 (![0] : Fin 1 → Fin S100x1.rank)
  concatenates_S100x256_S100x256_S100x1_S100x1_S100x514_d1 : Shape.Concatenates [S100x256, S100x256, S100x1, S100x1] S100x514 1
  pads_S100x514_S128x514_0280_000 : S100x514.Pads (![0, 0] : Fin 2 → Nat) ![28, 0] ![0, 0] S128x514
  h_S_ : 0 < S_.numel
  concatenates_S128x514_S128x514_S256x514_d0 : Shape.Concatenates [S128x514, S128x514] S256x514 0
  shapeCasts_S131072_S16x1x8192 : S131072.ShapeCasts S16x1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  inb_S256x514_S256x514_0_0 : ∀ a, (![0, 0] : Fin 2 → Nat) a + S256x514.size a ≤ S256x514.size a
  h_S256x514 : 0 < S256x514.numel
  shapeCasts_S256x514_S256x514 : S256x514.ShapeCasts S256x514
  iota_S8192x256_d1_w32 : S8192x256.Iotas .tc 32 [1]
  shapeCasts_S8192_S8192x1 : S8192.ShapeCasts S8192x1
  broadcasts_S8192x1_S8192x256 : S8192x1.Broadcasts S8192x256
  natLt_1_32 : 1 < 32
  slices_S8192x514_o0_0_S8192x256 : S8192x514.Slices ![0, 0] S8192x256
  slices_S8192x514_o0_256_S8192x256 : S8192x514.Slices ![0, 256] S8192x256
  slices_S8192x514_o0_512_S8192x1 : S8192x514.Slices ![0, 512] S8192x1
  slices_S8192x514_o0_513_S8192x1 : S8192x514.Slices ![0, 513] S8192x1
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  shapeCasts_S100x2x256_S200x256 : S100x2x256.ShapeCasts S200x256
  shapeCasts_S100x2_S200 : S100x2.ShapeCasts S200
  bcast_S200x256_S200x1x256_0_2 : S200x256.BroadcastsInDim S200x1x256 (![0, 2] : Fin 2 → Fin S200x1x256.rank)
  bcast_S200x256_S1x200x256_1_2 : S200x256.BroadcastsInDim S1x200x256 (![1, 2] : Fin 2 → Fin S1x200x256.rank)
  bcast_S200x1x256_S200x200x256_0_1_2 : S200x1x256.BroadcastsInDim S200x200x256 (![0, 1, 2] : Fin 3 → Fin S200x200x256.rank)
  bcast_S1x200x256_S200x200x256_0_1_2 : S1x200x256.BroadcastsInDim S200x200x256 (![0, 1, 2] : Fin 3 → Fin S200x200x256.rank)
  reducesTo_S200x200x256_S200x200_d2 : S200x200x256.ReducesTo [2] S200x200
  bcast_S_S200x200 : S_.BroadcastsInDim S200x200 (![] : Fin 0 → Fin S200x200.rank)
  bcast_S200_S200x1_0 : S200.BroadcastsInDim S200x1 (![0] : Fin 1 → Fin S200x1.rank)
  bcast_S200_S1x200_1 : S200.BroadcastsInDim S1x200 (![1] : Fin 1 → Fin S1x200.rank)
  bcast_S200x1_S200x200_0_1 : S200x1.BroadcastsInDim S200x200 (![0, 1] : Fin 2 → Fin S200x200.rank)
  bcast_S1x200_S200x200_0_1 : S1x200.BroadcastsInDim S200x200 (![0, 1] : Fin 2 → Fin S200x200.rank)
  reducesTo_S200x200_S_d0_1 : S200x200.ReducesTo [0, 1] S_
  bcast_S100x2x256_S100x2x1x256_0_1_3 : S100x2x256.BroadcastsInDim S100x2x1x256 (![0, 1, 3] : Fin 3 → Fin S100x2x1x256.rank)
  bcast_S100x2x256_S100x1x2x256_0_2_3 : S100x2x256.BroadcastsInDim S100x1x2x256 (![0, 2, 3] : Fin 3 → Fin S100x1x2x256.rank)
  bcast_S100x2x1x256_S100x2x2x256_0_1_2_3 : S100x2x1x256.BroadcastsInDim S100x2x2x256 (![0, 1, 2, 3] : Fin 4 → Fin S100x2x2x256.rank)
  bcast_S100x1x2x256_S100x2x2x256_0_1_2_3 : S100x1x2x256.BroadcastsInDim S100x2x2x256 (![0, 1, 2, 3] : Fin 4 → Fin S100x2x2x256.rank)
  reducesTo_S100x2x2x256_S100x2x2_d3 : S100x2x2x256.ReducesTo [3] S100x2x2
  bcast_S_S2x2 : S_.BroadcastsInDim S2x2 (![] : Fin 0 → Fin S2x2.rank)
  bcast_S2x2_S100x2x2_1_2 : S2x2.BroadcastsInDim S100x2x2 (![1, 2] : Fin 2 → Fin S100x2x2.rank)
  bcast_S_S100x2x2 : S_.BroadcastsInDim S100x2x2 (![] : Fin 0 → Fin S100x2x2.rank)
  reducesTo_S100x2x2_S_d0_1_2 : S100x2x2.ReducesTo [0, 1, 2] S_
  bcast_S_S1 : S_.BroadcastsInDim S1 (![] : Fin 0 → Fin S1.rank)
  concatenates_S1_S1_S1_S1_S4_d0 : Shape.Concatenates [S1, S1, S1, S1] S4 0
  dot_S8192x256_S256x514_S8192x514_1_0_0_1_n_n_wf : DotDims.WF S8192x256 S256x514 S8192x514 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x8192.size a
  hwx0_1 : ∀ i : grid0.Coords, EltTy.bits .i32 = 32 ∨ (Rect.block (s := S16x1x8192) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x514.size a ≤ S256x514.size a
  hwx0_2 : ∀ i : grid0.Coords, EltTy.bits .bf16 = 32 ∨ (Rect.block (s := S256x514) S256x514.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def dot_S8192x256_S256x514_S8192x514_1_0_0_1_n_n : DotDims S8192x256 S256x514 S8192x514 where
  lhsContracting := [1]
  rhsContracting := [0]
  lhsNonContracting := [0]
  rhsNonContracting := [1]
  lhsBatch := []
  rhsBatch := []
  wf := dot_S8192x256_S256x514_S8192x514_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256x514.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S100x2x256 : Shape := ⟨3, ![100, 2, 256]⟩
abbrev S100x2 : Shape := ⟨2, ![100, 2]⟩
abbrev S_ : Shape := ⟨0, ![]⟩
abbrev S131072x1 : Shape := ⟨2, ![131072, 1]⟩
abbrev S131072x2x256 : Shape := ⟨3, ![131072, 2, 256]⟩
abbrev S131072x2 : Shape := ⟨2, ![131072, 2]⟩
abbrev S131072x1x256 : Shape := ⟨3, ![131072, 1, 256]⟩
abbrev S200x256 : Shape := ⟨2, ![200, 256]⟩
abbrev S200 : Shape := ⟨1, ![200]⟩
abbrev S200x1x256 : Shape := ⟨3, ![200, 1, 256]⟩
abbrev S1x200x256 : Shape := ⟨3, ![1, 200, 256]⟩
abbrev S200x200x256 : Shape := ⟨3, ![200, 200, 256]⟩
abbrev S200x200 : Shape := ⟨2, ![200, 200]⟩
abbrev S200x1 : Shape := ⟨2, ![200, 1]⟩
abbrev S1x200 : Shape := ⟨2, ![1, 200]⟩
abbrev S100x2x1x256 : Shape := ⟨4, ![100, 2, 1, 256]⟩
abbrev S100x1x2x256 : Shape := ⟨4, ![100, 1, 2, 256]⟩
abbrev S100x2x2x256 : Shape := ⟨4, ![100, 2, 2, 256]⟩
abbrev S100x2x2 : Shape := ⟨3, ![100, 2, 2]⟩
abbrev S2x2 : Shape := ⟨2, ![2, 2]⟩
abbrev S1 : Shape := ⟨1, ![1]⟩
abbrev S4 : Shape := ⟨1, ![4]⟩

abbrev nBuf : Space → Nat
  | .hbm => 162
  | .vmem => 0
  | .smem => 0
  | _ => 0

abbrev hbmTy0_0 (i : Nat) : BufTy := match i % 128 with
  | 0 => ⟨S131072x256, .f32⟩
  | 1 => ⟨S131072, .i32⟩
  | 2 => ⟨S100x2x256, .f32⟩
  | 3 => ⟨S100x2, .f32⟩
  | 4 => ⟨S100x2, .f32⟩
  | 5 => ⟨S_, .f32⟩
  | 6 => ⟨S100x2, .f32⟩
  | 7 => ⟨S100x2, .f32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S131072x1, .i32⟩
  | 16 => ⟨S131072x2x256, .f32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S131072x2, .f32⟩
  | 26 => ⟨S131072x1x256, .f32⟩
  | 27 => ⟨S131072x2x256, .f32⟩
  | 28 => ⟨S131072x2x256, .f32⟩
  | 29 => ⟨S131072x2x256, .f32⟩
  | 30 => ⟨S_, .f32⟩
  | 31 => ⟨S131072x2, .f32⟩
  | 32 => ⟨S131072x2, .f32⟩
  | 33 => ⟨S_, .f32⟩
  | 34 => ⟨S131072x2, .f32⟩
  | 35 => ⟨S131072x2, .f32⟩
  | 36 => ⟨S_, .f32⟩
  | 37 => ⟨S131072, .f32⟩
  | 38 => ⟨S_, .f32⟩
  | 39 => ⟨S131072, .f32⟩
  | 40 => ⟨S131072, .f32⟩
  | 41 => ⟨S131072x1, .f32⟩
  | 42 => ⟨S131072x2, .f32⟩
  | 43 => ⟨S131072x2, .f32⟩
  | 44 => ⟨S131072x2, .f32⟩
  | 45 => ⟨S_, .f32⟩
  | 46 => ⟨S131072, .f32⟩
  | 47 => ⟨S131072x1, .f32⟩
  | 48 => ⟨S131072x2, .f32⟩
  | 49 => ⟨S131072x2, .f32⟩
  | 50 => ⟨S131072x2, .f32⟩
  | 51 => ⟨S_, .f32⟩
  | 52 => ⟨S131072, .f32⟩
  | 53 => ⟨S131072x2, .f32⟩
  | 54 => ⟨S131072x2, .f32⟩
  | 55 => ⟨S_, .f32⟩
  | 56 => ⟨S131072, .f32⟩
  | 57 => ⟨S_, .f32⟩
  | 58 => ⟨S131072, .f32⟩
  | 59 => ⟨S131072, .f32⟩
  | 60 => ⟨S131072, .f32⟩
  | 61 => ⟨S_, .f32⟩
  | 62 => ⟨S131072, .f32⟩
  | 63 => ⟨S131072, .f32⟩
  | 64 => ⟨S_, .f32⟩
  | 65 => ⟨S_, .f32⟩
  | 66 => ⟨S_, .f32⟩
  | 67 => ⟨S_, .f32⟩
  | 68 => ⟨S200x256, .f32⟩
  | 69 => ⟨S200, .f32⟩
  | 70 => ⟨S200x1x256, .f32⟩
  | 71 => ⟨S1x200x256, .f32⟩
  | 72 => ⟨S200x200x256, .f32⟩
  | 73 => ⟨S200x200x256, .f32⟩
  | 74 => ⟨S200x200x256, .f32⟩
  | 75 => ⟨S200x200x256, .f32⟩
  | 76 => ⟨S_, .f32⟩
  | 77 => ⟨S200x200, .f32⟩
  | 78 => ⟨S200x200, .i32⟩
  | 79 => ⟨S200x200, .i32⟩
  | 80 => ⟨S_, .i32⟩
  | 81 => ⟨S200x200, .i32⟩
  | 82 => ⟨S200x200, .i32⟩
  | 83 => ⟨S200x200, .i1⟩
  | 84 => ⟨S_, .f32⟩
  | 85 => ⟨S_, .f32⟩
  | 86 => ⟨S200x200, .f32⟩
  | 87 => ⟨S200x200, .f32⟩
  | 88 => ⟨S200x200, .f32⟩
  | 89 => ⟨S200x1, .f32⟩
  | 90 => ⟨S1x200, .f32⟩
  | 91 => ⟨S200x200, .f32⟩
  | 92 => ⟨S200x200, .f32⟩
  | 93 => ⟨S200x200, .f32⟩
  | 94 => ⟨S_, .f32⟩
  | 95 => ⟨S200x200, .f32⟩
  | 96 => ⟨S200x200, .f32⟩
  | 97 => ⟨S200x200, .f32⟩
  | 98 => ⟨S_, .f32⟩
  | 99 => ⟨S200x200, .f32⟩
  | 100 => ⟨S200x200, .f32⟩
  | 101 => ⟨S_, .f32⟩
  | 102 => ⟨S_, .f32⟩
  | 103 => ⟨S200x200, .f32⟩
  | 104 => ⟨S200x200, .f32⟩
  | 105 => ⟨S_, .f32⟩
  | 106 => ⟨S_, .f32⟩
  | 107 => ⟨S_, .f32⟩
  | 108 => ⟨S_, .f32⟩
  | 109 => ⟨S100x2x1x256, .f32⟩
  | 110 => ⟨S100x1x2x256, .f32⟩
  | 111 => ⟨S100x2x2x256, .f32⟩
  | 112 => ⟨S100x2x2x256, .f32⟩
  | 113 => ⟨S100x2x2x256, .f32⟩
  | 114 => ⟨S100x2x2x256, .f32⟩
  | 115 => ⟨S_, .f32⟩
  | 116 => ⟨S100x2x2, .f32⟩
  | 117 => ⟨S_, .i1⟩
  | 118 => ⟨S2x2, .i1⟩
  | 119 => ⟨S2x2, .i32⟩
  | 120 => ⟨S_, .i32⟩
  | 121 => ⟨S2x2, .i32⟩
  | 122 => ⟨S2x2, .i32⟩
  | 123 => ⟨S2x2, .i32⟩
  | 124 => ⟨S2x2, .i1⟩
  | 125 => ⟨S_, .i1⟩
  | 126 => ⟨S2x2, .i1⟩
  | 127 => ⟨S2x2, .i1⟩
  | _ => ⟨S131072x256, .f32⟩

abbrev hbmTy0_1 (i : Nat) : BufTy := match i % 128 with
  | 0 => ⟨S_, .f32⟩
  | 1 => ⟨S_, .f32⟩
  | 2 => ⟨S100x2x2, .i1⟩
  | 3 => ⟨S100x2x2, .f32⟩
  | 4 => ⟨S100x2x2, .f32⟩
  | 5 => ⟨S100x2x2, .f32⟩
  | 6 => ⟨S_, .f32⟩
  | 7 => ⟨S100x2x2, .f32⟩
  | 8 => ⟨S100x2x2, .f32⟩
  | 9 => ⟨S_, .f32⟩
  | 10 => ⟨S100x2x2, .f32⟩
  | 11 => ⟨S100x2x2, .f32⟩
  | 12 => ⟨S_, .f32⟩
  | 13 => ⟨S_, .f32⟩
  | 14 => ⟨S100x2x2, .i1⟩
  | 15 => ⟨S100x2x2, .f32⟩
  | 16 => ⟨S100x2x2, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1, .f32⟩
  | 30 => ⟨S1, .f32⟩
  | 31 => ⟨S1, .f32⟩
  | 32 => ⟨S1, .f32⟩
  | 33 => ⟨S4, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_call1_v0 : Ref sig .tc := ⟨.hbm, 85, rfl⟩
abbrev main_call1_v1 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_cst : Ref sig .tc := ⟨.hbm, 98, rfl⟩
abbrev main_call2_v0 : Ref sig .tc := ⟨.hbm, 99, rfl⟩
abbrev main_v71 : Ref sig .tc := ⟨.hbm, 100, rfl⟩
abbrev main_cst_17 : Ref sig .tc := ⟨.hbm, 101, rfl⟩
abbrev main_call3_v0 : Ref sig .tc := ⟨.hbm, 102, rfl⟩
abbrev main_call3_v1 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_cst_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_call4_v0 : Ref sig .tc := ⟨.hbm, 119, rfl⟩
abbrev main_call4_c : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_c_0 : Ref sig .tc := ⟨.hbm, 125, rfl⟩
abbrev main_call4_v5 : Ref sig .tc := ⟨.hbm, 126, rfl⟩
abbrev main_v83 : Ref sig .tc := ⟨.hbm, 127, rfl⟩
abbrev main_cst_22 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v84 : Ref sig .tc := ⟨.hbm, 132, rfl⟩
abbrev main_v85 : Ref sig .tc := ⟨.hbm, 133, rfl⟩
abbrev main_cst_23 : Ref sig .tc := ⟨.hbm, 134, rfl⟩
abbrev main_v86 : Ref sig .tc := ⟨.hbm, 135, rfl⟩
abbrev main_v87 : Ref sig .tc := ⟨.hbm, 136, rfl⟩
abbrev main_call6_cst : Ref sig .tc := ⟨.hbm, 137, rfl⟩
abbrev main_call6_v0 : Ref sig .tc := ⟨.hbm, 138, rfl⟩
abbrev main_v88 : Ref sig .tc := ⟨.hbm, 139, rfl⟩
abbrev main_cst_24 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v89 : Ref sig .tc := ⟨.hbm, 144, rfl⟩
abbrev main_cst_25 : Ref sig .tc := ⟨.hbm, 145, rfl⟩
abbrev main_v90 : Ref sig .tc := ⟨.hbm, 146, rfl⟩
abbrev main_cst_26 : Ref sig .tc := ⟨.hbm, 147, rfl⟩
abbrev main_v91 : Ref sig .tc := ⟨.hbm, 148, rfl⟩
abbrev main_cst_27 : Ref sig .tc := ⟨.hbm, 149, rfl⟩
abbrev main_v92 : Ref sig .tc := ⟨.hbm, 150, rfl⟩
abbrev main_cst_28 : Ref sig .tc := ⟨.hbm, 151, rfl⟩
abbrev main_v93 : Ref sig .tc := ⟨.hbm, 152, rfl⟩
abbrev main_v94 : Ref sig .tc := ⟨.hbm, 153, rfl⟩
abbrev main_cst_29 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩

abbrev nD : Nat := 1
abbrev τ : Topo := Topo.v7x

variable {F : FTy → Type} [FloatOps F]

class Facts₀ : Prop where
  bcast_S_S100x2 : S_.BroadcastsInDim S100x2 (![] : Fin 0 → Fin S100x2.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x256_S131072x1x256_0_2 : S131072x256.BroadcastsInDim S131072x1x256 (![0, 2] : Fin 2 → Fin S131072x1x256.rank)
  bcast_S131072x1x256_S131072x2x256_0_1_2 : S131072x1x256.BroadcastsInDim S131072x2x256 (![0, 1, 2] : Fin 3 → Fin S131072x2x256.rank)
  reducesTo_S131072x2x256_S131072x2_d2 : S131072x2x256.ReducesTo [2] S131072x2
  h_S_ : 0 < S_.numel
  bcast_S_S131072x2 : S_.BroadcastsInDim S131072x2 (![] : Fin 0 → Fin S131072x2.rank)
  reducesTo_S131072x2_S131072_d1 : S131072x2.ReducesTo [1] S131072
  bcast_S131072x1_S131072x2_0_1 : S131072x1.BroadcastsInDim S131072x2 (![0, 1] : Fin 2 → Fin S131072x2.rank)
  reducesTo_S131072_S_d0 : S131072.ReducesTo [0] S_
  shapeCasts_S100x2x256_S200x256 : S100x2x256.ShapeCasts S200x256
  shapeCasts_S100x2_S200 : S100x2.ShapeCasts S200
  bcast_S200x256_S200x1x256_0_2 : S200x256.BroadcastsInDim S200x1x256 (![0, 2] : Fin 2 → Fin S200x1x256.rank)
  bcast_S200x256_S1x200x256_1_2 : S200x256.BroadcastsInDim S1x200x256 (![1, 2] : Fin 2 → Fin S1x200x256.rank)
  bcast_S200x1x256_S200x200x256_0_1_2 : S200x1x256.BroadcastsInDim S200x200x256 (![0, 1, 2] : Fin 3 → Fin S200x200x256.rank)
  bcast_S1x200x256_S200x200x256_0_1_2 : S1x200x256.BroadcastsInDim S200x200x256 (![0, 1, 2] : Fin 3 → Fin S200x200x256.rank)
  reducesTo_S200x200x256_S200x200_d2 : S200x200x256.ReducesTo [2] S200x200
  bcast_S_S200x200 : S_.BroadcastsInDim S200x200 (![] : Fin 0 → Fin S200x200.rank)
  bcast_S200_S200x1_0 : S200.BroadcastsInDim S200x1 (![0] : Fin 1 → Fin S200x1.rank)
  bcast_S200_S1x200_1 : S200.BroadcastsInDim S1x200 (![1] : Fin 1 → Fin S1x200.rank)
  bcast_S200x1_S200x200_0_1 : S200x1.BroadcastsInDim S200x200 (![0, 1] : Fin 2 → Fin S200x200.rank)
  bcast_S1x200_S200x200_0_1 : S1x200.BroadcastsInDim S200x200 (![0, 1] : Fin 2 → Fin S200x200.rank)
  reducesTo_S200x200_S_d0_1 : S200x200.ReducesTo [0, 1] S_
  bcast_S100x2x256_S100x2x1x256_0_1_3 : S100x2x256.BroadcastsInDim S100x2x1x256 (![0, 1, 3] : Fin 3 → Fin S100x2x1x256.rank)
  bcast_S100x2x256_S100x1x2x256_0_2_3 : S100x2x256.BroadcastsInDim S100x1x2x256 (![0, 2, 3] : Fin 3 → Fin S100x1x2x256.rank)
  bcast_S100x2x1x256_S100x2x2x256_0_1_2_3 : S100x2x1x256.BroadcastsInDim S100x2x2x256 (![0, 1, 2, 3] : Fin 4 → Fin S100x2x2x256.rank)
  bcast_S100x1x2x256_S100x2x2x256_0_1_2_3 : S100x1x2x256.BroadcastsInDim S100x2x2x256 (![0, 1, 2, 3] : Fin 4 → Fin S100x2x2x256.rank)
  reducesTo_S100x2x2x256_S100x2x2_d3 : S100x2x2x256.ReducesTo [3] S100x2x2
  bcast_S_S2x2 : S_.BroadcastsInDim S2x2 (![] : Fin 0 → Fin S2x2.rank)
  bcast_S2x2_S100x2x2_1_2 : S2x2.BroadcastsInDim S100x2x2 (![1, 2] : Fin 2 → Fin S100x2x2.rank)
  bcast_S_S100x2x2 : S_.BroadcastsInDim S100x2x2 (![] : Fin 0 → Fin S100x2x2.rank)
  reducesTo_S100x2x2_S_d0_1_2 : S100x2x2.ReducesTo [0, 1, 2] S_
  bcast_S_S1 : S_.BroadcastsInDim S1 (![] : Fin 0 → Fin S1.rank)
  concatenates_S1_S1_S1_S1_S4_d0 : Shape.Concatenates [S1, S1, S1, S1] S4 0
  gather_S100x2x256_S131072x1_S131072x2x256_12_0_n_n_0_1_12256_wf : GatherDims.WF S100x2x256 S131072x1 S131072x2x256 [1, 2] [0] [] [0] [] 1 ![1, 2, 256]
  gather_S100x2_S131072x1_S131072x2_1_0_n_n_0_1_12_wf : GatherDims.WF S100x2 S131072x1 S131072x2 [1] [0] [] [0] [] 1 ![1, 2]

variable [Facts₀]

def gather_S100x2x256_S131072x1_S131072x2x256_12_0_n_n_0_1_12256 : GatherDims S100x2x256 S131072x1 S131072x2x256 where
  offsetDims := [1, 2]
  collapsedSliceDims := [0]
  operandBatchingDims := []
  startIndicesBatchingDims := []
  startIndexMap := [0]
  indexVectorDim := 1
  sliceSizes := ![1, 2, 256]
  wf := gather_S100x2x256_S131072x1_S131072x2x256_12_0_n_n_0_1_12256_wf
def gather_S100x2_S131072x1_S131072x2_1_0_n_n_0_1_12 : GatherDims S100x2 S131072x1 S131072x2 where
  offsetDims := [1]
  collapsedSliceDims := [0]
  operandBatchingDims := []
  startIndicesBatchingDims := []
  startIndexMap := [0]
  indexVectorDim := 1
  sliceSizes := ![1, 2]
  wf := gather_S100x2_S131072x1_S131072x2_1_0_n_n_0_1_12_wf

class Facts : Prop extends Facts₀ where

variable [Facts]
-- ==== Proof.KernelFrame.lean ====
import proofs.«421938_j49280454754360_3_alg».proof.Proof.Gen.Kernel.Launch
import proofs.«421938_j49280454754360_3_alg».proof.Proof.Gen.Kernel.Skeleton
import proofs.«421938_j49280454754360_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of `Kernel`: @main around its one pallas_call

@main is 38 host operations (the bf16 hi/lo table of centres and squared radii, the labels re-laid as 16 rows of
8192), one pallas_call over a grid of 16 row tiles, and 98 host operations (the mean of the tile sums, the overlap
and the diversity terms, the stacked result). Every weakly fair execution runs to the end without a fault and leaves
the four argument arrays as they were: the host lines before the region never write an argument, the region reads
three windows and writes only its own result array, and the host lines after it write only their own result buffers.

At a grid point the body loads the labels' row, the whole table and the tile of `z`, computes one number (the tile's
sum of row losses) and stores the 8 x 128 block that holds this number at position (0, 0) and zero elsewhere. What the
output window's buffer holds after the body is therefore one pure function of the three input blocks (`out0_3`); the
body also loads the output buffer once, a value it never uses, so the block written does not depend on what the buffer
held before.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev preOps : List (List (HloOp τ sig (Elt F))) := [hostOps0, hostOps0_1, hostOps0_2, hostOps0_3, hostOps0_4]
/-- The host lines after the region, stretch by stretch. -/
abbrev sfxOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch memory after the host lines before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- @main is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10, StableHlo.seq hostOps1_11, StableHlo.seq hostOps1_12, StableHlo.seq hostOps1_13, StableHlo.seq hostOps1_14]) :=
  Pipeline.hmain_around cfgs 0 defs₀ 𝒱₀ m main [hostOps0, hostOps0_1, hostOps0_2, hostOps0_3, hostOps0_4] [hostOps1, hostOps1_1, hostOps1_2, hostOps1_3, hostOps1_4, hostOps1_5, hostOps1_6, hostOps1_7, hostOps1_8, hostOps1_9, hostOps1_10, hostOps1_11, hostOps1_12, hostOps1_13, hostOps1_14]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the buffers that bypass it, nothing else. -/
theorem sfx_sub : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

/-- They allocate nothing. -/
theorem sfx_fresh : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop

set_option maxHeartbeats 1600000 in
/-- And each writes only its own result buffer, which is none of the pipeline's four arrays. -/
theorem sfx_keeps : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_4, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_7, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_8, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_9, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_10, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_11, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_12, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_13, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_14, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 1000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line after the region writes `main_arg1`, and it is none of the pipeline's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host line after the region writes `main_arg2`, and it is none of the pipeline's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host line after the region writes `main_arg3`, and it is none of the pipeline's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the four argument arrays end as launched: `z` is window 0's array, an
    input, never written back; the other three bypass the region and no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's accesses -/

abbrev r0_0 : Rect S8192x256 := Rect.unit (s := S8192x256) ![0, 0] S8192x256.size inb_S8192x256_S8192x256_0_0
abbrev r0_1 : Rect S1x1x8192 := Rect.unit (s := S1x1x8192) ![0, 0, 0] S1x1x8192.size inb_S1x1x8192_S1x1x8192_0_0_0
abbrev r0_2 : Rect S256x514 := Rect.unit (s := S256x514) ![0, 0] S256x514.size inb_S256x514_S256x514_0_0
abbrev r0_3 : Rect S1x8x128 := Rect.unit (s := S1x8x128) ![0, 0, 0] S1x8x128.size inb_S1x8x128_S1x8x128_0_0_0

/-! ## What the body leaves in the output window's buffer -/

/-- The block the body stores, from the three input blocks: the payload of its one store over the loaded tile of
    `z` (`x0`), labels' row (`x1`) and table (`x2`). -/
def pay3 (x0 : Vec F S8192x256 .f32) (x1 : Vec F S1x1x8192 .i32) (x2 : Vec F S256x514 .bf16) : FVec F S1x8x128 .f32 :=
  k0_pay1 (k0_pay3 (View.ld x1 r0_1) (View.ld x2 r0_2)) (k0_pay4 (View.ld x1 r0_1) (View.ld x2 r0_2))
    (k0_pay6 (View.ld x1 r0_1) (View.ld x2 r0_2) (View.ld x0 r0_0)) (k0_pay13 (View.ld x1 r0_1) (View.ld x2 r0_2) (View.ld x0 r0_0))
    (k0_pay14 (View.ld x1 r0_1) (View.ld x2 r0_2) (View.ld x0 r0_0)) (k0_pay15 (View.ld x1 r0_1) (View.ld x2 r0_2) (View.ld x0 r0_0))

/-- Window 3's staging buffer after the body: its one store, which covers the buffer. -/
def out0_3 (x0 : Vec F S8192x256 .f32) (x1 : Vec F S1x1x8192 .i32) (x2 : Vec F S256x514 .bf16) : Vec F S1x8x128 .f32 :=
  View.canon [⟨r0_3, pay3 x0 x1 x2⟩]

/-- The one store tiles the buffer, so it covers it. -/
theorem cover0_3 (p0 : Vec F S1x8x128 .f32) (y : S1x8x128.Idx) :
    ∃ pc ∈ ([⟨r0_3, p0⟩] : List (View.Piece (Elt F) S1x8x128 .f32)), y ∈ pc.1.set :=
  View.cover_of_tiled [⟨r0_3, p0⟩] S1x8x128.size (by rfl) y

/-! ## The body's triple -/

set_option maxHeartbeats 4000000 in
/-- The kernel body on whole staging memrefs, the inputs' at contents `x0`, `x1`, `x2` and the output's at anything,
    runs to the continuation holding the inputs' as they were and the output's at `out0_3` of the inputs'. -/
theorem sound_kernel (c : Dev nD) (E : Set ℕ) (i : grid0.Coords)
    (arg1 : Memref sig .tc .vmem S8192x256 .f32) (harg1 : arg1.IsWhole) (arg2 : Memref sig .tc .vmem S1x1x8192 .i32) (harg2 : arg2.IsWhole)
    (arg3 : Memref sig .tc .vmem S256x514 .bf16) (harg3 : arg3.IsWhole) (arg4 : Memref sig .tc .vmem S1x8x128 .f32) (harg4 : arg4.IsWhole)
    (x0 : Vec F S8192x256 .f32) (x1 : Vec F S1x1x8192 .i32) (x2 : Vec F S256x514 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__intra_kernel i arg1 harg1 arg2 harg2 arg3 harg3 arg4 harg4) K := by
  simp only [cc0__intra_kernel_eq_skeleton]; unfold cc0__intra_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12, hostOps1_13, hostOps1_14]) (hsub := sfx_sub) (hfresh := sfx_fresh) (hkeep := sfx_keeps)
    (hmain := hmain m Variants.none) (hA := A_eq m) (hΦ := fun _ _ => rfl)

/-- The frame: every weakly fair execution terminates, faults nowhere, and leaves the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdealFrame.lean ====
import proofs.«421938_j49280454754360_3_alg».proof.Proof.Gen.KernelIdeal.Launch
import proofs.«421938_j49280454754360_3_alg».proof.Proof.Gen.KernelIdeal.Skeleton
import proofs.«421938_j49280454754360_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of `KernelIdeal`: @main around its one pallas_call

@main is 38 host operations (the bf16 hi/lo table of centres and squared radii, the labels re-laid as 16 rows of
8192), one pallas_call over a grid of 16 row tiles, and 98 host operations (the mean of the tile sums, the overlap
and the diversity terms, the stacked result). Every weakly fair execution runs to the end without a fault and leaves
the four argument arrays as they were: the host lines before the region never write an argument, the region reads
three windows and writes only its own result array, and the host lines after it write only their own result buffers.

At a grid point the body loads the labels' row, the whole table and the tile of `z`, computes one number (the tile's
sum of row losses) and stores the 8 x 128 block that holds this number at position (0, 0) and zero elsewhere. What the
output window's buffer holds after the body is therefore one pure function of the three input blocks (`out0_3`); the
body also loads the output buffer once, a value it never uses, so the block written does not depend on what the buffer
held before.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev preOps : List (List (HloOp τ sig (Elt F))) := [hostOps0, hostOps0_1, hostOps0_2, hostOps0_3, hostOps0_4]
/-- The host lines after the region, stretch by stretch. -/
abbrev sfxOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch memory after the host lines before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- @main is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10, StableHlo.seq hostOps1_11, StableHlo.seq hostOps1_12, StableHlo.seq hostOps1_13, StableHlo.seq hostOps1_14]) :=
  Pipeline.hmain_around cfgs 0 defs₀ 𝒱₀ m main [hostOps0, hostOps0_1, hostOps0_2, hostOps0_3, hostOps0_4] [hostOps1, hostOps1_1, hostOps1_2, hostOps1_3, hostOps1_4, hostOps1_5, hostOps1_6, hostOps1_7, hostOps1_8, hostOps1_9, hostOps1_10, hostOps1_11, hostOps1_12, hostOps1_13, hostOps1_14]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the buffers that bypass it, nothing else. -/
theorem sfx_sub : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

/-- They allocate nothing. -/
theorem sfx_fresh : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop

set_option maxHeartbeats 1600000 in
/-- And each writes only its own result buffer, which is none of the pipeline's four arrays. -/
theorem sfx_keeps : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_4, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_7, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_8, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_9, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_10, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_11, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_12, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_13, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_14, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 1000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line after the region writes `main_arg1`, and it is none of the pipeline's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host line after the region writes `main_arg2`, and it is none of the pipeline's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host line after the region writes `main_arg3`, and it is none of the pipeline's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the four argument arrays end as launched: `z` is window 0's array, an
    input, never written back; the other three bypass the region and no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's accesses -/

abbrev r0_0 : Rect S8192x256 := Rect.unit (s := S8192x256) ![0, 0] S8192x256.size inb_S8192x256_S8192x256_0_0
abbrev r0_1 : Rect S1x1x8192 := Rect.unit (s := S1x1x8192) ![0, 0, 0] S1x1x8192.size inb_S1x1x8192_S1x1x8192_0_0_0
abbrev r0_2 : Rect S256x514 := Rect.unit (s := S256x514) ![0, 0] S256x514.size inb_S256x514_S256x514_0_0
abbrev r0_3 : Rect S1x8x128 := Rect.unit (s := S1x8x128) ![0, 0, 0] S1x8x128.size inb_S1x8x128_S1x8x128_0_0_0

/-! ## What the body leaves in the output window's buffer -/

/-- The block the body stores, from the three input blocks: the payload of its one store over the loaded tile of
    `z` (`x0`), labels' row (`x1`) and table (`x2`). -/
def pay3 (x0 : Vec F S8192x256 .f32) (x1 : Vec F S1x1x8192 .i32) (x2 : Vec F S256x514 .bf16) : FVec F S1x8x128 .f32 :=
  k0_pay1 (k0_pay3 (View.ld x1 r0_1) (View.ld x2 r0_2)) (k0_pay4 (View.ld x1 r0_1) (View.ld x2 r0_2))
    (k0_pay6 (View.ld x1 r0_1) (View.ld x2 r0_2) (View.ld x0 r0_0)) (k0_pay13 (View.ld x1 r0_1) (View.ld x2 r0_2) (View.ld x0 r0_0))
    (k0_pay14 (View.ld x1 r0_1) (View.ld x2 r0_2) (View.ld x0 r0_0)) (k0_pay15 (View.ld x1 r0_1) (View.ld x2 r0_2) (View.ld x0 r0_0))

/-- Window 3's staging buffer after the body: its one store, which covers the buffer. -/
def out0_3 (x0 : Vec F S8192x256 .f32) (x1 : Vec F S1x1x8192 .i32) (x2 : Vec F S256x514 .bf16) : Vec F S1x8x128 .f32 :=
  View.canon [⟨r0_3, pay3 x0 x1 x2⟩]

/-- The one store tiles the buffer, so it covers it. -/
theorem cover0_3 (p0 : Vec F S1x8x128 .f32) (y : S1x8x128.Idx) :
    ∃ pc ∈ ([⟨r0_3, p0⟩] : List (View.Piece (Elt F) S1x8x128 .f32)), y ∈ pc.1.set :=
  View.cover_of_tiled [⟨r0_3, p0⟩] S1x8x128.size (by rfl) y

/-! ## The body's triple -/

set_option maxHeartbeats 4000000 in
/-- The kernel body on whole staging memrefs, the inputs' at contents `x0`, `x1`, `x2` and the output's at anything,
    runs to the continuation holding the inputs' as they were and the output's at `out0_3` of the inputs'. -/
theorem sound_kernel (c : Dev nD) (E : Set ℕ) (i : grid0.Coords)
    (arg1 : Memref sig .tc .vmem S8192x256 .f32) (harg1 : arg1.IsWhole) (arg2 : Memref sig .tc .vmem S1x1x8192 .i32) (harg2 : arg2.IsWhole)
    (arg3 : Memref sig .tc .vmem S256x514 .bf16) (harg3 : arg3.IsWhole) (arg4 : Memref sig .tc .vmem S1x8x128 .f32) (harg4 : arg4.IsWhole)
    (x0 : Vec F S8192x256 .f32) (x1 : Vec F S1x1x8192 .i32) (x2 : Vec F S256x514 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__intra_kernel i arg1 harg1 arg2 harg2 arg3 harg3 arg4 harg4) K := by
  simp only [cc0__intra_kernel_eq_skeleton]; unfold cc0__intra_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12, hostOps1_13, hostOps1_14]) (hsub := sfx_sub) (hfresh := sfx_fresh) (hkeep := sfx_keeps)
    (hmain := hmain m Variants.none) (hA := A_eq m) (hΦ := fun _ _ => rfl)

/-- The frame: every weakly fair execution terminates, faults nowhere, and leaves the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.PreDecode.lean ====
import proofs.«421938_j49280454754360_3_alg».proof.Pre_finite_inputs
import proofs.«421938_j49280454754360_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

/-!
# What the precondition says of the four inputs

The precondition is the conjunction of four `all`s: every entry of `z`, of the centres and of the radii has absolute
value below +∞, and every label `l` satisfies `0 ≤ l` and `l < 100` as a signed word. An extended real whose absolute
value `max x (-x)` is below `⊤` is neither `⊤` nor `⊥`, so it is a real; a 32-bit word that is at least 0 and below 100
when read signed has its sign bit clear, so its unsigned value is the same number and is below 100.
-/

noncomputable section

namespace Cert.PreDecode

open Idealize.ShloMosaic Idealize.ShloMosaic.ValueIdx
open Cert.Pre_finite_inputs

attribute [local instance] Cert.Pre_finite_inputs.Gen.facts

/-- The shape of a scalar has one index. -/
instance : Subsingleton S_.Idx := ⟨fun a b => funext fun d => d.elim0⟩

/-- The f32 word `0x7F800000` denotes `⊤`. -/
theorem inf_word : Ideal.ofBits .f32 0x7F800000#32 = ⊤ := by simp [Ideal.ofBits, Ideal.ieee]

/-- An extended real whose absolute value compares below the word of +∞ is a real: `max x (-x) < ⊤` excludes `x = ⊤`
    (the maximum is `⊤`) and `x = ⊥` (its negation is `⊤`). -/
theorem real_of_abs_lt_inf (x : EReal)
    (h : Ideal.cmp .olt (max x (-x)) (Ideal.ofBits .f32 0x7F800000#32) = 1#1) : ∃ a : ℝ, x = (a : EReal) := by
  rw [inf_word] at h
  unfold Ideal.cmp at h
  have hlt : max x (-x) < ⊤ := by
    simpa [StableHlo.Predicate.ofBool_eq_one_iff] using h
  rw [max_lt_iff] at hlt
  induction x using EReal.rec with
  | bot => simp at hlt
  | top => simp at hlt
  | coe a => exact ⟨a, rfl⟩

/-- A 32-bit word that is at least 0 and below 100 as a signed number is below 100 as an unsigned one: were its sign
    bit set its signed value would be negative. -/
theorem toNat_lt_of_signed (w : BitVec 32) (h0 : IntOp.cmpi .sge w 0#32 = 1#1) (h1 : IntOp.cmpi .slt w 100#32 = 1#1) :
    w.toNat < 100 := by
  have a := IntOp.cmpi_sge.1 h0
  have b := IntOp.cmpi_slt.1 h1
  have z : (0#32 : BitVec 32).toInt = 0 := by decide
  have c : (100#32 : BitVec 32).toInt = 100 := by decide
  rw [z] at a
  rw [c] at b
  rw [BitVec.toInt_eq_toNat_cond] at a b
  have hw := w.isLt
  by_cases hc : 2 * w.toNat < 2 ^ 32
  · rw [if_pos hc] at a b; omega
  · rw [if_neg hc] at a b; omega

/-- THE PRECONDITION DECODED. Read at the one index of its scalar result, the conjunction gives each `all` the value 1;
    an `all` that is 1 had a 1 at every index of its operand; at an index the operand is the comparison of that entry. -/
theorem decode (x0 : FVec Ideal S131072x256 .f32) (x1 : IVec S131072 32) (x2 : FVec Ideal S100x2x256 .f32)
    (x3 : FVec Ideal S100x2 .f32) (h : fn (F := Ideal) x0 x1 x2 x3 = (fun _ => 1#1)) :
    (∀ i, ∃ a : ℝ, x0 i = (a : EReal)) ∧ (∀ i, ∃ a : ℝ, x2 i = (a : EReal)) ∧ (∀ i, ∃ a : ℝ, x3 i = (a : EReal))
      ∧ (∀ n : Fin 131072, (x1 (ix1 n)).toNat < 100) := by
  have e := congrFun h ix0
  simp only [fn, fn_part1, andi, IntOp.andi_eq_one] at e
  obtain ⟨⟨⟨e0, e2⟩, e3⟩, e1⟩ := e
  refine ⟨fun i => ?_, fun i => ?_, fun i => ?_, fun n => ?_⟩
  · exact real_of_abs_lt_inf (x0 i) (Host.reduce_andi_all _ _ _ _ _ e0 i)
  · exact real_of_abs_lt_inf (x2 i) (Host.reduce_andi_all _ _ _ _ _ e2 i)
  · exact real_of_abs_lt_inf (x3 i) (Host.reduce_andi_all _ _ _ _ _ e3 i)
  · have el : IntOp.andi (IntOp.cmpi .sge (x1 (ix1 n)) 0#32) (IntOp.cmpi .slt (x1 (ix1 n)) 100#32) = 1#1 :=
      Host.reduce_andi_all _ _ _ _ _ e1 (ix1 n)
    obtain ⟨l0, l1⟩ := IntOp.andi_eq_one.1 el
    exact toNat_lt_of_signed _ l0 l1

end Cert.PreDecode

end
-- ==== Proof.Spec.lean ====
import Idealize.ShloMosaic.PureOps.Ideal
import Idealize.ShloMosaic.Lib.ValueIdx

/-!
# The intra term, row by row, on the extended reals

Both programs compute, for every row `n` of `z` with class label `l`, the squared distances `d0`, `d1` of the row to
the two centres of class `l`, the two softmax weights `q0`, `q1` of `-d0 / τ`, `-d1 / τ` (τ = 1/2, shifted by their
maximum), and the hinge `max (q0·d0 + q1·d1 - 1·(q0·ρ0² + q1·ρ1²)) 0` with `ρκ = |radius l κ| + ε`. The intra term is
the mean of these hinges over the 131072 rows. This file states that row function once, over plain extended reals, and
the table the kernel gathers the class's centres and squared radii from.
-/

noncomputable section

open scoped BigOperators

namespace Cert.Spec

open Idealize.ShloMosaic Idealize.ShloMosaic.ValueIdx

/-- The three f32 words the row function uses, as the extended reals they denote: 1/2 (the temperature), 1 (the weight
    of the radius term) and the radius offset ε (the word of 1e-6). -/
abbrev half : EReal := Ideal.ofBits .f32 0x3F000000#32
abbrev one : EReal := Ideal.ofBits .f32 0x3F800000#32
abbrev eps : EReal := Ideal.ofBits .f32 0x358637BD#32

/-- The squared distance of two rows of 256 entries. -/
def sqDist (z c : Fin 256 → EReal) : EReal := ∑ k : Fin 256, (z k - c k) * (z k - c k)

/-- One row's hinge from its two squared distances `d0`, `d1` and the two squared radii `s0`, `s1`. -/
def rowLoss (d0 d1 s0 s1 : EReal) : EReal :=
  let n0 := Ideal.div (-d0) half
  let n1 := Ideal.div (-d1) half
  let mx := max n0 n1
  let e0 := Ideal.exp (n0 - mx)
  let e1 := Ideal.exp (n1 - mx)
  let q0 := Ideal.div e0 (e0 + e1)
  let q1 := Ideal.div e1 (e0 + e1)
  max ((q0 * d0 + q1 * d1) - one * (q0 * s0 + q1 * s1)) 0

/-- The radius of ball `κ` of class `l`: the absolute value of the input plus ε. -/
def radius (x3 : (⟨2, ![100, 2]⟩ : Shape).Idx → EReal) (l : Fin 100) (κ : Fin 2) : EReal :=
  max (x3 (ix2 l κ)) (-(x3 (ix2 l κ))) + eps

/-- Row `n`'s hinge when its class is `l`. -/
def rowTerm (x0 : (⟨2, ![131072, 256]⟩ : Shape).Idx → EReal) (x2 : (⟨3, ![100, 2, 256]⟩ : Shape).Idx → EReal)
    (x3 : (⟨2, ![100, 2]⟩ : Shape).Idx → EReal) (n : Fin 131072) (l : Fin 100) : EReal :=
  rowLoss (sqDist (fun k => x0 (ix2 n k)) (fun k => x2 (ix3 l 0 k))) (sqDist (fun k => x0 (ix2 n k)) (fun k => x2 (ix3 l 1 k)))
    (radius x3 l 0 * radius x3 l 0) (radius x3 l 1 * radius x3 l 1)

/-- Row `l` of the "high" half of the kernel's table: the two centres of class `l` side by side (columns 0–255 and
    256–511) and the two squared radii (columns 512 and 513). -/
def hiRow (x2 : (⟨3, ![100, 2, 256]⟩ : Shape).Idx → EReal) (x3 : (⟨2, ![100, 2]⟩ : Shape).Idx → EReal) (l : Fin 100) (j : Fin 514) : EReal :=
  if h0 : j.val < 256 then x2 (ix3 l 0 ⟨j.val, h0⟩)
  else if h1 : j.val < 512 then x2 (ix3 l 1 ⟨j.val - 256, by omega⟩)
  else if j.val = 512 then radius x3 l 0 * radius x3 l 0
  else radius x3 l 1 * radius x3 l 1

/-- Row `l` of the "low" half: each centre entry minus itself (what is left of an entry after its own value is taken
    off: zero for a finite entry), and zero in the two radius columns. -/
def loRow (x2 : (⟨3, ![100, 2, 256]⟩ : Shape).Idx → EReal) (l : Fin 100) (j : Fin 514) : EReal :=
  if h0 : j.val < 256 then x2 (ix3 l 0 ⟨j.val, h0⟩) - x2 (ix3 l 0 ⟨j.val, h0⟩)
  else if h1 : j.val < 512 then x2 (ix3 l 1 ⟨j.val - 256, by omega⟩) - x2 (ix3 l 1 ⟨j.val - 256, by omega⟩)
  else 0

/-- The kernel's 256 × 514 table: rows 0–99 the high half, rows 128–227 the low half, zero rows between and after. -/
def tab (x2 : (⟨3, ![100, 2, 256]⟩ : Shape).Idx → EReal) (x3 : (⟨2, ![100, 2]⟩ : Shape).Idx → EReal) (k : Fin 256) (j : Fin 514) : EReal :=
  if h : k.val < 100 then hiRow x2 x3 ⟨k.val, h⟩ j
  else if h' : 128 ≤ k.val ∧ k.val < 228 then loRow x2 ⟨k.val - 128, by omega⟩ j
  else 0

end Cert.Spec

end
-- ==== Proof.KerRow.lean ====
import proofs.«421938_j49280454754360_3_alg».proof.Proof.KernelIdealFrame
import proofs.«421938_j49280454754360_3_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# What the kernel body stores at one grid point

Given the gathered rows (the 8192 x 514 product of the one-hot rows with the table, read as the rows of the "high"
table at the tile's labels), the body computes for every row of the tile its two squared distances to the class's
centres, the two softmax weights of their negatives over the temperature, and the hinge; it sums the 8192 hinges and
stores the sum at position (0, 0) of an 8 x 128 block that is zero elsewhere. This file reads the stored block at an
index, payload by payload, on the extended reals.
-/

set_option maxRecDepth 16384

noncomputable section

open scoped BigOperators

namespace Cert.KerRow

open Cert.KernelIdeal Cert.KernelIdeal.Gen Cert.KernelIdeal.Hand Cert.Spec
open Idealize.ShloMosaic Idealize.ShloMosaic.ValueIdx

/-! ## Loads through a whole-buffer rectangle -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The tile of `z` loaded through the rectangle that is the whole buffer is the buffer. -/
theorem ld0 (x : Vec Ideal S8192x256 .f32) : View.ld x Hand.r0_0 = x :=
  View.ld_unit_zero (S := S8192x256) zeros2 _ x

/-- The labels' row likewise. -/
theorem ld1 (x : Vec Ideal S1x1x8192 .i32) : View.ld x Hand.r0_1 = x :=
  View.ld_unit_zero (S := S1x1x8192) zeros3 _ x

/-- The table likewise. -/
theorem ld2 (x : Vec Ideal S256x514 .bf16) : View.ld x Hand.r0_2 = x :=
  View.ld_unit_zero (S := S256x514) zeros2 _ x

/-! ## The two radius columns and the two squared distances of a row -/

/-- Column 512 of the gathered rows, as a column vector. -/
theorem pay3_apply' (x1b : Vec Ideal S1x1x8192 .i32) (x2b : Vec Ideal S256x514 .bf16) (r : Fin 8192) (u : Fin 1) :
    Gen.k0_pay3 (F := Ideal) x1b x2b (ix2 r u) = Gen.k0_pay2 (F := Ideal) x1b x2b (ix2 r (⟨512, by omega⟩ : Fin 514)) := by
  unfold Gen.k0_pay3
  refine extractStridedSlice_apply _ _ _ _ _ fun a => ?_
  match a with
  | ⟨0, _⟩ => show r.val = 0 + r.val; omega
  | ⟨1, _⟩ => show 512 = 512 + u.val; omega

/-- Column 513 of the gathered rows, as a column vector. -/
theorem pay4_apply' (x1b : Vec Ideal S1x1x8192 .i32) (x2b : Vec Ideal S256x514 .bf16) (r : Fin 8192) (u : Fin 1) :
    Gen.k0_pay4 (F := Ideal) x1b x2b (ix2 r u) = Gen.k0_pay2 (F := Ideal) x1b x2b (ix2 r (⟨513, by omega⟩ : Fin 514)) := by
  unfold Gen.k0_pay4
  refine extractStridedSlice_apply _ _ _ _ _ fun a => ?_
  match a with
  | ⟨0, _⟩ => show r.val = 0 + r.val; omega
  | ⟨1, _⟩ => show 513 = 513 + u.val; omega

/-! ## Layout reads used below -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Columns 0–255 of an 8192 x 514 array. -/
theorem slice_lo (c : S8192x514.Idx → α) (r : Fin 8192) (k : Fin 256) :
    extractStridedSlice S8192x256 ![0, 0] c slices_S8192x514_o0_0_S8192x256 (ix2 r k) = c (ix2 r (⟨k.val, by omega⟩ : Fin 514)) := by
  refine extractStridedSlice_apply _ _ _ _ _ fun a => ?_
  match a with
  | ⟨0, _⟩ => show r.val = 0 + r.val; omega
  | ⟨1, _⟩ => show k.val = 0 + k.val; omega

/-- Columns 256–511 of an 8192 x 514 array. -/
theorem slice_hi (c : S8192x514.Idx → α) (r : Fin 8192) (k : Fin 256) :
    extractStridedSlice S8192x256 ![0, 256] c slices_S8192x514_o0_256_S8192x256 (ix2 r k) = c (ix2 r (⟨256 + k.val, by omega⟩ : Fin 514)) := by
  refine extractStridedSlice_apply _ _ _ _ _ fun a => ?_
  match a with
  | ⟨0, _⟩ => show r.val = 0 + r.val; omega
  | ⟨1, _⟩ => show 256 + k.val = 256 + k.val; rfl

end Layout

/-- The sum over the 256 lanes of a row of squared differences, kept as a column: at row `r` it is the sum over the
    lanes of the squares. -/
theorem rowSq_apply (z v : FVec Ideal S8192x256 .f32) (r : Fin 8192) (u : Fin 1) :
    shapeCast S8192x1 (multiReduction (F := Ideal) .add [1] S8192 (mulf (subf z v) (subf z v)) 0x00000000#32
        reduces_S8192x256_S8192 (.inl rfl) rfl) shapeCasts_S8192_S8192x1 (ix2 r u)
      = ∑ k : Fin 256, (z (ix2 r k) - v (ix2 r k)) * (z (ix2 r k) - v (ix2 r k)) := by
  refine (shapeCast_a_a1_apply _ _ r u).trans ?_
  refine (Ideal.multiReduction_add_single _ _ reduces_S8192x256_S8192 _ _ (ix1 r)).trans ?_
  refine Finset.sum_congr rfl fun k _ => ?_
  have e : (reduces_S8192x256_S8192).lift (ix1 r) k = ix2 r k :=
    funext fun a => match a with | ⟨0, _⟩ => Fin.ext rfl | ⟨1, _⟩ => Fin.ext rfl
  rw [e]; rfl

/-- The squared distance of row `r` of the tile to the first 256 gathered columns. -/
theorem pay5_apply' (x1b : Vec Ideal S1x1x8192 .i32) (x2b : Vec Ideal S256x514 .bf16) (x0b : Vec Ideal S8192x256 .f32)
    (r : Fin 8192) (u : Fin 1) :
    Gen.k0_pay5 (F := Ideal) x1b x2b x0b (ix2 r u)
      = ∑ k : Fin 256, (x0b (ix2 r k) - Gen.k0_pay2 (F := Ideal) x1b x2b (ix2 r (⟨k.val, by omega⟩ : Fin 514)))
          * (x0b (ix2 r k) - Gen.k0_pay2 (F := Ideal) x1b x2b (ix2 r (⟨k.val, by omega⟩ : Fin 514))) := by
  unfold Gen.k0_pay5
  refine (rowSq_apply _ _ r u).trans ?_
  refine Finset.sum_congr rfl fun k _ => ?_
  exact congrArg (fun t => (x0b (ix2 r k) - t) * (x0b (ix2 r k) - t)) (slice_lo _ r k)

/-- The squared distance of row `r` of the tile to the second 256 gathered columns. -/
theorem pay6_apply' (x1b : Vec Ideal S1x1x8192 .i32) (x2b : Vec Ideal S256x514 .bf16) (x0b : Vec Ideal S8192x256 .f32)
    (r : Fin 8192) (u : Fin 1) :
    Gen.k0_pay6 (F := Ideal) x1b x2b x0b (ix2 r u)
      = ∑ k : Fin 256, (x0b (ix2 r k) - Gen.k0_pay2 (F := Ideal) x1b x2b (ix2 r (⟨256 + k.val, by omega⟩ : Fin 514)))
          * (x0b (ix2 r k) - Gen.k0_pay2 (F := Ideal) x1b x2b (ix2 r (⟨256 + k.val, by omega⟩ : Fin 514))) := by
  unfold Gen.k0_pay6
  refine (rowSq_apply _ _ r u).trans ?_
  refine Finset.sum_congr rfl fun k _ => ?_
  exact congrArg (fun t => (x0b (ix2 r k) - t) * (x0b (ix2 r k) - t)) (slice_hi _ r k)

/-! ## The softmax weights of a row -/

section Row
variable (x1b : Vec Ideal S1x1x8192 .i32) (x2b : Vec Ideal S256x514 .bf16) (x0b : Vec Ideal S8192x256 .f32)
  (r : Fin 8192) (u : Fin 1)

/-- The first logit: minus the first squared distance, over the temperature. -/
theorem pay7_apply' : Gen.k0_pay7 (F := Ideal) x1b x2b x0b (ix2 r u)
    = Ideal.div (-(Gen.k0_pay5 (F := Ideal) x1b x2b x0b (ix2 r u))) half := by
  unfold Gen.k0_pay7
  show Ideal.div (Ideal.ofBits .f32 0x00000000#32 - Gen.k0_pay5 (F := Ideal) x1b x2b x0b (ix2 r u)) (Ideal.ofBits .f32 0x3F000000#32) = _
  rw [Ideal.ofBits_zero_f32, zero_sub]

/-- The second logit. -/
theorem pay8_apply' : Gen.k0_pay8 (F := Ideal) x1b x2b x0b (ix2 r u)
    = Ideal.div (-(Gen.k0_pay6 (F := Ideal) x1b x2b x0b (ix2 r u))) half := by
  unfold Gen.k0_pay8
  show Ideal.div (Ideal.ofBits .f32 0x00000000#32 - Gen.k0_pay6 (F := Ideal) x1b x2b x0b (ix2 r u)) (Ideal.ofBits .f32 0x3F000000#32) = _
  rw [Ideal.ofBits_zero_f32, zero_sub]

/-- Their maximum. -/
theorem pay9_apply' : Gen.k0_pay9 (F := Ideal) x1b x2b x0b (ix2 r u)
    = max (Gen.k0_pay7 (F := Ideal) x1b x2b x0b (ix2 r u)) (Gen.k0_pay8 (F := Ideal) x1b x2b x0b (ix2 r u)) := by
  unfold Gen.k0_pay9; rfl

/-- The first shifted exponential. -/
theorem pay10_apply' : Gen.k0_pay10 (F := Ideal) x1b x2b x0b (ix2 r u)
    = Ideal.exp (Gen.k0_pay7 (F := Ideal) x1b x2b x0b (ix2 r u) - Gen.k0_pay9 (F := Ideal) x1b x2b x0b (ix2 r u)) := by
  unfold Gen.k0_pay10; rfl

/-- The second shifted exponential. -/
theorem pay11_apply' : Gen.k0_pay11 (F := Ideal) x1b x2b x0b (ix2 r u)
    = Ideal.exp (Gen.k0_pay8 (F := Ideal) x1b x2b x0b (ix2 r u) - Gen.k0_pay9 (F := Ideal) x1b x2b x0b (ix2 r u)) := by
  unfold Gen.k0_pay11; rfl

/-- Their sum. -/
theorem pay12_apply' : Gen.k0_pay12 (F := Ideal) x1b x2b x0b (ix2 r u)
    = Gen.k0_pay10 (F := Ideal) x1b x2b x0b (ix2 r u) + Gen.k0_pay11 (F := Ideal) x1b x2b x0b (ix2 r u) := by
  unfold Gen.k0_pay12; rfl

/-- The first weight. -/
theorem pay13_apply' : Gen.k0_pay13 (F := Ideal) x1b x2b x0b (ix2 r u)
    = Ideal.div (Gen.k0_pay10 (F := Ideal) x1b x2b x0b (ix2 r u)) (Gen.k0_pay12 (F := Ideal) x1b x2b x0b (ix2 r u)) := by
  unfold Gen.k0_pay13; rfl

/-- The second weight. -/
theorem pay14_apply' : Gen.k0_pay14 (F := Ideal) x1b x2b x0b (ix2 r u)
    = Ideal.div (Gen.k0_pay11 (F := Ideal) x1b x2b x0b (ix2 r u)) (Gen.k0_pay12 (F := Ideal) x1b x2b x0b (ix2 r u)) := by
  unfold Gen.k0_pay14; rfl

/-- The first weight times the first squared distance. -/
theorem pay15_apply' : Gen.k0_pay15 (F := Ideal) x1b x2b x0b (ix2 r u)
    = Gen.k0_pay13 (F := Ideal) x1b x2b x0b (ix2 r u) * Gen.k0_pay5 (F := Ideal) x1b x2b x0b (ix2 r u) := by
  unfold Gen.k0_pay15; rfl

/-- The hinge of a row, from the payloads the store's payload reads: it is the row function of the two squared
    distances and the two gathered squared radii. -/
theorem hinge_eq :
    max ((Gen.k0_pay15 (F := Ideal) x1b x2b x0b (ix2 r u)
            + Gen.k0_pay14 (F := Ideal) x1b x2b x0b (ix2 r u) * Gen.k0_pay6 (F := Ideal) x1b x2b x0b (ix2 r u))
          - one * (Gen.k0_pay13 (F := Ideal) x1b x2b x0b (ix2 r u) * Gen.k0_pay3 (F := Ideal) x1b x2b (ix2 r u)
            + Gen.k0_pay14 (F := Ideal) x1b x2b x0b (ix2 r u) * Gen.k0_pay4 (F := Ideal) x1b x2b (ix2 r u))) 0
      = rowLoss (Gen.k0_pay5 (F := Ideal) x1b x2b x0b (ix2 r u)) (Gen.k0_pay6 (F := Ideal) x1b x2b x0b (ix2 r u))
          (Gen.k0_pay3 (F := Ideal) x1b x2b (ix2 r u)) (Gen.k0_pay4 (F := Ideal) x1b x2b (ix2 r u)) := by
  rw [pay15_apply', pay13_apply', pay14_apply', pay12_apply', pay10_apply', pay11_apply', pay9_apply', pay7_apply', pay8_apply']
  rfl

end Row

/-! ## The mask of position (0, 0) -/

/-- A 32-bit coordinate compared with zero: the bit is set exactly at coordinate zero. -/
theorem cmp_zero (n : Nat) (h : n < 4294967296) :
    IntOp.cmpi .eq (BitVec.ofNat 32 n) 0#32 = if n = 0 then 1#1 else 0#1 := by
  unfold IntOp.cmpi
  by_cases hn : n = 0
  · subst hn; rfl
  · rw [if_neg hn]
    have hne : (BitVec.ofNat 32 n == 0#32) = false := by
      rw [beq_eq_false_iff_ne]
      intro e
      have e' := congrArg BitVec.toNat e
      rw [BitVec.toNat_ofNat] at e'
      have : n % 2 ^ 32 = n := Nat.mod_eq_of_lt h
      rw [this] at e'
      exact hn e'
    show BitVec.ofBool (BitVec.ofNat 32 n == 0#32) = 0#1
    rw [hne]; rfl

/-- The two coordinate tests joined: the bit is set exactly at (0, 0). -/
theorem mask_apply (i : Fin 8) (j : Fin 128) :
    (andi (cmpi .eq (iota .tc S8x128 32 [0] iota_S8x128_d0_w32) (broadcast S8x128 0#32))
        (cmpi .eq (iota .tc S8x128 32 [1] iota_S8x128_d1_w32) (broadcast S8x128 0#32)) : IVec S8x128 1) (ix2 i j)
      = if i.val = 0 ∧ j.val = 0 then 1#1 else 0#1 := by
  show IntOp.andi (IntOp.cmpi .eq (iota .tc S8x128 32 [0] iota_S8x128_d0_w32 (ix2 i j)) 0#32)
      (IntOp.cmpi .eq (iota .tc S8x128 32 [1] iota_S8x128_d1_w32 (ix2 i j)) 0#32) = _
  rw [iota_single_apply, iota_single_apply]
  show IntOp.andi (IntOp.cmpi .eq (BitVec.ofNat 32 i.val) 0#32) (IntOp.cmpi .eq (BitVec.ofNat 32 j.val) 0#32) = _
  rw [cmp_zero i.val (by omega), cmp_zero j.val (by omega)]
  by_cases hi : i.val = 0
  · by_cases hj : j.val = 0
    · rw [if_pos hi, if_pos hj, if_pos ⟨hi, hj⟩]; rfl
    · rw [if_pos hi, if_neg hj, if_neg (fun h => hj h.2)]; rfl
  · by_cases hj : j.val = 0
    · rw [if_neg hi, if_pos hj, if_neg (fun h => hi h.1)]; rfl
    · rw [if_neg hi, if_neg hj, if_neg (fun h => hi h.1)]; rfl

/-! ## The tile sum -/

/-- The rows of the tile as the indices of the 1 x 8192 x 1 cast of the column of hinges. -/
def rowEquiv : Fin 8192 ≃ S1x8192x1.Idx where
  toFun r := ix3 (0 : Fin 1) r (0 : Fin 1)
  invFun i := i 1
  left_inv r := rfl
  right_inv i := funext fun a => match a with
    | ⟨0, _⟩ => Fin.ext (by have h := (i 0).isLt; change (i 0).val < 1 at h; show 0 = (i 0).val; omega)
    | ⟨1, _⟩ => rfl
    | ⟨2, _⟩ => Fin.ext (by have h := (i 2).isLt; change (i 2).val < 1 at h; show 0 = (i 2).val; omega)

/-- The total of the 1 x 8192 x 1 cast of a column, taken out as a scalar, is the sum of the column's 8192 entries. -/
theorem tileSum_eq (v : FVec Ideal S8192x1 .f32) :
    extractAt ![0, 0, 0] (shapeCast S1x1x1 (multiReduction (F := Ideal) .add [1, 2] S1
        (shapeCast S1x8192x1 v shapeCasts_S8192x1_S1x8192x1) 0x00000000#32 reduces_S1x8192x1_S1 (.inl rfl) rfl)
        shapeCasts_S1_S1x1x1) inpos_S1x1x1_p0_0_0
      = ∑ r : Fin 8192, v (ix2 r (0 : Fin 1)) := by
  show multiReduction (F := Ideal) .add [1, 2] S1 (shapeCast S1x8192x1 v shapeCasts_S8192x1_S1x8192x1) 0x00000000#32
      reduces_S1x8192x1_S1 (.inl rfl) rfl _ = _
  refine (Ideal.multiReduction_add_total (shapeCast S1x8192x1 v shapeCasts_S8192x1_S1x8192x1) 0x00000000#32
    reduces_S1x8192x1_S1 (by decide) (.inl rfl) rfl _).trans ?_
  refine (Equiv.sum_comp rowEquiv _).symm.trans ?_
  refine Finset.sum_congr rfl fun r _ => ?_
  exact shapeCast_ab_1ab_apply v _ 0 r 0

/-! ## The stored block -/

/-- The store's payload at (0, i, j): the sum of the 8192 hinges at (0, 0), zero elsewhere. -/
theorem pay1_apply' (v16 v17 v26 v41 v42 v43 : FVec Ideal S8192x1 .f32) (i : Fin 8) (j : Fin 128) :
    Gen.k0_pay1 (F := Ideal) v16 v17 v26 v41 v42 v43 (ix3 (0 : Fin 1) i j)
      = if i.val = 0 ∧ j.val = 0 then
          ∑ r : Fin 8192, max ((v43 (ix2 r (0 : Fin 1)) + v42 (ix2 r (0 : Fin 1)) * v26 (ix2 r (0 : Fin 1)))
            - one * (v41 (ix2 r (0 : Fin 1)) * v16 (ix2 r (0 : Fin 1)) + v42 (ix2 r (0 : Fin 1)) * v17 (ix2 r (0 : Fin 1)))) 0
        else 0 := by
  unfold Gen.k0_pay1
  refine (shapeCast_ab_1ab_apply _ _ 0 i j).trans ?_
  refine (select_apply _ _ _ (ix2 i j)).trans ?_
  refine (congrArg (fun b => Scalar.select b _ _) (mask_apply i j)).trans ?_
  by_cases h : i.val = 0 ∧ j.val = 0
  · rw [if_pos h, if_pos h]
    refine (select_one _ _).trans ?_
    refine (tileSum_eq _).trans ?_
    refine Finset.sum_congr rfl fun r _ => ?_
    show max _ (Ideal.ofBits .f32 0x00000000#32) = _
    rw [Ideal.ofBits_zero_f32]; rfl
  · rw [if_neg h, if_neg h]
    refine (select_zero _ _).trans ?_
    exact Ideal.ofBits_zero_f32

/-! ## The gathered rows are rows of the high table -/

section HiRow
variable (x2 : (⟨3, ![100, 2, 256]⟩ : Shape).Idx → EReal) (x3 : (⟨2, ![100, 2]⟩ : Shape).Idx → EReal) (l : Fin 100)

/-- Columns 0–255 of a row of the high table: the first centre. -/
theorem hiRow_lo (k : Fin 256) : hiRow x2 x3 l (⟨k.val, by omega⟩ : Fin 514) = x2 (ix3 l 0 k) := by
  unfold hiRow
  have hc : ((⟨k.val, by omega⟩ : Fin 514)).val < 256 := k.isLt
  rw [dif_pos hc]

/-- Columns 256–511: the second centre. -/
theorem hiRow_hi (k : Fin 256) : hiRow x2 x3 l (⟨256 + k.val, by omega⟩ : Fin 514) = x2 (ix3 l 1 k) := by
  unfold hiRow
  have h0 : ¬ ((⟨256 + k.val, by omega⟩ : Fin 514)).val < 256 := by show ¬ (256 + k.val < 256); omega
  have h1 : ((⟨256 + k.val, by omega⟩ : Fin 514)).val < 512 := by show 256 + k.val < 512; omega
  rw [dif_neg h0, dif_pos h1]
  exact congrArg (fun t => x2 (ix3 l 1 t)) (Fin.ext (by show 256 + k.val - 256 = k.val; omega))

/-- Column 512: the first squared radius. -/
theorem hiRow_512 : hiRow x2 x3 l (⟨512, by omega⟩ : Fin 514) = radius x3 l 0 * radius x3 l 0 := by
  unfold hiRow
  rw [dif_neg (show ¬ ((⟨512, by omega⟩ : Fin 514)).val < 256 by decide),
    dif_neg (show ¬ ((⟨512, by omega⟩ : Fin 514)).val < 512 by decide), if_pos rfl]

/-- Column 513: the second squared radius. -/
theorem hiRow_513 : hiRow x2 x3 l (⟨513, by omega⟩ : Fin 514) = radius x3 l 1 * radius x3 l 1 := by
  unfold hiRow
  rw [dif_neg (show ¬ ((⟨513, by omega⟩ : Fin 514)).val < 256 by decide),
    dif_neg (show ¬ ((⟨513, by omega⟩ : Fin 514)).val < 512 by decide),
    if_neg (show ¬ ((⟨513, by omega⟩ : Fin 514)).val = 512 by decide)]

end HiRow

/-! ## The block the body stores -/

/-- Given that the gathered rows are the rows of the high table at the tile's labels, the stored block holds at (0, 0)
    the sum over the tile's 8192 rows of the row function of the row's two squared distances to its class's centres and
    the class's two squared radii, and zero elsewhere. -/
theorem pay3_apply (x0b : Vec Ideal S8192x256 .f32) (x1b : Vec Ideal S1x1x8192 .i32) (x2b : Vec Ideal S256x514 .bf16)
    (x2 : (⟨3, ![100, 2, 256]⟩ : Shape).Idx → EReal) (x3 : (⟨2, ![100, 2]⟩ : Shape).Idx → EReal) (lab : Fin 8192 → Fin 100)
    (hcomb : ∀ (r : Fin 8192) (j : Fin 514), Gen.k0_pay2 (F := Ideal) x1b x2b (ix2 r j) = Cert.Spec.hiRow x2 x3 (lab r) j)
    (i : Fin 8) (j : Fin 128) :
    Hand.pay3 (F := Ideal) x0b x1b x2b (ix3 0 i j)
      = if i.val = 0 ∧ j.val = 0 then
          ∑ r : Fin 8192, Cert.Spec.rowLoss (Cert.Spec.sqDist (fun k => x0b (ix2 r k)) (fun k => x2 (ix3 (lab r) 0 k)))
            (Cert.Spec.sqDist (fun k => x0b (ix2 r k)) (fun k => x2 (ix3 (lab r) 1 k)))
            (Cert.Spec.radius x3 (lab r) 0 * Cert.Spec.radius x3 (lab r) 0) (Cert.Spec.radius x3 (lab r) 1 * Cert.Spec.radius x3 (lab r) 1)
        else 0 := by
  unfold Hand.pay3
  rw [ld0, ld1, ld2]
  refine (pay1_apply' _ _ _ _ _ _ i j).trans ?_
  by_cases h : i.val = 0 ∧ j.val = 0
  · rw [if_pos h, if_pos h]
    refine Finset.sum_congr rfl fun r _ => ?_
    refine (hinge_eq x1b x2b x0b r 0).trans ?_
    rw [pay5_apply', pay6_apply', pay3_apply', pay4_apply']
    simp only [hcomb, hiRow_lo, hiRow_hi, hiRow_512, hiRow_513]
    rfl
  · rw [if_neg h, if_neg h]

end Cert.KerRow

end
-- ==== Proof.HostPre.lean ====
import proofs.«421938_j49280454754360_3_alg».proof.Proof.KernelIdealFrame
import proofs.«421938_j49280454754360_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.IdealHost

set_option maxRecDepth 16384

/-!
# The two computed operand arrays when the region is entered

Before the pallas_call, @main's 38 host operations build the kernel's table from the centres `x2` (100 × 2 × 256) and
the radii `x3` (100 × 2), and re-lay the 131072 labels as 16 rows of 8192. On the extended reals a narrowing to bf16 and
the widening back are the identity, so the "high" part of a value is the value and its "low" part is the value less
itself. The table (256 × 514) is therefore, row by row:

* rows 0 – 99: the two centres of the class side by side (columns 0 – 255 and 256 – 511) and the two squared radii
  `(|x3| + ε)²` (columns 512, 513);
* rows 128 – 227: each centre entry less itself, and zero in the two radius columns;
* rows 100 – 127 and 228 – 255: the padding value, the integer zero converted, which is zero.

This is `Cert.Spec.tab`. The proof reads the fold of the 38 operations in three stretches, each over any contents it
starts from (`A_*`, `B_*`, `C_*`), composes them into one term of `x2` and `x3` (`table`, `V_table_eq`), and reads that
term at an index: a concatenation reads the piece whose span holds the coordinate, a padding reads the operand inside
and the padding value outside, a slice shifts a coordinate, a reshape keeps the row-major position.
-/

noncomputable section

namespace Cert.HostPre

open Cert.KernelIdeal Cert.KernelIdeal.Gen Cert.KernelIdeal.Hand
open Idealize.ShloMosaic Idealize.ShloMosaic.ValueIdx Idealize.ShloMosaic.TcCoe Idealize.SL.Sem

/-! ## The host lines before the region, cut in three

The 38 host operations are read in three stretches: the first 28 (everything up to the four columns blocks of the two
concatenations), the two four-piece concatenations with the integer zero that follows them, and the seven operations
of the two paddings, the stacking of the two halves and the re-laying of the labels. Each stretch is read at the
buffers the next one uses, over ANY contents it starts from. -/

/-- The first 28 operations of the first stretch of @main. -/
abbrev opsA : List (HloOp τ sig (Elt Ideal)) := (hostOps0 (F := Ideal)).take 28
/-- The last three operations of the first stretch: the two four-piece concatenations and an integer zero. -/
abbrev opsB : List (HloOp τ sig (Elt Ideal)) := (hostOps0 (F := Ideal)).drop 28
/-- The other four stretches: the two paddings, the stacking, the labels' reshape. -/
abbrev opsC : List (HloOp τ sig (Elt Ideal)) := hostOps0_1 ++ (hostOps0_2 ++ (hostOps0_3 ++ hostOps0_4))

theorem pre_split : List.flatten (preOps (F := Ideal)) = opsA ++ (opsB ++ opsC) := by
  simp only [preOps, List.flatten_cons, List.flatten_nil, List.append_nil, opsA, opsB, opsC]
  rw [← List.append_assoc (List.take 28 _), List.take_append_drop]

/-! ### The values the operations compute, as functions of the two arguments -/

/-- |x3| + ε, entry by entry. -/
def radii (x3 : FVec Ideal S100x2 .f32) : FVec Ideal S100x2 .f32 :=
  addf (Host.absf x3) (broadcastInDim S100x2 ![] bcast_S_S100x2 (constant (F := Ideal) S_ .f32 0x358637BD#32))

/-- The first centre of every class: x2[:, 0, :]. -/
def centre0 (x2 : FVec Ideal S100x2x256 .f32) : FVec Ideal S100x256 .f32 :=
  shapeCast S100x256 (extractStridedSlice S100x1x256 ![0, 0, 0] x2 slices_S100x2x256_S100x1x256_0_0_0) shapeCasts_S100x1x256_S100x256
/-- The second centre of every class: x2[:, 1, :]. -/
def centre1 (x2 : FVec Ideal S100x2x256 .f32) : FVec Ideal S100x256 .f32 :=
  shapeCast S100x256 (extractStridedSlice S100x1x256 ![0, 1, 0] x2 slices_S100x2x256_S100x1x256_0_1_0) shapeCasts_S100x1x256_S100x256

/-- The squared first radius of every class. -/
def rsq0 (x3 : FVec Ideal S100x2 .f32) : FVec Ideal S100 .f32 :=
  mulf (shapeCast S100 (extractStridedSlice S100x1 ![0, 0] (radii x3) slices_S100x2_S100x1_0_0) shapeCasts_S100x1_S100)
    (shapeCast S100 (extractStridedSlice S100x1 ![0, 0] (radii x3) slices_S100x2_S100x1_0_0) shapeCasts_S100x1_S100)
/-- The squared second radius of every class. -/
def rsq1 (x3 : FVec Ideal S100x2 .f32) : FVec Ideal S100 .f32 :=
  mulf (shapeCast S100 (extractStridedSlice S100x1 ![0, 1] (radii x3) slices_S100x2_S100x1_0_1) shapeCasts_S100x1_S100)
    (shapeCast S100 (extractStridedSlice S100x1 ![0, 1] (radii x3) slices_S100x2_S100x1_0_1) shapeCasts_S100x1_S100)

/-- The high part of a block of centres: the block itself. -/
def hiPart (v : FVec Ideal S100x256 .f32) : FVec Ideal S100x256 .bf16 := truncf .bf16 v bitsLt_bf16_f32
/-- The low part of a block of centres: the block less its high part. -/
def loPart (v : FVec Ideal S100x256 .f32) : FVec Ideal S100x256 .bf16 :=
  truncf .bf16 (subf v (extf .f32 (truncf .bf16 v bitsLt_bf16_f32) bitsLt_bf16_f32)) bitsLt_bf16_f32
/-- A vector of 100 squared radii as a column. -/
def radCol (r : FVec Ideal S100 .f32) : FVec Ideal S100x1 .bf16 :=
  broadcastInDim S100x1 ![0] bcast_S100_S100x1_0 (truncf .bf16 r bitsLt_bf16_f32)
/-- The zero column. -/
def zeroCol : FVec Ideal S100x1 .bf16 :=
  broadcastInDim S100x1 ![] bcast_S_S100x1 (constant (F := Ideal) S_ .bf16 0x0000#16)
/-- The padding value: the integer zero converted. -/
def zeroPad : FVec Ideal S_ .bf16 := sitofp .bf16 (constantI S_ 32 0#32)

/-- Two blocks of 256 columns and two single columns side by side: 514 columns. -/
def cat4 (a b : FVec Ideal S100x256 .bf16) (c d : FVec Ideal S100x1 .bf16) : FVec Ideal S100x514 .bf16 :=
  concatenate S100x514 1 [⟨S100x256, a⟩, ⟨S100x256, b⟩, ⟨S100x1, c⟩, ⟨S100x1, d⟩] concatenates_S100x256_S100x256_S100x1_S100x1_S100x514_d1
/-- The 100 × 514 high half: the two centres side by side, then the two squared radii. -/
def wHi (x2 : FVec Ideal S100x2x256 .f32) (x3 : FVec Ideal S100x2 .f32) : FVec Ideal S100x514 .bf16 :=
  cat4 (hiPart (centre0 x2)) (hiPart (centre1 x2)) (radCol (rsq0 x3)) (radCol (rsq1 x3))
/-- The 100 × 514 low half: the two centres' low parts side by side, then two zero columns. -/
def wLo (x2 : FVec Ideal S100x2x256 .f32) : FVec Ideal S100x514 .bf16 :=
  cat4 (loPart (centre0 x2)) (loPart (centre1 x2)) zeroCol zeroCol
/-- A half padded with 28 rows of the padding value. -/
def padded (w : FVec Ideal S100x514 .bf16) : FVec Ideal S128x514 .bf16 :=
  pad S128x514 ![0, 0] ![28, 0] ![0, 0] w zeroPad pads_S100x514_S128x514_0280_000 h_S_
/-- Two blocks of 128 rows, one over the other: 256 rows. -/
def stack (p q : FVec Ideal S128x514 .bf16) : FVec Ideal S256x514 .bf16 :=
  concatenate S256x514 0 [⟨S128x514, p⟩, ⟨S128x514, q⟩] concatenates_S128x514_S128x514_S256x514_d0
/-- The table: the padded high half over the padded low half. -/
def table (x2 : FVec Ideal S100x2x256 .f32) (x3 : FVec Ideal S100x2 .f32) : FVec Ideal S256x514 .bf16 :=
  stack (padded (wHi x2 x3)) (padded (wLo x2))

/-! ### The first 28 operations -/

section StretchA
variable (W : Valuation τ sig (Elt Ideal))

set_option maxHeartbeats 1000000 in
theorem A_v13 : (StableHlo.after opsA W (Proc.devRef .tc main_v13) : FVec Ideal S100x256 .bf16)
    = hiPart (centre0 (W (Proc.devRef .tc main_arg2))) := by
  simp only [opsA, hostOps0, List.take_succ_cons, List.take_zero]
  after_results
  rfl

set_option maxHeartbeats 1000000 in
theorem A_v17 : (StableHlo.after opsA W (Proc.devRef .tc main_v17) : FVec Ideal S100x256 .bf16)
    = hiPart (centre1 (W (Proc.devRef .tc main_arg2))) := by
  simp only [opsA, hostOps0, List.take_succ_cons, List.take_zero]
  after_results
  rfl

set_option maxHeartbeats 1000000 in
theorem A_v16 : (StableHlo.after opsA W (Proc.devRef .tc main_v16) : FVec Ideal S100x256 .bf16)
    = loPart (centre0 (W (Proc.devRef .tc main_arg2))) := by
  simp only [opsA, hostOps0, List.take_succ_cons, List.take_zero]
  after_results
  rfl

set_option maxHeartbeats 1000000 in
theorem A_v20 : (StableHlo.after opsA W (Proc.devRef .tc main_v20) : FVec Ideal S100x256 .bf16)
    = loPart (centre1 (W (Proc.devRef .tc main_arg2))) := by
  simp only [opsA, hostOps0, List.take_succ_cons, List.take_zero]
  after_results
  rfl

set_option maxHeartbeats 1000000 in
theorem A_v24 : (StableHlo.after opsA W (Proc.devRef .tc main_v24) : FVec Ideal S100x1 .bf16)
    = radCol (rsq0 (W (Proc.devRef .tc main_arg3))) := by
  simp only [opsA, hostOps0, List.take_succ_cons, List.take_zero]
  after_results
  rfl

set_option maxHeartbeats 1000000 in
theorem A_v25 : (StableHlo.after opsA W (Proc.devRef .tc main_v25) : FVec Ideal S100x1 .bf16)
    = radCol (rsq1 (W (Proc.devRef .tc main_arg3))) := by
  simp only [opsA, hostOps0, List.take_succ_cons, List.take_zero]
  after_results
  rfl

set_option maxHeartbeats 1000000 in
theorem A_v23 : (StableHlo.after opsA W (Proc.devRef .tc main_v23) : FVec Ideal S100x1 .bf16) = zeroCol := by
  simp only [opsA, hostOps0, List.take_succ_cons, List.take_zero]
  after_results
  rfl

set_option maxHeartbeats 1000000 in
theorem A_arg1 : StableHlo.after opsA W (Proc.devRef .tc main_arg1) = W (Proc.devRef .tc main_arg1) := by
  simp only [opsA, hostOps0, List.take_succ_cons, List.take_zero]
  after_results

end StretchA

/-! ### The two four-piece concatenations -/

section StretchB
variable (A : Valuation τ sig (Elt Ideal))

set_option maxHeartbeats 1000000 in
theorem B_v26 : (StableHlo.after opsB A (Proc.devRef .tc main_v26) : FVec Ideal S100x514 .bf16)
    = concatenate S100x514 1 [⟨S100x256, (A (Proc.devRef .tc main_v13) : FVec Ideal S100x256 .bf16)⟩,
        ⟨S100x256, (A (Proc.devRef .tc main_v17) : FVec Ideal S100x256 .bf16)⟩,
        ⟨S100x1, (A (Proc.devRef .tc main_v24) : FVec Ideal S100x1 .bf16)⟩,
        ⟨S100x1, (A (Proc.devRef .tc main_v25) : FVec Ideal S100x1 .bf16)⟩]
        concatenates_S100x256_S100x256_S100x1_S100x1_S100x514_d1 := by
  simp only [opsB, hostOps0, List.drop_succ_cons, List.drop_zero, StableHlo.after_cons, StableHlo.after_nil]
  rw [StableHlo.nullary_result_ne]; rotate_left; decide
  rw [StableHlo.nary_result_ne]; rotate_left; decide
  rw [StableHlo.nary4_result]
  rfl

set_option maxHeartbeats 1000000 in
theorem B_v27 : (StableHlo.after opsB A (Proc.devRef .tc main_v27) : FVec Ideal S100x514 .bf16)
    = concatenate S100x514 1 [⟨S100x256, (A (Proc.devRef .tc main_v16) : FVec Ideal S100x256 .bf16)⟩,
        ⟨S100x256, (A (Proc.devRef .tc main_v20) : FVec Ideal S100x256 .bf16)⟩,
        ⟨S100x1, (A (Proc.devRef .tc main_v23) : FVec Ideal S100x1 .bf16)⟩,
        ⟨S100x1, (A (Proc.devRef .tc main_v23) : FVec Ideal S100x1 .bf16)⟩]
        concatenates_S100x256_S100x256_S100x1_S100x1_S100x514_d1 := by
  simp only [opsB, hostOps0, List.drop_succ_cons, List.drop_zero, StableHlo.after_cons, StableHlo.after_nil]
  rw [StableHlo.nullary_result_ne]; rotate_left; decide
  rw [StableHlo.nary4_result]
  rw [StableHlo.nary_result_ne]; rotate_left; decide
  rw [StableHlo.nary_result_ne]; rotate_left; decide
  rw [StableHlo.nary_result_ne]; rotate_left; decide
  rfl

set_option maxHeartbeats 1000000 in
theorem B_c : (StableHlo.after opsB A (Proc.devRef .tc main_c) : IVec S_ 32) = constantI S_ 32 0#32 := by
  simp only [opsB, hostOps0, List.drop_succ_cons, List.drop_zero]
  after_results

set_option maxHeartbeats 1000000 in
theorem B_arg1 : StableHlo.after opsB A (Proc.devRef .tc main_arg1) = A (Proc.devRef .tc main_arg1) := by
  simp only [opsB, hostOps0, List.drop_succ_cons, List.drop_zero]
  after_results

end StretchB

/-! ### The paddings, the stacking, the labels -/

section StretchC
variable (B : Valuation τ sig (Elt Ideal))

set_option maxHeartbeats 1000000 in
theorem C_v30 : (StableHlo.after opsC B (Proc.devRef .tc main_v30) : FVec Ideal S256x514 .bf16)
    = concatenate S256x514 0 [⟨S128x514, pad S128x514 ![0, 0] ![28, 0] ![0, 0] (B (Proc.devRef .tc main_v26) : FVec Ideal S100x514 .bf16)
            (sitofp .bf16 (B (Proc.devRef .tc main_c) : IVec S_ 32) : FVec Ideal S_ .bf16) pads_S100x514_S128x514_0280_000 h_S_⟩,
          ⟨S128x514, padded (B (Proc.devRef .tc main_v27))⟩]
        concatenates_S128x514_S128x514_S256x514_d0 := by
  simp only [opsC, hostOps0_1, hostOps0_2, hostOps0_3, hostOps0_4, List.cons_append, List.nil_append]
  after_results
  rfl

set_option maxHeartbeats 1000000 in
theorem C_v31 : (StableHlo.after opsC B (Proc.devRef .tc main_v31) : IVec S16x1x8192 32)
    = shapeCast S16x1x8192 (B (Proc.devRef .tc main_arg1) : IVec S131072 32) shapeCasts_S131072_S16x1x8192 := by
  simp only [opsC, hostOps0_1, hostOps0_2, hostOps0_3, hostOps0_4, List.cons_append, List.nil_append]
  after_results
  rfl

end StretchC

/-! ### The two operand arrays when the region is entered -/

section Entered
variable (m : (ℓ : Loc nD τ sig) → Buf (Elt Ideal) ℓ) (c : Dev nD)

theorem V_table_eq : (Hand.V (F := Ideal) m c main_v30 : FVec Ideal S256x514 .bf16)
    = table (m (c, Proc.devRef .tc main_arg2)) (m (c, Proc.devRef .tc main_arg3)) := by
  show StableHlo.after (List.flatten (preOps (F := Ideal))) (fun b => m (c, b)) (Proc.devRef .tc main_v30) = _
  rw [pre_split, StableHlo.after_append, StableHlo.after_append, C_v30, B_v26, B_v27, B_c, A_v13, A_v17, A_v24, A_v25, A_v16, A_v20, A_v23]
  rfl

theorem V_labels_eq : (Hand.V (F := Ideal) m c main_v31 : IVec S16x1x8192 32)
    = shapeCast S16x1x8192 (m (c, Proc.devRef .tc main_arg1) : IVec S131072 32) shapeCasts_S131072_S16x1x8192 := by
  show StableHlo.after (List.flatten (preOps (F := Ideal))) (fun b => m (c, b)) (Proc.devRef .tc main_v31) = _
  rw [pre_split, StableHlo.after_append, StableHlo.after_append, C_v31, B_arg1, A_arg1]

end Entered

/-! ## The table read at an index -/

section Reads
variable (x2 : FVec Ideal S100x2x256 .f32) (x3 : FVec Ideal S100x2 .f32)

/-- |x3| + ε at an entry is the specification's radius. -/
theorem radii_apply (l : Fin 100) (κ : Fin 2) : radii x3 (ix2 l κ) = Cert.Spec.radius x3 l κ := rfl

theorem centre0_apply (l : Fin 100) (i : Fin 256) : centre0 x2 (ix2 l i) = x2 (ix3 l 0 i) := by
  unfold centre0
  refine (shapeCast_apply _ _ (ix2 l i) (ix3 l (0 : Fin 1) i) ?_).trans ?_
  · rw [Shape.rowMajor_val_three, Shape.rowMajor_val_two]
    show (l.val * 1 + 0) * 256 + i.val = l.val * 256 + i.val
    omega
  · exact slice3_axis1_apply (n0 := 100) (n1 := 2) (n2 := 256) (m := 1) 0 x2 _ l 0 i 0 rfl

theorem centre1_apply (l : Fin 100) (i : Fin 256) : centre1 x2 (ix2 l i) = x2 (ix3 l 1 i) := by
  unfold centre1
  refine (shapeCast_apply _ _ (ix2 l i) (ix3 l (0 : Fin 1) i) ?_).trans ?_
  · rw [Shape.rowMajor_val_three, Shape.rowMajor_val_two]
    show (l.val * 1 + 0) * 256 + i.val = l.val * 256 + i.val
    omega
  · exact slice3_axis1_apply (n0 := 100) (n1 := 2) (n2 := 256) (m := 1) 1 x2 _ l 0 i 1 rfl

theorem radiusAt0_apply (l : Fin 100) :
    shapeCast S100 (extractStridedSlice S100x1 ![0, 0] (radii x3) slices_S100x2_S100x1_0_0) shapeCasts_S100x1_S100 (ix1 l)
      = Cert.Spec.radius x3 l 0 := by
  refine (shapeCast_apply _ _ (ix1 l) (ix2 l (0 : Fin 1)) ?_).trans ?_
  · rw [Shape.rowMajor_val_two, Shape.rowMajor_val_one]
    show l.val * 1 + 0 = l.val
    omega
  · exact (slice2_axis1_apply (n0 := 100) (n1 := 2) (m := 1) 0 (radii x3) _ l 0 0 rfl).trans (radii_apply x3 l 0)

theorem radiusAt1_apply (l : Fin 100) :
    shapeCast S100 (extractStridedSlice S100x1 ![0, 1] (radii x3) slices_S100x2_S100x1_0_1) shapeCasts_S100x1_S100 (ix1 l)
      = Cert.Spec.radius x3 l 1 := by
  refine (shapeCast_apply _ _ (ix1 l) (ix2 l (0 : Fin 1)) ?_).trans ?_
  · rw [Shape.rowMajor_val_two, Shape.rowMajor_val_one]
    show l.val * 1 + 0 = l.val
    omega
  · exact (slice2_axis1_apply (n0 := 100) (n1 := 2) (m := 1) 1 (radii x3) _ l 0 1 rfl).trans (radii_apply x3 l 1)

theorem rsq0_apply (l : Fin 100) : rsq0 x3 (ix1 l) = Cert.Spec.radius x3 l 0 * Cert.Spec.radius x3 l 0 := by
  unfold rsq0
  rw [mulf_apply, radiusAt0_apply]

theorem rsq1_apply (l : Fin 100) : rsq1 x3 (ix1 l) = Cert.Spec.radius x3 l 1 * Cert.Spec.radius x3 l 1 := by
  unfold rsq1
  rw [mulf_apply, radiusAt1_apply]

/-- The high part of an entry is the entry (the narrowing is the identity on the extended reals). -/
theorem hiPart_apply (v : FVec Ideal S100x256 .f32) (i : S100x256.Idx) : hiPart v i = v i := rfl
/-- The low part of an entry is the entry less itself. -/
theorem loPart_apply (v : FVec Ideal S100x256 .f32) (i : S100x256.Idx) : loPart v i = v i - v i := rfl

theorem radCol_apply (r : FVec Ideal S100 .f32) (l : Fin 100) (u : Fin 1) : radCol r (ix2 l u) = r (ix1 l) := by
  unfold radCol
  refine (broadcastInDim_apply _ _ _ (ix2 l u) (ix1 l) (fun a => ?_)).trans rfl
  match a with
  | ⟨0, _⟩ => rw [if_neg (by show ¬((100 : ℕ) = 1); omega)]; rfl

theorem zeroCol_apply (i : S100x1.Idx) : zeroCol i = 0 := by
  unfold zeroCol
  show Ideal.ofBits .bf16 0x0000#16 = 0
  exact Ideal.ofBits_zero_bf16

theorem zeroPad_apply (i : S_.Idx) : zeroPad i = 0 := by
  unfold zeroPad
  show ((((0#32 : BitVec 32).toInt : ℤ) : ℝ) : EReal) = 0
  simp

end Reads

/-! ### The four-piece concatenation along the columns, column range by column range -/

section Cat4
variable (a b : FVec Ideal S100x256 .bf16) (c d : FVec Ideal S100x1 .bf16) (l : Fin 100) (j : Fin 514)

theorem cat4_apply0 (h : j.val < 256) : cat4 a b c d (ix2 l j) = a (ix2 l ⟨j.val, h⟩) := by
  unfold cat4
  refine concatenate_apply_piece (1 : Fin S100x514.rank) _ _ (ix2 l j) 0 (by show (0 : ℕ) < 4; omega) S100x256 a rfl rfl 0 rfl
    (ix2 l ⟨j.val, h⟩) (fun bx hb => ?_) ?_
  · match bx with
    | ⟨0, _⟩ => rfl
    | ⟨1, _⟩ => exact absurd rfl hb
  · exact Nat.zero_add _

theorem cat4_apply1 (h0 : 256 ≤ j.val) (h1 : j.val < 512) :
    cat4 a b c d (ix2 l j) = b (ix2 l ⟨j.val - 256, by omega⟩) := by
  unfold cat4
  refine concatenate_apply_piece (1 : Fin S100x514.rank) _ _ (ix2 l j) 1 (by show (1 : ℕ) < 4; omega) S100x256 b rfl rfl 256 rfl
    (ix2 l ⟨j.val - 256, by omega⟩) (fun bx hb => ?_) ?_
  · match bx with
    | ⟨0, _⟩ => rfl
    | ⟨1, _⟩ => exact absurd rfl hb
  · show 256 + (j.val - 256) = j.val
    omega

theorem cat4_apply2 (h : j.val = 512) : cat4 a b c d (ix2 l j) = c (ix2 l 0) := by
  unfold cat4
  refine concatenate_apply_piece (1 : Fin S100x514.rank) _ _ (ix2 l j) 2 (by show (2 : ℕ) < 4; omega) S100x1 c rfl rfl 512 rfl
    (ix2 l 0) (fun bx hb => ?_) ?_
  · match bx with
    | ⟨0, _⟩ => rfl
    | ⟨1, _⟩ => exact absurd rfl hb
  · show 512 + 0 = j.val
    omega

theorem cat4_apply3 (h : j.val = 513) : cat4 a b c d (ix2 l j) = d (ix2 l 0) := by
  unfold cat4
  refine concatenate_apply_piece (1 : Fin S100x514.rank) _ _ (ix2 l j) 3 (by show (3 : ℕ) < 4; omega) S100x1 d rfl rfl 513 rfl
    (ix2 l 0) (fun bx hb => ?_) ?_
  · match bx with
    | ⟨0, _⟩ => rfl
    | ⟨1, _⟩ => exact absurd rfl hb
  · show 513 + 0 = j.val
    omega

end Cat4

/-! ### A padded half and the stack of two, row range by row range -/

section Rows
variable (w : FVec Ideal S100x514 .bf16) (p q : FVec Ideal S128x514 .bf16) (j : Fin 514)

theorem padded_apply_lt (k : Fin 128) (h : k.val < 100) : padded w (ix2 k j) = w (ix2 ⟨k.val, h⟩ j) := by
  unfold padded
  refine pad_apply_of_inside _ _ _ w zeroPad _ _ (ix2 k j) (ix2 ⟨k.val, h⟩ j) (fun ax => ?_)
  match ax with
  | ⟨0, _⟩ => show k.val = 0 + k.val * (0 + 1); omega
  | ⟨1, _⟩ => show j.val = 0 + j.val * (0 + 1); omega

theorem padded_apply_ge (k : Fin 128) (h : 100 ≤ k.val) : padded w (ix2 k j) = 0 := by
  unfold padded
  refine (pad_apply_of_not_inside _ _ _ w zeroPad _ _ (ix2 k j) (0 : Fin 2) (fun hh => ?_)).trans (zeroPad_apply _)
  have h3 : (k.val - 0) / (0 + 1) < 100 := hh.2.2
  omega

theorem stack_apply_lt (k : Fin 256) (h : k.val < 128) : stack p q (ix2 k j) = p (ix2 ⟨k.val, h⟩ j) := by
  unfold stack
  refine concatenate_pair_apply_left (0 : Fin S256x514.rank) p q _ (ix2 k j) rfl (ix2 ⟨k.val, h⟩ j) (fun bx => ?_)
  match bx with
  | ⟨0, _⟩ => rfl
  | ⟨1, _⟩ => rfl

theorem stack_apply_ge (k : Fin 256) (h : 128 ≤ k.val) :
    stack p q (ix2 k j) = q (ix2 ⟨k.val - 128, by omega⟩ j) := by
  unfold stack
  refine concatenate_pair_apply_right (0 : Fin S256x514.rank) p q _ (ix2 k j) rfl rfl (ix2 ⟨k.val - 128, by omega⟩ j)
    (fun bx hb => ?_) ?_
  · match bx with
    | ⟨0, _⟩ => exact absurd rfl hb
    | ⟨1, _⟩ => rfl
  · show k.val - 128 + 128 = k.val
    omega

end Rows

/-! ### The halves and the table against the specification -/

section Against
variable (x2 : FVec Ideal S100x2x256 .f32) (x3 : FVec Ideal S100x2 .f32)

theorem wHi_apply (l : Fin 100) (j : Fin 514) : wHi x2 x3 (ix2 l j) = Cert.Spec.hiRow x2 x3 l j := by
  unfold Cert.Spec.hiRow wHi
  by_cases h0 : j.val < 256
  · rw [dif_pos h0, cat4_apply0 _ _ _ _ l j h0, hiPart_apply, centre0_apply]
  · rw [dif_neg h0]
    by_cases h1 : j.val < 512
    · rw [dif_pos h1, cat4_apply1 _ _ _ _ l j (Nat.not_lt.1 h0) h1, hiPart_apply, centre1_apply]
    · rw [dif_neg h1]
      by_cases h2 : j.val = 512
      · rw [if_pos h2, cat4_apply2 _ _ _ _ l j h2, radCol_apply, rsq0_apply]
      · have h3 : j.val = 513 := by have := j.isLt; omega
        rw [if_neg h2, cat4_apply3 _ _ _ _ l j h3, radCol_apply, rsq1_apply]

theorem wLo_apply (l : Fin 100) (j : Fin 514) : wLo x2 (ix2 l j) = Cert.Spec.loRow x2 l j := by
  unfold Cert.Spec.loRow wLo
  by_cases h0 : j.val < 256
  · rw [dif_pos h0, cat4_apply0 _ _ _ _ l j h0, loPart_apply, centre0_apply]
  · rw [dif_neg h0]
    by_cases h1 : j.val < 512
    · rw [dif_pos h1, cat4_apply1 _ _ _ _ l j (Nat.not_lt.1 h0) h1, loPart_apply, centre1_apply]
    · rw [dif_neg h1]
      by_cases h2 : j.val = 512
      · rw [cat4_apply2 _ _ _ _ l j h2, zeroCol_apply]
      · have h3 : j.val = 513 := by have := j.isLt; omega
        rw [cat4_apply3 _ _ _ _ l j h3, zeroCol_apply]

theorem table_apply (k : Fin 256) (j : Fin 514) : table x2 x3 (ix2 k j) = Cert.Spec.tab x2 x3 k j := by
  unfold Cert.Spec.tab table
  by_cases hk : k.val < 128
  · rw [stack_apply_lt _ _ j k hk]
    by_cases h : k.val < 100
    · rw [dif_pos h, padded_apply_lt _ j ⟨k.val, hk⟩ h, wHi_apply]
    · have h' : ¬(128 ≤ k.val ∧ k.val < 228) := by omega
      rw [dif_neg h, dif_neg h', padded_apply_ge _ j ⟨k.val, hk⟩ (Nat.not_lt.1 h)]
  · have h : ¬k.val < 100 := by omega
    rw [stack_apply_ge _ _ j k (Nat.not_lt.1 hk), dif_neg h]
    by_cases h2 : k.val < 228
    · have h' : 128 ≤ k.val ∧ k.val < 228 := ⟨Nat.not_lt.1 hk, h2⟩
      have h'' : (⟨k.val - 128, by have := k.isLt; omega⟩ : Fin 128).val < 100 := by show k.val - 128 < 100; omega
      rw [dif_pos h', padded_apply_lt _ j ⟨k.val - 128, by have := k.isLt; omega⟩ h'', wLo_apply]
    · have h' : ¬(128 ≤ k.val ∧ k.val < 228) := by omega
      have h'' : 100 ≤ (⟨k.val - 128, by have := k.isLt; omega⟩ : Fin 128).val := by show 100 ≤ k.val - 128; omega
      rw [dif_neg h', padded_apply_ge _ j ⟨k.val - 128, by have := k.isLt; omega⟩ h'']

end Against

/-! ## The two theorems -/

section Main
variable (m : (ℓ : Loc nD τ sig) → Buf (Elt Ideal) ℓ) (c : Dev nD)

/-- The table the region reads: the specification's, of the centres and the radii the launch was given. -/
theorem V_table (k : Fin 256) (j : Fin 514) :
    (Hand.V (F := Ideal) m c main_v30 : S256x514.Idx → EReal) (ix2 k j)
      = Cert.Spec.tab (m ((c.tc : Thread nD τ).loc main_arg2)) (m ((c.tc : Thread nD τ).loc main_arg3)) k j :=
  (congrFun (V_table_eq m c) (ix2 k j)).trans (table_apply _ _ k j)

/-- The labels the region reads: row `t` of the 16 × 1 × 8192 array holds labels 8192·t … 8192·t + 8191. -/
theorem V_labels (t : Fin 16) (r : Fin 8192) :
    (Hand.V (F := Ideal) m c main_v31 : S16x1x8192.Idx → BitVec 32) (ix3 t 0 r)
      = (m ((c.tc : Thread nD τ).loc main_arg1) : S131072.Idx → BitVec 32)
          (ix1 ⟨8192 * t.val + r.val, by have := t.isLt; have := r.isLt; omega⟩) := by
  refine (congrFun (V_labels_eq m c) (ix3 t 0 r)).trans ?_
  refine shapeCast_apply _ _ (ix3 t 0 r) (ix1 ⟨8192 * t.val + r.val, by have := t.isLt; have := r.isLt; omega⟩) ?_
  rw [Shape.rowMajor_val_one, Shape.rowMajor_val_three]
  show 8192 * t.val + r.val = (t.val * 1 + 0) * 8192 + r.val
  omega

end Main

end Cert.HostPre

end
-- ==== Proof.KerGather.lean ====
import proofs.«421938_j49280454754360_3_alg».proof.Proof.Gen.KernelIdeal.Skeleton
import proofs.«421938_j49280454754360_3_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The kernel's row gather

The kernel body reads row `l` of its 256 × 514 table, for the label `l` of each of its 8192 rows, by one matrix
product: a matrix of zeros and ones with `oh[r, k] = 1` exactly when the low seven bits of the column number `k`
equal the label of row `r`, times the table. For a label below 128 the ones of row `r` stand in columns `l` and
`l + 128`, so the product's row `r` is the sum of the table's rows `l` and `l + 128`. With the table of the
specification (the centres and squared radii in rows 0–99, each centre entry minus itself in rows 128–227) and finite
centres, the second row is zero and the sum is the first row.
-/

noncomputable section

open scoped BigOperators

namespace Cert.KerGather

open Idealize.ShloMosaic Idealize.ShloMosaic.ValueIdx
open Cert.KernelIdeal Cert.KernelIdeal.Gen

/-! ## Words -/

/-- The low seven bits of a column number below 256 equal a label word below 100 at exactly two columns: the label
    and the label plus 128. -/
theorem mask_eq_iff (k : Fin 256) (w : BitVec 32) (hw : w.toNat < 100) :
    (BitVec.ofNat 32 k.val &&& 127#32 = w) ↔ (k.val = w.toNat ∨ k.val = w.toNat + 128) := by
  have hk := k.isLt
  have hm : (BitVec.ofNat 32 k.val &&& 127#32).toNat = k.val % 128 := by
    rw [BitVec.toNat_and, BitVec.toNat_ofNat]
    show k.val % 2 ^ 32 &&& 2 ^ 7 - 1 = k.val % 2 ^ 7
    rw [Nat.mod_eq_of_lt (by omega)]
    exact Nat.and_two_pow_sub_one_eq_mod k.val 7
  constructor
  · intro h
    have h' := congrArg BitVec.toNat h
    rw [hm] at h'
    omega
  · intro h
    apply BitVec.eq_of_toNat_eq
    rw [hm]
    omega

/-- A truth value as a one-bit word, widened to 32 bits and read signed, is 1 or 0. -/
theorem bit_toInt (b : Bool) : ((BitVec.ofBool b).setWidth 32).toInt = if b then 1 else 0 := by
  cases b <;> decide

/-! ## A sum with two ones -/

/-- A family over the 256 columns weighted by an indicator that is one at two distinct columns `a`, `b` and zero
    elsewhere sums to its two entries there (on the extended reals `0 * x = 0` and `1 * x = x` for every `x`). -/
theorem sum_two (c : Fin 256 → EReal) (f : Fin 256 → EReal) (a b : Fin 256) (hab : a ≠ b)
    (ha : c a = 1) (hb : c b = 1) (h0 : ∀ k, k ≠ a → k ≠ b → c k = 0) :
    ∑ k : Fin 256, c k * f k = f a + f b := by
  rw [← Finset.add_sum_erase Finset.univ _ (Finset.mem_univ a),
    ← Finset.add_sum_erase (Finset.univ.erase a) _ (Finset.mem_erase.mpr ⟨hab.symm, Finset.mem_univ b⟩),
    ha, hb, one_mul, one_mul]
  rw [Finset.sum_eq_zero, add_zero]
  intro k hk
  rw [Finset.mem_erase, Finset.mem_erase] at hk
  rw [h0 k hk.2.1 hk.1, zero_mul]

/-! ## The two halves of the table -/

/-- With finite centres, a row of the high half plus the same row of the low half is the row of the high half: a
    finite number minus itself is zero. -/
theorem hi_add_lo (x2 : (⟨3, ![100, 2, 256]⟩ : Shape).Idx → EReal) (x3 : (⟨2, ![100, 2]⟩ : Shape).Idx → EReal)
    (hfin : ∀ i, ∃ a : ℝ, x2 i = (a : EReal)) (l : Fin 100) (j : Fin 514) :
    Cert.Spec.hiRow x2 x3 l j + Cert.Spec.loRow x2 l j = Cert.Spec.hiRow x2 x3 l j := by
  have z : ∀ i, x2 i - x2 i = 0 := by
    intro i
    obtain ⟨a, ha⟩ := hfin i
    rw [ha, ← EReal.coe_sub, sub_self, EReal.coe_zero]
  unfold Cert.Spec.loRow
  split
  · rw [z, add_zero]
  · split
    · rw [z, add_zero]
    · rw [add_zero]

/-! ## The product's operand indices

The product contracts the second axis of the one-hot matrix with the first axis of the table: at output index
`(r, j)` and contraction position `k` the operands are read at `(r, k)` and `(k, j)`. -/

/-- The left operand's row is the output's row. -/
theorem lhs_0 (i : S8192x514.Idx) (q : dot_S8192x256_S256x514_S8192x514_1_0_0_1_n_n.contr.Idx) :
    (dot_S8192x256_S256x514_S8192x514_1_0_0_1_n_n.lhsIdx i q 0).val = (i 0).val := by
  unfold DotDims.lhsIdx
  rw [dif_neg (show ¬(0 : Fin S8192x256.rank) ∈ dot_S8192x256_S256x514_S8192x514_1_0_0_1_n_n.lhsBatch by decide),
    dif_pos (show (0 : Fin S8192x256.rank) ∈ dot_S8192x256_S256x514_S8192x514_1_0_0_1_n_n.lhsNonContracting by decide)]
  rfl

/-- The left operand's column is the contraction position. -/
theorem lhs_1 (i : S8192x514.Idx) (q : dot_S8192x256_S256x514_S8192x514_1_0_0_1_n_n.contr.Idx) :
    (dot_S8192x256_S256x514_S8192x514_1_0_0_1_n_n.lhsIdx i q 1).val = (q ⟨0, by decide⟩).val :=
  dot_S8192x256_S256x514_S8192x514_1_0_0_1_n_n.lhsIdx_val_of_single rfl i q

/-- The right operand's row is the contraction position. -/
theorem rhs_0 (i : S8192x514.Idx) (q : dot_S8192x256_S256x514_S8192x514_1_0_0_1_n_n.contr.Idx) :
    (dot_S8192x256_S256x514_S8192x514_1_0_0_1_n_n.rhsIdx i q 0).val = (q ⟨0, by decide⟩).val :=
  dot_S8192x256_S256x514_S8192x514_1_0_0_1_n_n.rhsIdx_val_of_single rfl i q

/-- The right operand's column is the output's column. -/
theorem rhs_1 (i : S8192x514.Idx) (q : dot_S8192x256_S256x514_S8192x514_1_0_0_1_n_n.contr.Idx) :
    (dot_S8192x256_S256x514_S8192x514_1_0_0_1_n_n.rhsIdx i q 1).val = (i 1).val := by
  unfold DotDims.rhsIdx
  rw [dif_neg (show ¬(1 : Fin S256x514.rank) ∈ dot_S8192x256_S256x514_S8192x514_1_0_0_1_n_n.rhsBatch by decide),
    dif_pos (show (1 : Fin S256x514.rank) ∈ dot_S8192x256_S256x514_S8192x514_1_0_0_1_n_n.rhsNonContracting by decide)]
  rfl

/-- The product into the zero accumulator, read at `(r, j)`: the sum over the 256 columns `k` of the left operand at
    `(r, k)` times the right operand at `(k, j)`. -/
theorem matmul_at (A : FVec Ideal S8192x256 .bf16) (B : FVec Ideal S256x514 .bf16) (r : Fin 8192) (j : Fin 514) :
    matmul dot_S8192x256_S256x514_S8192x514_1_0_0_1_n_n none A B (constant (F := Ideal) S8192x514 .f32 0x00000000#32) (ix2 r j)
      = ∑ k : Fin 256, A (ix2 r k) * B (ix2 k j) := by
  simp only [matmul]
  rw [Ideal.matmul_constant_zero_apply,
    ← Equiv.sum_comp (contrEquiv1 dot_S8192x256_S256x514_S8192x514_1_0_0_1_n_n 256 rfl rfl).symm]
  refine Finset.sum_congr rfl fun k _ => ?_
  have hk := contrEquiv1_symm_val dot_S8192x256_S256x514_S8192x514_1_0_0_1_n_n 256 rfl rfl k
  have el : dot_S8192x256_S256x514_S8192x514_1_0_0_1_n_n.lhsIdx (ix2 r j)
      ((contrEquiv1 dot_S8192x256_S256x514_S8192x514_1_0_0_1_n_n 256 rfl rfl).symm k) = ix2 r k :=
    funext fun a => Fin.ext (by
      match a with
      | ⟨0, _⟩ => exact lhs_0 _ _
      | ⟨1, _⟩ => exact (lhs_1 _ _).trans hk)
  have er : dot_S8192x256_S256x514_S8192x514_1_0_0_1_n_n.rhsIdx (ix2 r j)
      ((contrEquiv1 dot_S8192x256_S256x514_S8192x514_1_0_0_1_n_n 256 rfl rfl).symm k) = ix2 k j :=
    funext fun a => Fin.ext (by
      match a with
      | ⟨0, _⟩ => exact (rhs_0 _ _).trans hk
      | ⟨1, _⟩ => exact rhs_1 _ _)
  rw [el, er]

/-! ## The one-hot matrix -/

/-- The labels' column spread over the 256 columns reads, at `(r, k)`, the label of row `r`. -/
theorem label_at (x1b : Vec Ideal S1x1x8192 .i32) (h1 : S1x1x8192.ShapeCasts S8192) (h2 : S8192.ShapeCasts S8192x1)
    (h3 : S8192x1.Broadcasts S8192x256) (r : Fin 8192) (k : Fin 256) :
    broadcastTo S8192x256 (shapeCast S8192x1 (shapeCast S8192 x1b h1) h2) h3 (ix2 r k) = x1b (ix3 0 0 r) := by
  rw [broadcastTo_apply _ h3 (ix2 r k) (ix2 r (0 : Fin 1)) (fun a => by
        match a with
        | ⟨0, _⟩ => rfl
        | ⟨1, _⟩ => rfl),
    shapeCast_apply _ h2 (ix2 r (0 : Fin 1)) (ix1 r) (by
        rw [Shape.rowMajor_val_one, Shape.rowMajor_val_two]
        show r.val = r.val * 1 + 0
        omega),
    shapeCast_apply _ h1 (ix1 r) (ix3 (0 : Fin 1) (0 : Fin 1) r) (by
        rw [Shape.rowMajor_val_three, Shape.rowMajor_val_one]
        show (0 * 1 + 0) * 8192 + r.val = r.val
        omega)]

/-- The one-hot matrix at `(r, k)`: one when the low seven bits of `k` are the label of row `r`, zero otherwise. -/
theorem onehot_at (x1b : Vec Ideal S1x1x8192 .i32) (h0 : S8192x256.Iotas .tc 32 [1]) (h1 : S1x1x8192.ShapeCasts S8192)
    (h2 : S8192.ShapeCasts S8192x1) (h3 : S8192x1.Broadcasts S8192x256) (h4 : 1 < 32)
    (h5 : FTy.bits .bf16 < FTy.bits .f32) (r : Fin 8192) (k : Fin 256) :
    (truncf .bf16 (sitofp .f32 (extui 32 (cmpi .eq (andi (iota .tc S8192x256 32 [1] h0) (broadcast S8192x256 127#32))
        (broadcastTo S8192x256 (shapeCast S8192x1 (shapeCast S8192 x1b h1) h2) h3)) h4)) h5
        : FVec Ideal S8192x256 .bf16) (ix2 r k)
      = if BitVec.ofNat 32 k.val &&& 127#32 = x1b (ix3 0 0 r) then 1 else 0 := by
  show ((((BitVec.ofBool ((iota .tc S8192x256 32 [1] h0 (ix2 r k) &&& 127#32)
      == broadcastTo S8192x256 (shapeCast S8192x1 (shapeCast S8192 x1b h1) h2) h3 (ix2 r k))).setWidth 32).toInt : ℝ) : EReal) = _
  rw [iota_single_apply, label_at, bit_toInt]
  show ((((if (BitVec.ofNat 32 k.val &&& 127#32 == x1b (ix3 0 0 r)) = true then (1 : ℤ) else 0) : ℤ) : ℝ) : EReal) = _
  by_cases h : BitVec.ofNat 32 k.val &&& 127#32 = x1b (ix3 0 0 r)
  · rw [if_pos h, if_pos (beq_iff_eq.mpr h)]
    norm_num
  · rw [if_neg h, if_neg (fun h' => h (beq_iff_eq.mp h'))]
    norm_num

/-! ## The gathered row -/

/-- Rows `l` and `l + 128` of the specification's table add up to row `l` of its high half, for finite centres. -/
theorem tab_pair (x2 : (⟨3, ![100, 2, 256]⟩ : Shape).Idx → EReal) (x3 : (⟨2, ![100, 2]⟩ : Shape).Idx → EReal)
    (hfin : ∀ i, ∃ a : ℝ, x2 i = (a : EReal)) (l : Fin 100) (a b : Fin 256) (ha : a.val = l.val)
    (hb : b.val = l.val + 128) (j : Fin 514) :
    Cert.Spec.tab x2 x3 a j + Cert.Spec.tab x2 x3 b j = Cert.Spec.hiRow x2 x3 l j := by
  have hl := l.isLt
  unfold Cert.Spec.tab
  rw [dif_pos (show a.val < 100 by omega), dif_neg (show ¬ b.val < 100 by omega),
    dif_pos (show 128 ≤ b.val ∧ b.val < 228 by omega)]
  have e1 : ∀ (p : a.val < 100), (⟨a.val, p⟩ : Fin 100) = l := fun p => Fin.ext ha
  have e2 : ∀ (p : b.val - 128 < 100), (⟨b.val - 128, p⟩ : Fin 100) = l := fun p =>
    Fin.ext (by show b.val - 128 = l.val; omega)
  rw [e1, e2, hi_add_lo x2 x3 hfin]

/-- Row `r` of the product is row `l` of the table's high half, `l` being the label of row `r`, when the label is
    below 100, the table is the specification's and the centres are finite. -/
theorem comb_eq (x1b : Vec Ideal Cert.KernelIdeal.S1x1x8192 .i32) (x2b : Vec Ideal Cert.KernelIdeal.S256x514 .bf16)
    (x2 : (⟨3, ![100, 2, 256]⟩ : Shape).Idx → EReal) (x3 : (⟨2, ![100, 2]⟩ : Shape).Idx → EReal)
    (hfin : ∀ i, ∃ a : ℝ, x2 i = (a : EReal))
    (htab : ∀ (k : Fin 256) (j : Fin 514), x2b (ix2 k j) = Cert.Spec.tab x2 x3 k j)
    (r : Fin 8192) (hl : (x1b (ix3 0 0 r)).toNat < 100) (j : Fin 514) :
    Cert.KernelIdeal.Gen.k0_pay2 (F := Ideal) x1b x2b (ix2 r j)
      = Cert.Spec.hiRow x2 x3 ⟨(x1b (ix3 0 0 r)).toNat, hl⟩ j := by
  unfold Cert.KernelIdeal.Gen.k0_pay2
  simp only [shapeCast_self]
  rw [matmul_at]
  have hab : (⟨(x1b (ix3 0 0 r)).toNat, by omega⟩ : Fin 256) ≠ ⟨(x1b (ix3 0 0 r)).toNat + 128, by omega⟩ := by
    intro h
    have := congrArg Fin.val h
    simp at this
  rw [sum_two _ (fun k => x2b (ix2 k j)) ⟨(x1b (ix3 0 0 r)).toNat, by omega⟩ ⟨(x1b (ix3 0 0 r)).toNat + 128, by omega⟩ hab
    (by rw [onehot_at, if_pos ((mask_eq_iff _ _ hl).mpr (Or.inl rfl))])
    (by rw [onehot_at, if_pos ((mask_eq_iff _ _ hl).mpr (Or.inr rfl))])
    (fun k hka hkb => by
      rw [onehot_at, if_neg]
      intro h
      rcases (mask_eq_iff _ _ hl).mp h with h' | h'
      · exact hka (Fin.ext h')
      · exact hkb (Fin.ext h'))]
  show x2b (ix2 _ j) + x2b (ix2 _ j) = _
  rw [htab, htab]
  exact tab_pair x2 x3 hfin ⟨(x1b (ix3 0 0 r)).toNat, hl⟩ _ _ rfl rfl j

end Cert.KerGather

end
-- ==== Proof.KVal.lean ====
import proofs.«421938_j49280454754360_3_alg».proof.Proof.KernelIdealFrame
import proofs.«421938_j49280454754360_3_alg».proof.Proof.Spec
import proofs.«421938_j49280454754360_3_alg».proof.Proof.KerRow
import proofs.«421938_j49280454754360_3_alg».proof.Proof.HostPre
import proofs.«421938_j49280454754360_3_alg».proof.Proof.KerGather
import Idealize.ShloMosaic.Lib.Pipeline.Value
import Idealize.ShloMosaic.PureOps.Ideal.Laws
import Idealize.ShloMosaic.Lib.ValueIdx

/-!
# The kernel's output array, and its sum

The pallas_call writes a [16, 8, 128] array: tile `t` of it is the 8 × 128 block whose entry (0, 0) is the sum, over
the 8192 rows of tile `t` of `z`, of the rows' hinges, and whose other entries are zero. Summed over all its indices
the array is therefore the sum of the hinges of all 131072 rows: row `n = 8192·t + r` is row `r` of tile `t`.
-/

set_option maxRecDepth 16384

noncomputable section

open scoped BigOperators

namespace Cert.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The four argument arrays as launched, on core `c`. -/
abbrev X0 (c : Dev nD) : S131072x256.Idx → EReal := m ((c.tc : Thread nD τ).loc main_arg0)
abbrev X1 (c : Dev nD) : S131072.Idx → BitVec 32 := m ((c.tc : Thread nD τ).loc main_arg1)
abbrev X2 (c : Dev nD) : S100x2x256.Idx → EReal := m ((c.tc : Thread nD τ).loc main_arg2)
abbrev X3 (c : Dev nD) : S100x2.Idx → EReal := m ((c.tc : Thread nD τ).loc main_arg3)

/-- Row `r` of tile `t` is row `8192·t + r` of `z`. -/
def rowAt (t : Fin 16) (r : Fin 8192) : Fin 131072 := ⟨8192 * t.val + r.val, by have := t.isLt; have := r.isLt; omega⟩

theorem N16 : cfg0.N = 16 := N_0

/-- A grid point as a tile number. -/
def tnum (t : Fin cfg0.N) : Fin 16 := ⟨t.val, Nat.lt_of_lt_of_eq t.isLt N16⟩

/-! ## The index maps, decided over the 16 grid points -/

theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The three input blocks at a grid point, read at an index -/

/-- The tile of `z`, the labels' row and the table at grid point `t`, at their literal types. -/
abbrev zblk (c : Dev nD) (t : Fin cfg0.N) : Vec Ideal S8192x256 .f32 := iblk m c 0 t
abbrev lblk (c : Dev nD) (t : Fin cfg0.N) : Vec Ideal S1x1x8192 .i32 := iblk m c 1 t
abbrev tblk (c : Dev nD) (t : Fin cfg0.N) : Vec Ideal S256x514 .bf16 := iblk m c 2 t

/-- Entry (r, k) of the tile of `z` at point `t` is entry (8192·t + r, k) of `z`. -/
theorem zblk_apply (c : Dev nD) (t : Fin cfg0.N) (r : Fin 8192) (k : Fin 256) :
    zblk m c t (ix2 r k) = X0 m c (ix2 (rowAt (tnum t) r) k) := by
  show V m c main_arg0 (((cfg0.win 0).blk t).view.emb (ix2 r k)) = _
  rw [V_main_arg0]
  refine congrArg _ ?_
  obtain ⟨e0, e1, -⟩ := idx_facts t
  funext a; apply Fin.ext
  match a with
  | ⟨0, _⟩ => show win0_0.index t (0 : Fin 2) * 8192 + 1 * r.val = 8192 * t.val + r.val; omega
  | ⟨1, _⟩ => show win0_0.index t (1 : Fin 2) * 256 + 1 * k.val = k.val; omega

/-- Entry r of the labels' row at point `t` is the label of row 8192·t + r. -/
theorem lblk_apply (c : Dev nD) (t : Fin cfg0.N) (r : Fin 8192) :
    lblk m c t (ix3 0 0 r) = X1 m c (ix1 (rowAt (tnum t) r)) := by
  have h : lblk m c t (ix3 0 0 r) = (V m c main_v31 : S16x1x8192.Idx → BitVec 32) (ix3 (tnum t) 0 r) := by
    show V m c main_v31 (((cfg0.win 1).blk t).view.emb (ix3 0 0 r)) = _
    refine congrArg _ ?_
    obtain ⟨-, -, e0, e1, e2, -⟩ := idx_facts t
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 8192 + 1 * r.val = r.val; omega
  rw [h]; exact Cert.HostPre.V_labels m c (tnum t) r

/-- The table block at every point is the whole table: the specification's table of the launched centres and radii. -/
theorem tblk_apply (c : Dev nD) (t : Fin cfg0.N) (k : Fin 256) (j : Fin 514) :
    tblk m c t (ix2 k j) = Cert.Spec.tab (X2 m c) (X3 m c) k j := by
  have h : tblk m c t (ix2 k j) = (V m c main_v30 : S256x514.Idx → EReal) (ix2 k j) := by
    show V m c main_v30 (((cfg0.win 2).blk t).view.emb (ix2 k j)) = _
    refine congrArg _ ?_
    obtain ⟨-, -, -, -, -, e0, e1, -⟩ := idx_facts t
    funext a; apply Fin.ext
    match a with
    | ⟨0, _⟩ => show win0_2.index t (0 : Fin 2) * 256 + 1 * k.val = k.val; omega
    | ⟨1, _⟩ => show win0_2.index t (1 : Fin 2) * 514 + 1 * j.val = j.val; omega
  rw [h]; exact Cert.HostPre.V_table m c k j

/-! ## What a grid point stores -/

theorem hz3 : (![0, 0, 0] : Fin 3 → Nat) = fun _ => 0 := funext fun a => by fin_cases a <;> rfl

/-- The class of row `n`, given that every label is below 100. -/
def labAt (c : Dev nD) (hlab : ∀ n : Fin 131072, (X1 m c (ix1 n)).toNat < 100) (n : Fin 131072) : Fin 100 :=
  ⟨(X1 m c (ix1 n)).toNat, hlab n⟩

/-- The sum of the hinges of the 8192 rows of tile `t`. -/
def tileSum (c : Dev nD) (hlab : ∀ n : Fin 131072, (X1 m c (ix1 n)).toNat < 100) (t : Fin 16) : EReal :=
  ∑ r : Fin 8192, Cert.Spec.rowTerm (X0 m c) (X2 m c) (X3 m c) (rowAt t r) (labAt m c hlab (rowAt t r))

/-- THE BLOCK STORED AT POINT `t`: the tile's sum at (0, 0), zero elsewhere (finite centres, labels below 100). -/
theorem tile_apply (c : Dev nD) (hfin : ∀ i, ∃ a : ℝ, X2 m c i = (a : EReal))
    (hlab : ∀ n : Fin 131072, (X1 m c (ix1 n)).toNat < 100) (t : Fin cfg0.N) (i : Fin 8) (j : Fin 128) :
    out0_3 (F := Ideal) (zblk m c t) (lblk m c t) (tblk m c t) (ix3 0 i j)
      = if i.val = 0 ∧ j.val = 0 then tileSum m c hlab (tnum t) else 0 := by
  unfold out0_3
  rw [View.canon_unit_zero hz3]
  have hl : ∀ r : Fin 8192, (lblk m c t (ix3 0 0 r)).toNat < 100 := fun r => by rw [lblk_apply]; exact hlab _
  have hcomb : ∀ (r : Fin 8192) (j : Fin 514), Gen.k0_pay2 (F := Ideal) (lblk m c t) (tblk m c t) (ix2 r j)
      = Cert.Spec.hiRow (X2 m c) (X3 m c) (labAt m c hlab (rowAt (tnum t) r)) j := fun r j => by
    rw [Cert.KerGather.comb_eq (lblk m c t) (tblk m c t) (X2 m c) (X3 m c) hfin (fun k j => tblk_apply m c t k j) r (hl r) j]
    refine congrArg (fun l => Cert.Spec.hiRow (X2 m c) (X3 m c) l j) ?_
    apply Fin.ext
    show (lblk m c t (ix3 0 0 r)).toNat = (X1 m c (ix1 (rowAt (tnum t) r))).toNat
    rw [lblk_apply]
  rw [Cert.KerRow.pay3_apply (zblk m c t) (lblk m c t) (tblk m c t) (X2 m c) (X3 m c) (fun r => labAt m c hlab (rowAt (tnum t) r)) hcomb i j]
  refine if_congr Iff.rfl ?_ rfl
  unfold tileSum Cert.Spec.rowTerm
  refine Finset.sum_congr rfl fun r _ => ?_
  simp only [zblk_apply]

/-! ## The output array -/

/-- The tile of an index of the output array, as a grid point. -/
def tl (i : S16x8x128.Idx) : Fin cfg0.N := ⟨(i 0).val, Nat.lt_of_lt_of_eq (i 0).isLt N16.symm⟩

/-- What the output array ends holding: at (t, a, b), entry (a, b) of the block point `t` stores. -/
def G (c : Dev nD) : S16x8x128.Idx → EReal := fun i =>
  out0_3 (F := Ideal) (zblk m c (tl i)) (lblk m c (tl i)) (tblk m c (tl i))
    (ix3 0 (⟨(i 1).val, (i 1).isLt⟩ : Fin 8) (⟨(i 2).val, (i 2).isLt⟩ : Fin 128))

/-- The block point `t` stores, read at the position an index of block `t` has inside it, is `G` at that index. -/
theorem G_emb (c : Dev nD) (t : Fin cfg0.N) (j : S1x8x128.Idx) :
    G m c (((cfg0.win 3).blk t).view.emb j) = out0_3 (F := Ideal) (zblk m c t) (lblk m c t) (tblk m c t) j := by
  obtain ⟨-, -, -, -, -, -, -, e0, e1, e2⟩ := idx_facts t
  have hj0 : (j 0).val < 1 := (j 0).isLt
  have hj1 : (j 1).val < 8 := (j 1).isLt
  have hj2 : (j 2).val < 128 := (j 2).isLt
  have c0 : ((((cfg0.win 3).blk t).view.emb j) 0).val = t.val := by
    show win0_3.index t (0 : Fin 3) * 1 + 1 * (j 0).val = t.val; omega
  have c1 : ((((cfg0.win 3).blk t).view.emb j) 1).val = (j 1).val := by
    show win0_3.index t (1 : Fin 3) * 8 + 1 * (j 1).val = (j 1).val; omega
  have c2 : ((((cfg0.win 3).blk t).view.emb j) 2).val = (j 2).val := by
    show win0_3.index t (2 : Fin 3) * 128 + 1 * (j 2).val = (j 2).val; omega
  have ht : tl (((cfg0.win 3).blk t).view.emb j) = t := Fin.ext c0
  unfold G
  dsimp only
  rw [ht]
  refine congrArg (out0_3 (F := Ideal) (zblk m c t) (lblk m c t) (tblk m c t)) ?_
  funext a
  match a with
  | ⟨0, _⟩ => exact Fin.ext (by show 0 = (j 0).val; omega)
  | ⟨1, _⟩ => exact Fin.ext c1
  | ⟨2, _⟩ => exact Fin.ext c2

set_option maxHeartbeats 2000000 in
/-- Point `t` writes back block `t` of `G`. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext j
  show out0_3 (F := Ideal) (iblk m c 0 t) (iblk m c 1 t) (iblk m c 2 t) j = G m c (((cfg0.win 3).blk t).view.emb j)
  exact (G_emb m c t j).symm

/-- An index of the array is in point `t`'s block iff each coordinate is in the block's range on its axis. -/
theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v32).slice (win0_3.rect t)).set ↔ _
  rw [View.set_slice_whole, Rect.mem_set_unit]
  exact Iff.rfl

/-- Every index of the array lies in the block of its own tile's point, which writes back. -/
theorem cover3 (i : S16x8x128.Idx) : ∃ t : Fin cfg0.N, (cfg0.win 3).flush t = true ∧ i ∈ ((cfg0.win 3).blk t).view.set := by
  refine ⟨tl i, flush0_3 _, ?_⟩
  rw [mem_blk3]
  obtain ⟨-, -, -, -, -, -, -, e0, e1, e2⟩ := idx_facts (tl i)
  have h0 : (i 0).val < 16 := (i 0).isLt
  have h1 : (i 1).val < 8 := (i 1).isLt
  have h2 : (i 2).val < 128 := (i 2).isLt
  have ht : (tl i).val = (i 0).val := rfl
  intro a
  match a with
  | ⟨0, _⟩ => show win0_3.index (tl i) (0 : Fin 3) * 1 ≤ (i 0).val ∧ (i 0).val < win0_3.index (tl i) (0 : Fin 3) * 1 + 1; omega
  | ⟨1, _⟩ => show win0_3.index (tl i) (1 : Fin 3) * 8 ≤ (i 1).val ∧ (i 1).val < win0_3.index (tl i) (1 : Fin 3) * 8 + 8; omega
  | ⟨2, _⟩ => show win0_3.index (tl i) (2 : Fin 3) * 128 ≤ (i 2).val ∧ (i 2).val < win0_3.index (tl i) (2 : Fin 3) * 128 + 128; omega

/-- THE OUTPUT ARRAY after the run is `G`. -/
theorem final3 (c : Dev nD) : (dats m 0 c).arrAt 3 cfg0.N = G m c :=
  (dats m 0 c).arrAt_eq_of_cover 3 (G m c) (fun t _ => flushed3_eq m c t) (cover3)

/-- `G` at an index by coordinates. -/
theorem G_apply (c : Dev nD) (hfin : ∀ i, ∃ a : ℝ, X2 m c i = (a : EReal))
    (hlab : ∀ n : Fin 131072, (X1 m c (ix1 n)).toNat < 100) (t : Fin 16) (a : Fin 8) (b : Fin 128) :
    G m c (ix3 t a b) = if a.val = 0 ∧ b.val = 0 then tileSum m c hlab t else 0 := by
  unfold G
  dsimp only
  have h := tile_apply m c hfin hlab (tl (ix3 t a b)) a b
  exact h

/-! ## Its sum -/

/-- The indices of the output array are the triples of coordinates. -/
def idxEquiv3 : S16x8x128.Idx ≃ Fin 16 × Fin 8 × Fin 128 where
  toFun i := (⟨(i 0).val, (i 0).isLt⟩, ⟨(i 1).val, (i 1).isLt⟩, ⟨(i 2).val, (i 2).isLt⟩)
  invFun p := ix3 p.1 p.2.1 p.2.2
  left_inv i := by funext a; match a with | ⟨0, _⟩ => rfl | ⟨1, _⟩ => rfl | ⟨2, _⟩ => rfl
  right_inv _ := rfl

/-- A sum over the 8 × 128 positions of a block that is `x` at (0, 0) and zero elsewhere is `x`. -/
theorem sum_corner (x : EReal) : (∑ a : Fin 8, ∑ b : Fin 128, (if a.val = 0 ∧ b.val = 0 then x else 0)) = x := by
  rw [Finset.sum_eq_single (0 : Fin 8)]
  · rw [Finset.sum_eq_single (0 : Fin 128)]
    · simp
    · intro b _ hb
      have : b.val ≠ 0 := fun h => hb (Fin.ext h)
      simp [this]
    · intro h; exact absurd (Finset.mem_univ _) h
  · intro a _ ha
    have : a.val ≠ 0 := fun h => ha (Fin.ext h)
    simp [this]
  · intro h; exact absurd (Finset.mem_univ _) h

/-- THE SUM OF THE OUTPUT ARRAY is the sum of the hinges of all rows. -/
theorem sum_G (c : Dev nD) (hfin : ∀ i, ∃ a : ℝ, X2 m c i = (a : EReal))
    (hlab : ∀ n : Fin 131072, (X1 m c (ix1 n)).toNat < 100) :
    ∑ i : S16x8x128.Idx, G m c i
      = ∑ n : Fin 131072, Cert.Spec.rowTerm (X0 m c) (X2 m c) (X3 m c) n (labAt m c hlab n) := by
  rw [← Equiv.sum_comp idxEquiv3.symm (G m c), Fintype.sum_prod_type]
  have h1 : ∀ t : Fin 16, (∑ p : Fin 8 × Fin 128, G m c (idxEquiv3.symm (t, p))) = tileSum m c hlab t := fun t => by
    rw [Fintype.sum_prod_type]
    have : ∀ (a : Fin 8) (b : Fin 128), G m c (idxEquiv3.symm (t, (a, b))) = if a.val = 0 ∧ b.val = 0 then tileSum m c hlab t else 0 :=
      fun a b => G_apply m c hfin hlab t a b
    simp only [this]
    exact sum_corner _
  simp only [h1]
  unfold tileSum
  rw [← Fintype.sum_prod_type' (f := fun (t : Fin 16) (r : Fin 8192) => Cert.Spec.rowTerm (X0 m c) (X2 m c) (X3 m c) (rowAt t r) (labAt m c hlab (rowAt t r)))]
  refine Fintype.sum_equiv (finProdFinEquiv (m := 16) (n := 8192)) _ _ fun p => ?_
  have : rowAt p.1 p.2 = finProdFinEquiv (m := 16) (n := 8192) p := Fin.ext (by
    show 8192 * p.1.val + p.2.val = p.2.val + 8192 * p.1.val; omega)
  rw [this]

end Cert.KVal

end
-- ==== Proof.Tail.lean ====
import proofs.«421938_j49280454754360_3_alg».proof.Proof.KernelIdealFrame
import proofs.«421938_j49280454754360_3_alg».proof.Proof.RefReadP
import Idealize.ShloMosaic.Lib.StableHlo.Run
import Idealize.ShloMosaic.PureOps.Ideal.Laws
import Idealize.ShloMosaic.Lib.ValueIdx

set_option maxRecDepth 16384

/-!
# The host operations after the region: a congruence with the reference

After its one region the kernel's program runs 98 host operations: the mean of the region's 16 x 8 x 128 output (the
intra term), then the overlap term over all pairs of the 200 balls, the diversity term over each class's pair of balls,
the weighted total `1 * intra + 1 * overlap + 1/2 * diversity` and the stacking of the four numbers. From the
overlap term on these are, operation for operation, the reference's own operations from its overlap term to its end,
applied to the same ball centres and the same radii. So the result buffer holds the reference's result as soon as the intra term does: no sum,
square root or hinge is opened; both sides are the same term once the reference's definitions are unfolded.

The operations are cut once, before the last stretch (the diversity term's mean, the total, the stacking): the first
fourteen stretches leave the intra term, the overlap term and the masked diversity hinge, each compared with the
reference on its own; the last stretch is compared piece by piece of its four-piece stacking.
-/

noncomputable section

namespace Cert.Tail

open Cert.KernelIdeal Cert.KernelIdeal.Gen
open Idealize.ShloMosaic Idealize.ShloMosaic.TcCoe Idealize.SL.Sem

variable {F : FTy → Type} [FloatOps F]

/-! ## Four stacked pieces

A stacking of four one-element pieces depends on the pieces only: equal pieces stack to equal arrays. (The stacking's
shape fact is typed over the list of pieces, so the pieces cannot be rewritten in place; they are replaced all at once.) -/

theorem concat4_congr {α : Type} {a0 a1 a2 a3 b0 b1 b2 b3 : S1.Idx → α} (h0 : a0 = b0) (h1 : a1 = b1) (h2 : a2 = b2) (h3 : a3 = b3)
    (h : Shape.Concatenates (([⟨S1, a0⟩, ⟨S1, a1⟩, ⟨S1, a2⟩, ⟨S1, a3⟩] : List ((s : Shape) × (s.Idx → α))).map (·.1)) S4 0)
    (h' : Shape.Concatenates (([⟨S1, b0⟩, ⟨S1, b1⟩, ⟨S1, b2⟩, ⟨S1, b3⟩] : List ((s : Shape) × (s.Idx → α))).map (·.1)) S4 0) :
    concatenate S4 0 [⟨S1, a0⟩, ⟨S1, a1⟩, ⟨S1, a2⟩, ⟨S1, a3⟩] h = concatenate S4 0 [⟨S1, b0⟩, ⟨S1, b1⟩, ⟨S1, b2⟩, ⟨S1, b3⟩] h' := by
  subst h0 h1 h2 h3; rfl

/-! ## The host operations after the region, cut before the last stretch -/

/-- The first fourteen stretches of the host operations after the region: everything up to the diversity term's
    masked hinge. The fifteenth stretch (the diversity term's mean, the weighted total and the stacking) reads three
    buffers of these: the intra term, the overlap term and the masked diversity hinge. -/
abbrev pre13 : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13]

/-- Running all fifteen stretches is running the first fourteen and then the fifteenth. -/
theorem after_sfx (W : Valuation τ sig (Elt F)) :
    StableHlo.after (List.flatten (Hand.sfxOps (F := F))) W = StableHlo.after hostOps1_14 (StableHlo.after (List.flatten (pre13 (F := F))) W) := by
  rw [← StableHlo.after_append]
  rfl

/-! ## The three values the last stretch reads -/

/-- The intra term: the mean of the region's 16 x 8 x 128 output. -/
theorem intra_eq (W : Valuation τ sig (Elt F)) :
    StableHlo.after (List.flatten (pre13 (F := F))) W (Proc.devRef .tc main_v34)
      = Host.divf (Host.reduceAdd (W (Proc.devRef .tc main_v32)) (constant (F := F) S_ .f32 0x00000000#32) reducesTo_S16x8x128_S_d0_1_2 h_S_) (constant (F := F) S_ .f32 0x48000000#32) := by
  simp only [pre13, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append]
  after_results_simp

/-- The overlap term: the same operations on the ball centres and the radii in both programs. -/
theorem overlap_eq (W : Valuation τ sig (Elt F)) (x2 : (⟨Cert.ReferenceIdeal.S100x2x256, .f32⟩ : BufTy).Contents (Elt F)) (x3 : (⟨Cert.ReferenceIdeal.S100x2, .f32⟩ : BufTy).Contents (Elt F))
    (h2 : W (Proc.devRef .tc main_arg2) = x2)
    (hr : W (Proc.devRef .tc main_v2) = Cert.ReferenceIdeal.ReadP.val_main_v2 (F := F) x3) :
    StableHlo.after (List.flatten (pre13 (F := F))) W (Proc.devRef .tc main_v62) = Cert.ReferenceIdeal.ReadP.val_main_v74 (F := F) x2 x3 := by
  simp only [pre13, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append]
  after_results_simp
  simp only [StableHlo.TRef.ofBuf, StableHlo.TRef.toBuf, cast_eq]
  rw [h2, hr]
  unfold Cert.ReferenceIdeal.ReadP.val_main_v74 Cert.ReferenceIdeal.ReadP.val_main_cst_19 Cert.ReferenceIdeal.ReadP.val_main_v73 Cert.ReferenceIdeal.ReadP.val_main_cst_18 Cert.ReferenceIdeal.ReadP.val_main_v72 Cert.ReferenceIdeal.ReadP.val_main_call3_v1 Cert.ReferenceIdeal.ReadP.val_main_call3_v0 Cert.ReferenceIdeal.ReadP.val_main_cst_17 Cert.ReferenceIdeal.ReadP.val_main_v71 Cert.ReferenceIdeal.ReadP.val_main_call2_v0 Cert.ReferenceIdeal.ReadP.val_main_call2_cst Cert.ReferenceIdeal.ReadP.val_main_v70 Cert.ReferenceIdeal.ReadP.val_main_v69 Cert.ReferenceIdeal.ReadP.val_main_v68 Cert.ReferenceIdeal.ReadP.val_main_cst_16 Cert.ReferenceIdeal.ReadP.val_main_v67 Cert.ReferenceIdeal.ReadP.val_main_v66 Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_call1_v1 Cert.ReferenceIdeal.ReadP.val_main_call1_v0 Cert.ReferenceIdeal.ReadP.val_main_cst_15 Cert.ReferenceIdeal.ReadP.val_main_v60 Cert.ReferenceIdeal.ReadP.val_main_v59 Cert.ReferenceIdeal.ReadP.val_main_v58 Cert.ReferenceIdeal.ReadP.val_main_c_14 Cert.ReferenceIdeal.ReadP.val_main_v57 Cert.ReferenceIdeal.ReadP.val_main_v56 Cert.ReferenceIdeal.ReadP.val_main_v55 Cert.ReferenceIdeal.ReadP.val_main_cst_13 Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_v48 Cert.ReferenceIdeal.ReadP.val_main_v47
  rfl

/-- The diversity term's masked hinge: the same operations on the ball centres in both programs. -/
theorem diversity_eq (W : Valuation τ sig (Elt F)) (x2 : (⟨Cert.ReferenceIdeal.S100x2x256, .f32⟩ : BufTy).Contents (Elt F))
    (h2 : W (Proc.devRef .tc main_arg2) = x2) :
    StableHlo.after (List.flatten (pre13 (F := F))) W (Proc.devRef .tc main_v77) = Cert.ReferenceIdeal.ReadP.val_main_v89 (F := F) x2 := by
  simp only [pre13, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append]
  after_results_simp
  simp only [StableHlo.TRef.ofBuf, StableHlo.TRef.toBuf, cast_eq]
  rw [h2]
  unfold Cert.ReferenceIdeal.ReadP.val_main_v89 Cert.ReferenceIdeal.ReadP.val_main_call7_v2 Cert.ReferenceIdeal.ReadP.val_main_call7_v1 Cert.ReferenceIdeal.ReadP.val_main_call7_v0 Cert.ReferenceIdeal.ReadP.val_main_cst_24 Cert.ReferenceIdeal.ReadP.val_main_v88 Cert.ReferenceIdeal.ReadP.val_main_call6_v0 Cert.ReferenceIdeal.ReadP.val_main_call6_cst Cert.ReferenceIdeal.ReadP.val_main_v87 Cert.ReferenceIdeal.ReadP.val_main_v86 Cert.ReferenceIdeal.ReadP.val_main_cst_23 Cert.ReferenceIdeal.ReadP.val_main_v85 Cert.ReferenceIdeal.ReadP.val_main_v84 Cert.ReferenceIdeal.ReadP.val_main_call5_v2 Cert.ReferenceIdeal.ReadP.val_main_call5_v1 Cert.ReferenceIdeal.ReadP.val_main_call5_v0 Cert.ReferenceIdeal.ReadP.val_main_cst_22 Cert.ReferenceIdeal.ReadP.val_main_v83 Cert.ReferenceIdeal.ReadP.val_main_call4_v5 Cert.ReferenceIdeal.ReadP.val_main_call4_c_0 Cert.ReferenceIdeal.ReadP.val_main_call4_v4 Cert.ReferenceIdeal.ReadP.val_main_call4_v3 Cert.ReferenceIdeal.ReadP.val_main_call4_v2 Cert.ReferenceIdeal.ReadP.val_main_call4_v1 Cert.ReferenceIdeal.ReadP.val_main_call4_c Cert.ReferenceIdeal.ReadP.val_main_call4_v0 Cert.ReferenceIdeal.ReadP.val_main_v82 Cert.ReferenceIdeal.ReadP.val_main_c_21 Cert.ReferenceIdeal.ReadP.val_main_v81 Cert.ReferenceIdeal.ReadP.val_main_cst_20 Cert.ReferenceIdeal.ReadP.val_main_v80 Cert.ReferenceIdeal.ReadP.val_main_v79 Cert.ReferenceIdeal.ReadP.val_main_v78 Cert.ReferenceIdeal.ReadP.val_main_v77 Cert.ReferenceIdeal.ReadP.val_main_v76 Cert.ReferenceIdeal.ReadP.val_main_v75
  rfl

/-! ## The last stretch -/

/-- From the three values it reads, the last stretch computes what the reference computes from the same three: the
    four pieces one by one, then their stacking. -/
theorem last_eq (V : Valuation τ sig (Elt F)) (x0 : (⟨Cert.ReferenceIdeal.S131072x256, .f32⟩ : BufTy).Contents (Elt F)) (x1 : (⟨Cert.ReferenceIdeal.S131072, .i32⟩ : BufTy).Contents (Elt F))
    (x2 : (⟨Cert.ReferenceIdeal.S100x2x256, .f32⟩ : BufTy).Contents (Elt F)) (x3 : (⟨Cert.ReferenceIdeal.S100x2, .f32⟩ : BufTy).Contents (Elt F))
    (a34 : V (Proc.devRef .tc main_v34) = Cert.ReferenceIdeal.ReadP.val_main_v46 (F := F) x0 x1 x2 x3)
    (a62 : V (Proc.devRef .tc main_v62) = Cert.ReferenceIdeal.ReadP.val_main_v74 (F := F) x2 x3)
    (a77 : V (Proc.devRef .tc main_v77) = Cert.ReferenceIdeal.ReadP.val_main_v89 (F := F) x2) :
    StableHlo.after hostOps1_14 V (Proc.devRef .tc main_v89) = Cert.ReferenceIdeal.ReadP.val_main_v101 (F := F) x0 x1 x2 x3 := by
  simp only [hostOps1_14, StableHlo.after_cons, StableHlo.after_nil]
  rw [StableHlo.nary_result]
  unfold Cert.ReferenceIdeal.ReadP.val_main_v101
  refine concat4_congr ?_ ?_ ?_ ?_ _ _
  · simp (disch := decide) only [Matrix.cons_val, StableHlo.after_cons, StableHlo.after_nil, StableHlo.nullary_result', StableHlo.unary_result', StableHlo.binary_result', StableHlo.ternary_result', StableHlo.reshape_result', StableHlo.nullary_result_ne', StableHlo.unary_result_ne', StableHlo.binary_result_ne', StableHlo.ternary_result_ne', StableHlo.reshape_result_ne', StableHlo.nary_result_ne']
    simp only [a34, a62, a77]
    unfold Cert.ReferenceIdeal.ReadP.val_main_v97 Cert.ReferenceIdeal.ReadP.val_main_v96 Cert.ReferenceIdeal.ReadP.val_main_v95 Cert.ReferenceIdeal.ReadP.val_main_cst_29 Cert.ReferenceIdeal.ReadP.val_main_v94 Cert.ReferenceIdeal.ReadP.val_main_v93 Cert.ReferenceIdeal.ReadP.val_main_cst_28 Cert.ReferenceIdeal.ReadP.val_main_v92 Cert.ReferenceIdeal.ReadP.val_main_cst_27 Cert.ReferenceIdeal.ReadP.val_main_v91 Cert.ReferenceIdeal.ReadP.val_main_cst_26 Cert.ReferenceIdeal.ReadP.val_main_v90 Cert.ReferenceIdeal.ReadP.val_main_cst_25
    rfl
  · simp (disch := decide) only [Matrix.cons_val, StableHlo.after_cons, StableHlo.after_nil, StableHlo.nullary_result', StableHlo.unary_result', StableHlo.binary_result', StableHlo.ternary_result', StableHlo.reshape_result', StableHlo.nullary_result_ne', StableHlo.unary_result_ne', StableHlo.binary_result_ne', StableHlo.ternary_result_ne', StableHlo.reshape_result_ne', StableHlo.nary_result_ne']
    simp only [a34]
    unfold Cert.ReferenceIdeal.ReadP.val_main_v98
    rfl
  · simp (disch := decide) only [Matrix.cons_val, StableHlo.after_cons, StableHlo.after_nil, StableHlo.nullary_result', StableHlo.unary_result', StableHlo.binary_result', StableHlo.ternary_result', StableHlo.reshape_result', StableHlo.nullary_result_ne', StableHlo.unary_result_ne', StableHlo.binary_result_ne', StableHlo.ternary_result_ne', StableHlo.reshape_result_ne', StableHlo.nary_result_ne']
    simp only [a62]
    unfold Cert.ReferenceIdeal.ReadP.val_main_v99
    rfl
  · simp (disch := decide) only [Matrix.cons_val, StableHlo.after_cons, StableHlo.after_nil, StableHlo.nullary_result', StableHlo.unary_result', StableHlo.binary_result', StableHlo.ternary_result', StableHlo.reshape_result', StableHlo.nullary_result_ne', StableHlo.unary_result_ne', StableHlo.binary_result_ne', StableHlo.ternary_result_ne', StableHlo.reshape_result_ne', StableHlo.nary_result_ne']
    simp only [a77]
    unfold Cert.ReferenceIdeal.ReadP.val_main_v100 Cert.ReferenceIdeal.ReadP.val_main_v91 Cert.ReferenceIdeal.ReadP.val_main_cst_26 Cert.ReferenceIdeal.ReadP.val_main_v90 Cert.ReferenceIdeal.ReadP.val_main_cst_25
    rfl

/-! ## The tail of the kernel's program against the reference -/

/-- The host operations after the region leave in the result buffer what the reference returns, whenever the ball
    centres and the radii they read are the reference's and the intra term they compute from the region's output is
    the reference's intra term: the overlap term, the diversity term, the weighted total and the stacking are the same
    operations in both programs. -/
theorem tail_eq (W : Valuation Cert.KernelIdeal.τ Cert.KernelIdeal.sig (Elt Ideal))
    (x0 : FVec Ideal Cert.ReferenceIdeal.S131072x256 .f32) (x1 : IVec Cert.ReferenceIdeal.S131072 32)
    (x2 : FVec Ideal Cert.ReferenceIdeal.S100x2x256 .f32) (x3 : FVec Ideal Cert.ReferenceIdeal.S100x2 .f32)
    (h2 : W (Proc.devRef .tc Cert.KernelIdeal.main_arg2) = x2)
    (hr : W (Proc.devRef .tc Cert.KernelIdeal.main_v2) = Cert.ReferenceIdeal.ReadP.val_main_v2 (F := Ideal) x3)
    (hL : Host.divf (Host.reduceAdd (W (Proc.devRef .tc Cert.KernelIdeal.main_v32)) (constant (F := Ideal) S_ .f32 0x00000000#32) reducesTo_S16x8x128_S_d0_1_2 h_S_)
            (constant (F := Ideal) S_ .f32 0x48000000#32)
          = Cert.ReferenceIdeal.ReadP.val_main_v46 (F := Ideal) x0 x1 x2 x3) :
    StableHlo.after (List.flatten (Cert.KernelIdeal.Hand.sfxOps (F := Ideal))) W (Proc.devRef .tc Cert.KernelIdeal.main_v89)
      = Cert.ReferenceIdeal.ReadP.val_main_v101 (F := Ideal) x0 x1 x2 x3 := by
  have a34 := (intra_eq (F := Ideal) W).trans hL
  have a62 := overlap_eq (F := Ideal) W x2 x3 h2 hr
  have a77 := diversity_eq (F := Ideal) W x2 h2
  have key := last_eq (F := Ideal) (StableHlo.after (List.flatten (pre13 (F := Ideal))) W) x0 x1 x2 x3 a34 a62 a77
  rw [after_sfx]
  exact key

/-- The radii the region's table and the tail read: the first four host operations before the region compute them
    from the fourth argument as the reference does (the absolute value plus the offset). -/
theorem radii_eq (m : (ℓ : Loc Cert.KernelIdeal.nD Cert.KernelIdeal.τ Cert.KernelIdeal.sig) → Buf (Elt Ideal) ℓ) (c : Dev Cert.KernelIdeal.nD) :
    Cert.KernelIdeal.Hand.V0 (F := Ideal) m c (Proc.devRef .tc Cert.KernelIdeal.main_v2)
      = Cert.ReferenceIdeal.ReadP.val_main_v2 (F := Ideal) (m ((c.tc : Thread Cert.KernelIdeal.nD Cert.KernelIdeal.τ).loc Cert.KernelIdeal.main_arg3)) := by
  dsimp only [Hand.V0, Hand.preOps]
  simp only [hostOps0, hostOps0_1, hostOps0_2, hostOps0_3, hostOps0_4, List.flatten_cons, List.flatten_nil, List.append_nil, List.cons_append, List.nil_append]
  after_results_simp
  unfold Cert.ReferenceIdeal.ReadP.val_main_v2 Cert.ReferenceIdeal.ReadP.val_main_v1 Cert.ReferenceIdeal.ReadP.val_main_cst Cert.ReferenceIdeal.ReadP.val_main_v0
  rfl

end Cert.Tail

end
-- ==== Proof.RefRow.lean ====
import proofs.«421938_j49280454754360_3_alg».proof.Proof.RefReadP
import proofs.«421938_j49280454754360_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

/-!
# The reference's intra term, row by row

The reference gathers, for every row `n` of `z`, the two centres and the two radii of the row's class, takes the two
squared distances, the softmax of their negatives over the temperature, the two weighted sums and the hinge, and adds
the 131072 hinges. Read on the extended reals, with every label below 100, row `n`'s hinge is the row function
`Cert.Spec.rowTerm` at the row's class (`ref_row`), and the sum of the hinges is the sum of the row function over the rows
(`ref_sum`). The steps: a label below 100 is its own start index (it is not negative, so it is not wrapped, and the
clamp into the table leaves it alone); each gather reads the table's row at that index; the reduction by `max` from `-∞`
over the two balls is the larger logit; every other operation is read at an index from its operands.
-/

noncomputable section

open scoped BigOperators

namespace Cert.RefRow

open Cert.ReferenceIdeal Cert.ReferenceIdeal.Gen Cert.ReferenceIdeal.ReadP Cert.Spec Idealize.ShloMosaic Idealize.ShloMosaic.ValueIdx

/-! ## Words below 100 -/

/-- Read as a signed integer, a 32-bit word below 100 is its natural value. -/
theorem toInt_of_lt (w : BitVec 32) (h : w.toNat < 100) : w.toInt = (w.toNat : Int) := by
  have hm : w.msb = false := by
    rw [BitVec.msb_eq_false_iff_two_mul_lt]; omega
  rw [BitVec.toInt_eq_msb_cond, hm]
  simp

/-- A word below 100 is not negative: the signed comparison with zero fails. -/
theorem cmpi_slt_zero_of_lt (w : BitVec 32) (h : w.toNat < 100) : IntOp.cmpi .slt w 0#32 = 0#1 := by
  have hn : ¬ (w.toInt < (0#32 : BitVec 32).toInt) := by
    rw [toInt_of_lt w h]; simp
  simp only [IntOp.cmpi, BitVec.slt]
  rw [decide_eq_false hn]
  rfl

theorem toInt_toNat_of_lt (w : BitVec 32) (h : w.toNat < 100) : w.toInt.toNat = w.toNat := by
  rw [toInt_of_lt w h]; simp

/-! ## The two gathers at an index

The table's first axis is collapsed and indexed by the start index (read signed, clamped to the table); the other
axes are offset axes read at the result's own coordinates. -/

/-- The gather of the rank-3 table at `(n, κ, k)`: row "start index `n`, clamped" of the table, at `(κ, k)`. -/
theorem gather3_apply {α : Type} (x : S100x2x256.Idx → α) (idx : IVec S131072x1 32) (n : Fin 131072) (κ : Fin 2)
    (k : Fin 256) :
    Host.gather gather_S100x2x256_S131072x1_S131072x2x256_12_0_n_n_0_1_12256 x idx (ix3 n κ k)
      = x (ix3 ⟨min (idx (ix2 n 0)).toInt.toNat 99, by omega⟩ κ k) := by
  unfold Host.gather
  congr 1
  funext a
  refine Fin.ext ?_
  match a with
  | ⟨0, _⟩ =>
    show GatherDims.start _ (ix3 n κ k) idx 0 + GatherDims.batchCoord _ (ix3 n κ k) 0 + GatherDims.offCoord _ (ix3 n κ k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S100x2x256_S131072x1_S131072x2x256_12_0_n_n_0_1_12256.startIndexMap from
      List.mem_singleton.mpr rfl)]
    have hsi : gather_S100x2x256_S131072x1_S131072x2x256_12_0_n_n_0_1_12256.siIdx (ix3 n κ k)
        ⟨List.idxOf (0 : Fin 3) gather_S100x2x256_S131072x1_S131072x2x256_12_0_n_n_0_1_12256.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show GatherDims.start _ (ix3 n κ k) idx 1 + GatherDims.batchCoord _ (ix3 n κ k) 1 + GatherDims.offCoord _ (ix3 n κ k) 1 = _
    rw [GatherDims.batchCoord_eq_zero _ _ _ List.not_mem_nil]
    unfold GatherDims.start
    rw [dif_neg (by decide)]
    unfold GatherDims.offCoord
    rw [dif_pos ((GatherDims.mem_sKept _ _).2 ⟨by decide, List.not_mem_nil⟩)]
    simp only [Nat.zero_add]
    rfl
  | ⟨2, _⟩ =>
    show GatherDims.start _ (ix3 n κ k) idx 2 + GatherDims.batchCoord _ (ix3 n κ k) 2 + GatherDims.offCoord _ (ix3 n κ k) 2 = _
    rw [GatherDims.batchCoord_eq_zero _ _ _ List.not_mem_nil]
    unfold GatherDims.start
    rw [dif_neg (by decide)]
    unfold GatherDims.offCoord
    rw [dif_pos ((GatherDims.mem_sKept _ _).2 ⟨by decide, List.not_mem_nil⟩)]
    simp only [Nat.zero_add]
    rfl

/-- The gather of the rank-2 table at `(n, κ)`: row "start index `n`, clamped" of the table, at `κ`. -/
theorem gather2_apply {α : Type} (x : S100x2.Idx → α) (idx : IVec S131072x1 32) (n : Fin 131072) (κ : Fin 2) :
    Host.gather gather_S100x2_S131072x1_S131072x2_1_0_n_n_0_1_12 x idx (ix2 n κ)
      = x (ix2 ⟨min (idx (ix2 n 0)).toInt.toNat 99, by omega⟩ κ) := by
  unfold Host.gather
  congr 1
  funext a
  refine Fin.ext ?_
  match a with
  | ⟨0, _⟩ =>
    show GatherDims.start _ (ix2 n κ) idx 0 + GatherDims.batchCoord _ (ix2 n κ) 0 + GatherDims.offCoord _ (ix2 n κ) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x2_S131072x1_S131072x2_1_0_n_n_0_1_12.startIndexMap from
      List.mem_singleton.mpr rfl)]
    have hsi : gather_S100x2_S131072x1_S131072x2_1_0_n_n_0_1_12.siIdx (ix2 n κ)
        ⟨List.idxOf (0 : Fin 2) gather_S100x2_S131072x1_S131072x2_1_0_n_n_0_1_12.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show GatherDims.start _ (ix2 n κ) idx 1 + GatherDims.batchCoord _ (ix2 n κ) 1 + GatherDims.offCoord _ (ix2 n κ) 1 = _
    rw [GatherDims.batchCoord_eq_zero _ _ _ List.not_mem_nil]
    unfold GatherDims.start
    rw [dif_neg (by decide)]
    unfold GatherDims.offCoord
    rw [dif_pos ((GatherDims.mem_sKept _ _).2 ⟨by decide, List.not_mem_nil⟩)]
    simp only [Nat.zero_add]
    rfl

/-! ## The start index of row `n`

The printed program wraps a negative label by `+100` (a compare, an add and a select); a label below 100 is not
negative, so the select takes the label itself, its signed reading is its natural value and the clamp to
`[0, 99]` leaves it alone. -/

theorem v8_apply (x1 : IVec S131072 32) (n : Fin 131072) (h : (x1 (ix1 n)).toNat < 100) :
    ReadP.val_main_v8 (F := Ideal) x1 (ix2 n 0) = x1 (ix1 n) := by
  have e : idx_main_v8 (ix2 n (0 : Fin 1)) = ix1 n := by
    funext a; refine Fin.ext ?_; match a with | ⟨0, _⟩ => rfl
  rw [val_main_v8_apply, e, val_main_v7_apply, val_main_v4_apply, val_main_v3_apply, val_main_c_apply,
    cmpi_slt_zero_of_lt _ h, select_zero]

theorem v15_apply (x1 : IVec S131072 32) (n : Fin 131072) (h : (x1 (ix1 n)).toNat < 100) :
    ReadP.val_main_v15 (F := Ideal) x1 (ix2 n 0) = x1 (ix1 n) := by
  have e : idx_main_v15 (ix2 n (0 : Fin 1)) = ix1 n := by
    funext a; refine Fin.ext ?_; match a with | ⟨0, _⟩ => rfl
  rw [val_main_v15_apply, e, val_main_v14_apply, val_main_v11_apply, val_main_v10_apply, val_main_c_1_apply,
    cmpi_slt_zero_of_lt _ h, select_zero]

theorem min_toInt_toNat_of_lt (w : BitVec 32) (h : w.toNat < 100) : min w.toInt.toNat 99 = w.toNat := by
  rw [toInt_toNat_of_lt w h]; omega

/-- The gathered centres: row `n`, ball `κ`, entry `k` is the table's at the row's label. -/
theorem v9_apply (x1 : IVec S131072 32) (x2 : FVec Ideal S100x2x256 .f32) (n : Fin 131072) (κ : Fin 2) (k : Fin 256)
    (h : (x1 (ix1 n)).toNat < 100) :
    ReadP.val_main_v9 (F := Ideal) x1 x2 (ix3 n κ k) = x2 (ix3 ⟨(x1 (ix1 n)).toNat, h⟩ κ k) := by
  unfold ReadP.val_main_v9
  rw [gather3_apply]
  congr 1
  funext a
  refine Fin.ext ?_
  match a with
  | ⟨0, _⟩ =>
    show min (ReadP.val_main_v8 (F := Ideal) x1 (ix2 n 0)).toInt.toNat 99 = (x1 (ix1 n)).toNat
    rw [v8_apply x1 n h, min_toInt_toNat_of_lt _ h]
  | ⟨1, _⟩ => rfl
  | ⟨2, _⟩ => rfl

/-- The gathered radii: row `n`, ball `κ` is the radius table's at the row's label. -/
theorem v16_apply (x1 : IVec S131072 32) (x3 : FVec Ideal S100x2 .f32) (n : Fin 131072) (κ : Fin 2)
    (h : (x1 (ix1 n)).toNat < 100) :
    ReadP.val_main_v16 (F := Ideal) x1 x3 (ix2 n κ) = ReadP.val_main_v2 (F := Ideal) x3 (ix2 ⟨(x1 (ix1 n)).toNat, h⟩ κ) := by
  unfold ReadP.val_main_v16
  rw [gather2_apply]
  congr 1
  funext a
  refine Fin.ext ?_
  match a with
  | ⟨0, _⟩ =>
    show min (ReadP.val_main_v15 (F := Ideal) x1 (ix2 n 0)).toInt.toNat 99 = (x1 (ix1 n)).toNat
    rw [v15_apply x1 n h, min_toInt_toNat_of_lt _ h]
  | ⟨1, _⟩ => rfl

/-! ## The maximum over the two balls -/

/-- The word of `-∞` is the bottom of the extended reals. -/
theorem ofBits_neg_inf : Ideal.ofBits .f32 0xFF800000#32 = (⊥ : EReal) := by
  simp [Ideal.ofBits, Ideal.ieee]

/-- A fold of a commutative, associative operation over a two-element index set. -/
theorem fold_fin_two {β : Type} (op : β → β → β) [Std.Commutative op] [Std.Associative op] (b : β) (f : Fin 2 → β) :
    (Finset.univ : Finset (Fin 2)).fold op b f = op (f 0) (op (f 1) b) := by
  rw [show (Finset.univ : Finset (Fin 2)) = {0, 1} from rfl, Finset.fold_insert (by decide), Finset.fold_singleton]

section Row

variable (x0 : FVec Ideal S131072x256 .f32) (x1 : IVec S131072 32) (x2 : FVec Ideal S100x2x256 .f32)
  (x3 : FVec Ideal S100x2 .f32)

/-- The reduction by `max` over the axis of the two balls, from `-∞`: the larger of the two entries. -/
theorem v25_apply (n : Fin 131072) :
    ReadP.val_main_v25 (F := Ideal) x0 x1 x2 (ix1 n)
      = max (ReadP.val_main_v24 (F := Ideal) x0 x1 x2 (ix2 n 0)) (ReadP.val_main_v24 (F := Ideal) x0 x1 x2 (ix2 n 1)) := by
  unfold ReadP.val_main_v25
  generalize ReadP.val_main_v24 (F := Ideal) x0 x1 x2 = y
  have h : S131072x2.Reduces [1] S131072 := by decide
  rw [Host.reduce_eq_fold_single (FloatOps.maximumf (F := Ideal) (φ := .f32)) y (val_main_cst_5 (F := Ideal))
    reducesTo_S131072x2_S131072_d1 h h_S_ (ix1 n)]
  have e0 : h.lift (ix1 n) (0 : Fin 2) = ix2 n 0 := by
    funext a; refine Fin.ext ?_; match a with | ⟨0, _⟩ => rfl | ⟨1, _⟩ => rfl
  have e1 : h.lift (ix1 n) (1 : Fin 2) = ix2 n 1 := by
    funext a; refine Fin.ext ?_; match a with | ⟨0, _⟩ => rfl | ⟨1, _⟩ => rfl
  refine (fold_fin_two (FloatOps.maximumf (F := Ideal) (φ := .f32)) _ _).trans ?_
  show max (y (h.lift (ix1 n) (0 : Fin 2))) (max (y (h.lift (ix1 n) (1 : Fin 2))) (Ideal.ofBits .f32 0xFF800000#32)) = _
  rw [e0, e1, ofBits_neg_inf, max_bot_right]

/-! ## One row of the reference, operation by operation -/

/-- The squared distance of row `n` to ball `κ` of its class. -/
theorem v21_apply' (n : Fin 131072) (κ : Fin 2) (h : (x1 (ix1 n)).toNat < 100) :
    ReadP.val_main_v21 (F := Ideal) x0 x1 x2 (ix2 n κ)
      = sqDist (fun k => x0 (ix2 n k)) (fun k => x2 (ix3 ⟨(x1 (ix1 n)).toNat, h⟩ κ k)) := by
  rw [val_main_v21_apply, val_main_cst_3_apply, Ideal.ofBits_def, Ideal.ofBits_zero_f32, zero_add]
  unfold Cert.Spec.sqDist
  refine Finset.sum_congr rfl fun k _ => ?_
  have e : idx_main_v21 (ix2 n κ) k = ix3 n κ k := by
    funext a; refine Fin.ext ?_; match a with | ⟨0, _⟩ => rfl | ⟨1, _⟩ => rfl | ⟨2, _⟩ => rfl
  have e' : idx_main_v17 (idx_main_v18 (ix3 n κ k)) = ix2 n k := by
    funext a; refine Fin.ext ?_; match a with | ⟨0, _⟩ => rfl | ⟨1, _⟩ => rfl
  rw [e, val_main_v20_apply, val_main_v19_apply, val_main_v18_apply, val_main_v17_apply, e', v9_apply x1 x2 n κ k h]
  rfl

/-- The logit of ball `κ`: minus the squared distance, over the temperature. -/
theorem v24_apply' (n : Fin 131072) (κ : Fin 2) (h : (x1 (ix1 n)).toNat < 100) :
    ReadP.val_main_v24 (F := Ideal) x0 x1 x2 (ix2 n κ)
      = Ideal.div (-(sqDist (fun k => x0 (ix2 n k)) (fun k => x2 (ix3 ⟨(x1 (ix1 n)).toNat, h⟩ κ k)))) half := by
  rw [val_main_v24_apply, val_main_v22_apply, val_main_v23_apply, val_main_cst_4_apply, v21_apply' x0 x1 x2 n κ h]
  rfl

/-- The shift of the softmax: the larger logit (the `max` with `-∞` in front of it changes nothing). -/
theorem v27_apply' (n : Fin 131072) (h : (x1 (ix1 n)).toNat < 100) :
    ReadP.val_main_v27 (F := Ideal) x0 x1 x2 (ix1 n)
      = max (Ideal.div (-(sqDist (fun k => x0 (ix2 n k)) (fun k => x2 (ix3 ⟨(x1 (ix1 n)).toNat, h⟩ 0 k)))) half)
          (Ideal.div (-(sqDist (fun k => x0 (ix2 n k)) (fun k => x2 (ix3 ⟨(x1 (ix1 n)).toNat, h⟩ 1 k)))) half) := by
  rw [val_main_v27_apply, val_main_v26_apply, val_main_cst_6_apply, v25_apply, v24_apply' x0 x1 x2 n 0 h,
    v24_apply' x0 x1 x2 n 1 h]
  simp only [Ideal.maximumf_def, Ideal.ofBits_def, ofBits_neg_inf, max_bot_left]

/-- The two shifted logits of row `n`, named once: what the remaining operations are read in. -/
abbrev dsq (n : Fin 131072) (l : Fin 100) (κ : Fin 2) : EReal :=
  sqDist (fun k => x0 (ix2 n k)) (fun k => x2 (ix3 l κ k))
abbrev lgt (n : Fin 131072) (l : Fin 100) (κ : Fin 2) : EReal := Ideal.div (-(dsq x0 x2 n l κ)) half
abbrev ex (n : Fin 131072) (l : Fin 100) (κ : Fin 2) : EReal :=
  Ideal.exp (lgt x0 x2 n l κ - max (lgt x0 x2 n l 0) (lgt x0 x2 n l 1))

/-- The exponential of the shifted logit of ball `κ`. -/
theorem v31_apply' (n : Fin 131072) (κ : Fin 2) (h : (x1 (ix1 n)).toNat < 100) :
    ReadP.val_main_v31 (F := Ideal) x0 x1 x2 (ix2 n κ) = ex x0 x2 n ⟨(x1 (ix1 n)).toNat, h⟩ κ := by
  have e : idx_main_v28 (idx_main_v29 (ix2 n κ)) = ix1 n := by
    funext a; refine Fin.ext ?_; match a with | ⟨0, _⟩ => rfl
  rw [val_main_v31_apply, val_main_v30_apply, val_main_v29_apply, val_main_v28_apply, e, v27_apply' x0 x1 x2 n h,
    v24_apply' x0 x1 x2 n κ h]
  rfl

/-- The softmax's denominator: the sum of the two exponentials. -/
theorem v32_apply' (n : Fin 131072) (h : (x1 (ix1 n)).toNat < 100) :
    ReadP.val_main_v32 (F := Ideal) x0 x1 x2 (ix1 n)
      = ex x0 x2 n ⟨(x1 (ix1 n)).toNat, h⟩ 0 + ex x0 x2 n ⟨(x1 (ix1 n)).toNat, h⟩ 1 := by
  have e : ∀ κ : Fin 2, idx_main_v32 (ix1 n) κ = ix2 n κ := fun κ => by
    funext a; refine Fin.ext ?_; match a with | ⟨0, _⟩ => rfl | ⟨1, _⟩ => rfl
  rw [val_main_v32_apply, val_main_cst_7_apply, Ideal.ofBits_def, Ideal.ofBits_zero_f32, zero_add, Fin.sum_univ_two,
    e 0, e 1, v31_apply' x0 x1 x2 n 0 h, v31_apply' x0 x1 x2 n 1 h]

/-- The softmax weight of ball `κ`. -/
theorem v35_apply' (n : Fin 131072) (κ : Fin 2) (h : (x1 (ix1 n)).toNat < 100) :
    ReadP.val_main_v35 (F := Ideal) x0 x1 x2 (ix2 n κ)
      = Ideal.div (ex x0 x2 n ⟨(x1 (ix1 n)).toNat, h⟩ κ)
          (ex x0 x2 n ⟨(x1 (ix1 n)).toNat, h⟩ 0 + ex x0 x2 n ⟨(x1 (ix1 n)).toNat, h⟩ 1) := by
  have e : idx_main_v33 (idx_main_v34 (ix2 n κ)) = ix1 n := by
    funext a; refine Fin.ext ?_; match a with | ⟨0, _⟩ => rfl
  rw [val_main_v35_apply, val_main_v34_apply, val_main_v33_apply, e, v32_apply' x0 x1 x2 n h,
    v31_apply' x0 x1 x2 n κ h]
  rfl

/-- The gathered radius of ball `κ`: the absolute value of the class's entry plus ε. -/
theorem v16_apply' (n : Fin 131072) (κ : Fin 2) (h : (x1 (ix1 n)).toNat < 100) :
    ReadP.val_main_v16 (F := Ideal) x1 x3 (ix2 n κ) = radius x3 ⟨(x1 (ix1 n)).toNat, h⟩ κ := by
  rw [v16_apply x1 x3 n κ h, val_main_v2_apply, val_main_v0_apply, val_main_v1_apply, val_main_cst_apply]
  rfl

/-- THE ROW: the reference's hinge of row `n` is the row function at the row's class. -/
theorem ref_row (n : Fin 131072) (h : (x1 (ix1 n)).toNat < 100) :
    ReadP.val_main_v44 (F := Ideal) x0 x1 x2 x3 (ix1 n) = Cert.Spec.rowTerm x0 x2 x3 n ⟨(x1 (ix1 n)).toNat, h⟩ := by
  have e37 : ∀ κ : Fin 2, idx_main_v37 (ix1 n) κ = ix2 n κ := fun κ => by
    funext a; refine Fin.ext ?_; match a with | ⟨0, _⟩ => rfl | ⟨1, _⟩ => rfl
  have e40 : ∀ κ : Fin 2, idx_main_v40 (ix1 n) κ = ix2 n κ := fun κ => by
    funext a; refine Fin.ext ?_; match a with | ⟨0, _⟩ => rfl | ⟨1, _⟩ => rfl
  rw [val_main_v44_apply, val_main_call0_v0_apply, val_main_call0_cst_apply, val_main_v43_apply, val_main_v42_apply,
    val_main_v41_apply, val_main_cst_10_apply, val_main_v37_apply, val_main_v40_apply, val_main_cst_8_apply,
    val_main_cst_9_apply, Fin.sum_univ_two, Fin.sum_univ_two, e37 0, e37 1, e40 0, e40 1,
    val_main_v36_apply, val_main_v36_apply, val_main_v39_apply, val_main_v39_apply, val_main_v38_apply,
    val_main_v38_apply, v35_apply' x0 x1 x2 n 0 h, v35_apply' x0 x1 x2 n 1 h, v21_apply' x0 x1 x2 n 0 h,
    v21_apply' x0 x1 x2 n 1 h, v16_apply' x1 x3 n 0 h, v16_apply' x1 x3 n 1 h]
  simp only [Ideal.ofBits_def, Ideal.ofBits_zero_f32, zero_add, Ideal.maximumf_def, Ideal.subf_def, Ideal.mulf_def]
  rfl

end Row

/-! ## The sum of the rows -/

/-- A row index of the rank-1 shape is its one coordinate. -/
def rowEquiv : Fin 131072 ≃ S131072.Idx where
  toFun n := ix1 n
  invFun i := i 0
  left_inv _ := rfl
  right_inv i := (eq_ix1 i).symm

/-- The reference's sum of the 131072 hinges, in the row function's terms. -/
theorem ref_sum (x0 : FVec Ideal S131072x256 .f32) (x1 : IVec S131072 32) (x2 : FVec Ideal S100x2x256 .f32)
    (x3 : FVec Ideal S100x2 .f32) (hl : ∀ n : Fin 131072, (x1 (ix1 n)).toNat < 100) :
    ReadP.val_main_v45 (F := Ideal) x0 x1 x2 x3 ix0
      = 0 + ∑ n : Fin 131072, Cert.Spec.rowTerm x0 x2 x3 n ⟨(x1 (ix1 n)).toNat, hl n⟩ := by
  rw [val_main_v45_apply, val_main_cst_11_apply, Ideal.ofBits_def, Ideal.ofBits_zero_f32]
  refine congrArg (0 + ·) ?_
  refine (Equiv.sum_comp rowEquiv (ReadP.val_main_v44 (F := Ideal) x0 x1 x2 x3)).symm.trans ?_
  exact Finset.sum_congr rfl fun n _ => ref_row x0 x1 x2 x3 n (hl n)

end Cert.RefRow

end
-- ==== Proof.KRes.lean ====
import proofs.«421938_j49280454754360_3_alg».proof.Proof.KVal
import proofs.«421938_j49280454754360_3_alg».proof.Proof.Tail
import proofs.«421938_j49280454754360_3_alg».proof.Proof.RefRow
import proofs.«421938_j49280454754360_3_alg».proof.Proof.RefReadP
import Idealize.ShloMosaic.Lib.Pipeline.FrameSuffix
import Idealize.ShloMosaic.PureOps.Ideal.Laws

/-!
# The kernel program's result is the reference's

After the run the kernel program's result buffer holds what its 98 closing host operations make of three things: the
pallas_call's output array, the centres, and the radii. The output array sums to the sum of all rows' hinges
(finite centres, labels in range), which is also what the reference sums; so the two intra terms agree, and the rest of
the two programs is the same text.
-/

set_option maxRecDepth 16384

noncomputable section

open scoped BigOperators

namespace Cert.KRes

open Cert.KernelIdeal Cert.KernelIdeal.Gen Cert.KernelIdeal.Hand Cert.KVal
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The contents the closing host operations start from: the region-entry contents with the pipeline's four arrays at
    what the run left in them. -/
abbrev W (c : Dev nD) : Valuation τ sig (Elt Ideal) :=
  Pipeline.withArrays (cfgs 0).spec c (V0 m c) fun w => (dats m 0 c).arrAt w (cfgs 0).N

/-- The centres are no array of the pipeline and no host operation writes them. -/
theorem W_arg2 (c : Dev nD) : W m c (Proc.devRef .tc main_arg2) = X2 m c :=
  (Pipeline.withArrays_of_ne _ c (V0 m c) _ main_arg2 (by exact (by decide : ∀ w, Pipeline.arrRef spec0 w ≠ main_arg2))).trans (V_main_arg2 m c)

/-- The radii buffer is no array of the pipeline: it holds what the host operations before the region computed. -/
theorem W_v2 (c : Dev nD) : W m c (Proc.devRef .tc main_v2) = Cert.ReferenceIdeal.ReadP.val_main_v2 (F := Ideal) (X3 m c) :=
  (Pipeline.withArrays_of_ne _ c (V0 m c) _ main_v2 (by exact (by decide : ∀ w, Pipeline.arrRef spec0 w ≠ main_v2))).trans (Cert.Tail.radii_eq m c)

/-- The pallas_call's output buffer holds the array `G`. -/
theorem W_v32 (c : Dev nD) : W m c (Proc.devRef .tc main_v32) = G m c :=
  (Pipeline.withArrays_arr spec0 launch0.win.arr_inj c _ _ 3).trans (final3 m c)

/-- THE TWO INTRA TERMS AGREE: the mean of the kernel's output array is the reference's mean of the row hinges. -/
theorem intra_eq (c : Dev nD) (hfin : ∀ i, ∃ a : ℝ, X2 m c i = (a : EReal))
    (hlab : ∀ n : Fin 131072, (X1 m c (ix1 n)).toNat < 100) :
    Host.divf (Host.reduceAdd (W m c (Proc.devRef .tc main_v32)) (constant (F := Ideal) S_ .f32 0x00000000#32) reducesTo_S16x8x128_S_d0_1_2 h_S_)
        (constant (F := Ideal) S_ .f32 0x48000000#32)
      = Cert.ReferenceIdeal.ReadP.val_main_v46 (F := Ideal) (X0 m c) (X1 m c) (X2 m c) (X3 m c) := by
  rw [W_v32]
  funext i
  obtain rfl := eq_ix0 i
  show FloatOps.hostDivf (Host.reduceAdd (G m c) (constant (F := Ideal) S_ .f32 0x00000000#32) reducesTo_S16x8x128_S_d0_1_2 h_S_ ix0) (Ideal.ofBits .f32 0x48000000#32)
    = FloatOps.hostDivf (Cert.ReferenceIdeal.ReadP.val_main_v45 (F := Ideal) (X0 m c) (X1 m c) (X2 m c) (X3 m c) ix0) (Ideal.ofBits .f32 0x48000000#32)
  refine congrArg (fun a => FloatOps.hostDivf (F := Ideal) (φ := .f32) a (Ideal.ofBits .f32 0x48000000#32)) ?_
  rw [Cert.RefRow.ref_sum (X0 m c) (X1 m c) (X2 m c) (X3 m c) hlab]
  have hs : Host.reduceAdd (G m c) (constant (F := Ideal) S_ .f32 0x00000000#32) reducesTo_S16x8x128_S_d0_1_2 h_S_ ix0
      = Ideal.ofBits .f32 0x00000000#32 + ∑ i : S16x8x128.Idx, G m c i := by
    generalize G m c = y
    simp only [Host.reduceAdd, Ideal.hostReduceAdd_def]
    exact Ideal.hostReduceAdd_total reducesTo_S16x8x128_S_d0_1_2 (fun b => b.elim0) y _ ix0
  rw [hs, Ideal.ofBits_zero_f32, sum_G m c hfin hlab]
  rfl

/-- From the frame run's post, the four argument arrays end as launched: `z` is window 0's array, an input, never
    written back; the other three bypass the region and no host line writes them. -/
theorem args_of_post (r : PUnit × MemSt nD τ sig (Elt Ideal))
    (h : Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14]) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c))⟩

/-- THE KERNEL PROGRAM'S RESULT: what the closing host operations leave in the result buffer is the reference's result
    of the same four arguments. -/
theorem kernel_result (c : Dev nD) (hfin : ∀ i, ∃ a : ℝ, X2 m c i = (a : EReal))
    (hlab : ∀ n : Fin 131072, (X1 m c (ix1 n)).toNat < 100) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_v89
      = Cert.ReferenceIdeal.ReadP.val_main_v101 (F := Ideal) (X0 m c) (X1 m c) (X2 m c) (X3 m c) := by
  unfold Pipeline.afterTail₀
  exact Cert.Tail.tail_eq (W m c) (X0 m c) (X1 m c) (X2 m c) (X3 m c) (W_arg2 m c) (W_v2 m c) (intra_eq m c hfin hlab)

end Cert.KRes

end
-- ==== Proof.lean ====
/- The certificate of the intra/overlap/diversity ball loss: the Pallas kernel's program against its jnp reference.

   The kernel's program builds a 256 x 514 table of the classes' centres and squared radii (a "high" half and a "low" half
   of each entry's value minus itself), gathers each row's class from it by a one-hot matrix product inside one
   pallas_call over 16 tiles of 8192 rows, leaves per tile the sum of the rows' hinges, and finishes on the host: the mean
   of the tile sums, the overlap and diversity terms of the balls, and the stacked result. The reference gathers the
   class's centres and radii by indexing and takes the mean of the same hinges, then the same overlap and diversity
   terms. Under the precondition — every float input finite and every label in [0, 100) — the two results are equal as
   extended reals:
   * the gather: with the label l in range the one-hot row has its ones at columns l and l + 128, so the product is the
     table's row l plus its row l + 128, the class's entries plus (entry - entry) = 0 for finite entries;
   * the row function (squared distances, the two-way softmax shifted by its maximum, the hinge) is the same expression
     on both sides up to 0 - d = -d, max ⊥ a = a and 0 + a = a;
   * the sum over the 131072 rows is the sum over the 16 tiles of the tile sums, and the output array, zero outside each
     tile's corner, sums to that;
   * everything after the intra term is the same text in both programs.
   The three frames: both kernel programs run to the end and leave their arguments unchanged (the host lines write only
   their own results, the region writes only its own output array); the reference's frame is its run with the result
   dropped. The idealization rewrote nothing, so `preserves` is trivial. -/
import proofs.«421938_j49280454754360_3_alg».proof.Defs
import proofs.«421938_j49280454754360_3_alg».proof.Proof.Gen.Kernel
import proofs.«421938_j49280454754360_3_alg».proof.Proof.Gen.KernelIdeal
import proofs.«421938_j49280454754360_3_alg».proof.Proof.Gen.ReferenceIdeal
import proofs.«421938_j49280454754360_3_alg».proof.Proof.Gen.Pre_finite_inputs
import proofs.«421938_j49280454754360_3_alg».proof.Proof.KernelFrame
import proofs.«421938_j49280454754360_3_alg».proof.Proof.KernelIdealFrame
import proofs.«421938_j49280454754360_3_alg».proof.Proof.RefRun
import proofs.«421938_j49280454754360_3_alg».proof.Proof.RefReadP
import proofs.«421938_j49280454754360_3_alg».proof.Proof.PreDecode
import proofs.«421938_j49280454754360_3_alg».proof.Proof.KRes
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs, run from memories agreeing on the four arguments, end with the reference's result term of
    those arguments: the reference by its run read back, the kernel's program by its frame run, whose result buffer the
    closing host lines fill with that same term (the precondition gives the finiteness and the label range this needs). -/
theorem algebraic : Cert.algebraic_KernelIdeal_ReferenceIdeal := by
  intro m ρ m' ρ' hpre hagree
  refine ⟨fun c => Cert.ReferenceIdeal.ReadP.val_main_v101 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m ρ)
    obtain ⟨-, hc, -, hl⟩ := Cert.PreDecode.decode _ _ _ _ (hpre c)
    have hargs := Cert.KRes.args_of_post m r h c
    exact ⟨((h c).2 Cert.KernelIdeal.main_v89 (Pipeline.mem_restRefs_of Cert.KernelIdeal.main_v89 (by decide) (by decide))).trans
      (Cert.KRes.kernel_result m c hc hl), hargs⟩
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v101_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
